-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S1024x1024 : Shape := ⟨2, ![1024, 1024]⟩
abbrev S1024 : Shape := ⟨1, ![1024]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x1024x2048 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x1024x2048 : Shape := ⟨3, ![4, 1024, 2048]⟩
abbrev S1024x1024 : Shape := ⟨2, ![1024, 1024]⟩
abbrev S1024 : Shape := ⟨1, ![1024]⟩
abbrev S4x2048x1024 : Shape := ⟨3, ![4, 2048, 1024]⟩
abbrev S1024x3072 : Shape := ⟨2, ![1024, 3072]⟩
abbrev S3072 : Shape := ⟨1, ![3072]⟩
abbrev S1x3072 : Shape := ⟨2, ![1, 3072]⟩
abbrev S1x512x1024 : Shape := ⟨3, ![1, 512, 1024]⟩
abbrev S512x1024 : Shape := ⟨2, ![512, 1024]⟩
abbrev S512x3072 : Shape := ⟨2, ![512, 3072]⟩
abbrev S1x1024x1024 : Shape := ⟨3, ![1, 1024, 1024]⟩
abbrev S1024x1 : Shape := ⟨2, ![1024, 1]⟩
abbrev S1024x512 : Shape := ⟨2, ![1024, 512]⟩

abbrev nBuf : Space → Nat
  | .hbm => 20
  | .vmem => 21
  | .smem => 0
  | _ => 0

abbrev bufTy : (tb : Table) → Fin (tcTables nBuf tb) → BufTy
  | .hbm, ⟨0, _⟩ => ⟨S4x1024x2048, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S4x2048x1024, .bf16⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S1x3072, .f32⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x3072, .bf16⟩
  | .local _ .vmem, ⟨3, _⟩ => ⟨S1x3072, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 4], ![false, false, false]⟩

def k1_cond3 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_13 : BitVec 32 := 0#32
  let v20 : BitVec 1 := Scalar.cmpi .ne v19 c0_i32_13
  v20

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S4x1024x2048_S4x2048x1024_0_2_1 : S4x1024x2048.Transposes [0, 2, 1] S4x2048x1024
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .bf16 = 32 ∨ (Rect.block (s := S4x2048x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S1024x1024 : Shape := ⟨2, ![1024, 1024]⟩
abbrev S1024 : Shape := ⟨1, ![1024]⟩
abbrev S4x2048x1024 : Shape := ⟨3, ![4, 2048, 1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x2048, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S4x1024x2048_S4x2048x1024_0_2_1 : S4x1024x2048.Transposes [0, 2, 1] S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Frame0.lean ====
/-
  The first launch of the word-level kernel program: the fused projection. At grid point (b, s) the body reads
  the block of rows [512 s, 512 s + 512) of batch b of the transposed input, the whole fused weight [1024, 3072] and
  the whole fused bias [1, 3072], forms  x_blk · W + bias  once, and stores its three column thirds, each
  [512, 1024], into the blocks of the three result arrays at the same block index. Stated here, at any float
  family and at any contents `V` the region is entered from: what each staging buffer holds after the body
  (the stores' canonical read-back over the loaded blocks), the body's triple, the pipeline's proof data, and the
  body obligation at every grid point.
-/
import proofs.«427284_j19997367730626_3_alg».proof.Proof.Gen.Kernel.Launch
import proofs.«427284_j19997367730626_3_alg».proof.Proof.Gen.Kernel.Skeleton
import proofs.«427284_j19997367730626_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved): for any proof data over the arrays `V` whose body leaves inputs in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle each result buffer is stored through: the whole [1, 512, 1024] block. -/
abbrev r0_o : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three result buffers, from the three loaded blocks: the column thirds
    0, 1, 2 of  x · W + bias. -/
def out0_3 (x0 : Vec F S1x512x1024 .bf16) (x1 : Vec F S1024x3072 .bf16) (x2 : Vec F S1x3072 .f32) : Vec F S1x512x1024 .bf16 :=
  View.canon [⟨r0_o, k0_pay2 (View.ld x0 r0_o) (View.ld x1 r0_w) (View.ld x2 r0_b)⟩]
def out0_4 (x0 : Vec F S1x512x1024 .bf16) (x1 : Vec F S1024x3072 .bf16) (x2 : Vec F S1x3072 .f32) : Vec F S1x512x1024 .bf16 :=
  View.canon [⟨r0_o, k0_pay3 (View.ld x0 r0_o) (View.ld x1 r0_w) (View.ld x2 r0_b)⟩]
def out0_5 (x0 : Vec F S1x512x1024 .bf16) (x1 : Vec F S1024x3072 .bf16) (x2 : Vec F S1x3072 .f32) : Vec F S1x512x1024 .bf16 :=
  View.canon [⟨r0_o, k0_pay4 (View.ld x0 r0_o) (View.ld x1 r0_w) (View.ld x2 r0_b)⟩]

/-- One whole-block store covers the block. -/
theorem cover0_o (p0 : Vec F S1x512x1024 .bf16) (y : S1x512x1024.Idx) :
    ∃ pc ∈ ([⟨r0_o, p0⟩] : List (View.Piece (Elt F) S1x512x1024 .bf16)), y ∈ pc.1.set :=
  View.cover_of_tiled [⟨r0_o, p0⟩] S1x512x1024.size (by rfl) y

set_option maxHeartbeats 4000000 in
/-- The projection body on whole staging memrefs — the three inputs' at contents `x0 x1 x2`, the three results' at
    anything — runs to the continuation with the inputs as they were and each result buffer at its third. -/
theorem sound_kernel0 (c : Dev nD) (E : Set ℕ) (i : grid0.Coords)
    (arg2 : Memref sig .tc .vmem S1x512x1024 .bf16) (harg2 : arg2.IsWhole) (arg3 : Memref sig .tc .vmem S1024x3072 .bf16) (harg3 : arg3.IsWhole)
    (arg4 : Memref sig .tc .vmem S1x3072 .f32) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .bf16) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at
    point `t` each input's buffer at its block and each result's at its third of the product over the input
    blocks; the invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Runs1.lean ====
/-
  The second launch of the word-level kernel program: attention by an online softmax. The grid is (batch 4, query
  tile 2, key tile 4); at a point the body reads a [1024, 1024] block of Q and [512, 1024] blocks of K and V, forms
  the scaled scores of the query tile against the key tile, and updates three carried scratch buffers — the running
  row maximum m [1024, 1], the running normaliser l [1024, 1] and the running weighted sum acc [1024, 1024]. Three
  control cases by the key-tile coordinate: at tile 0 the scratch is (re)initialised from this tile alone; at tiles
  1, 2, 3 it is rescaled by exp(m_old − m_new) and added to; at tile 3 the result block acc / l is also stored.
  Here: what the three runs share — the branch conditions in closed form over the grid, where the result window is
  idle, the staging and scratch memrefs, and the region invariant with the scratch buffers as owned memrefs.
-/
import proofs.«427284_j19997367730626_3_alg».proof.Proof.Gen.Kernel.Launch
import proofs.«427284_j19997367730626_3_alg».proof.Proof.Gen.Kernel.Skeleton
import proofs.«427284_j19997367730626_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's branch conditions -/

/-- The key-tile coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key-tile coordinate is positive. -/
abbrev cond1_1 (i : grid1.Coords) : Prop := (Scalar.cmpi .ne (Scalar.extui (Scalar.cmpi .sgt (BitVec.ofNat 32 (i 2).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- The key-tile coordinate is the last, 3. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the result window is idle and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.Kernel.Hand

end
-- ==== Proof.K.Run1A.lean ====
/-
  The attention body run whole in control case A: key tile 0 — the scratch buffers are initialised from this tile alone, the result window untouched.
  The run is symbolic execution of the body's memory operations over its named pure values; what each written
  buffer ends with is found as the list of stored pieces (last first).
-/
import proofs.«427284_j19997367730626_3_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- Case A (key tile 0): inputs at `x0 x1 x2`, the idle result buffer at `xi3` handed back untouched, the three
    scratch buffers at anything; they end with the pieces `LS0 LS1 LS2` written. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (hc2 : ¬cond1_2 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1B.lean ====
/-
  The attention body run whole in control case B: key tiles 1 and 2 — the scratch buffers are rescaled by the change of the running maximum and added to, the result window untouched.
  The run is symbolic execution of the body's memory operations over its named pure values; what each written
  buffer ends with is found as the list of stored pieces (last first).
-/
import proofs.«427284_j19997367730626_3_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- Case B (key tiles 1, 2): inputs at `x0 x1 x2`, the idle result buffer at `xi3` handed back untouched, the three
    scratch buffers at what the point before left, `xs0 xs1 xs2`; they end with the pieces `LS0 LS1 LS2` written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1C.lean ====
/-
  The attention body run whole in control case C: key tile 3, the last — the scratch buffers are rescaled and added to as at tiles 1 and 2, and the result block acc / l is stored.
  The run is symbolic execution of the body's memory operations over its named pure values; what each written
  buffer ends with is found as the list of stored pieces (last first).
-/
import proofs.«427284_j19997367730626_3_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- Case C (key tile 3): inputs at `x0 x1 x2`, the result buffer at anything, the three scratch buffers at what
    the point before left, `xs0 xs1 xs2`; the result buffer ends with the pieces `L3` written, the scratch
    buffers with `LS0 LS1 LS2`. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Frame1.lean ====
/-
  The attention launch assembled: what the result buffer and the three carried scratch buffers hold after each grid
  point, by recursion on the point — at key tile 0 from this point's blocks alone, at a later tile over what the point
  before left in the scratch —, the region invariant that carries the scratch contents from point to point, the
  pipeline's proof data, and the body obligation at every point (a case split on the key-tile coordinate, each leaf
  the run of that control case).
-/
import proofs.«427284_j19997367730626_3_alg».proof.Proof.K.Run1A
import proofs.«427284_j19997367730626_3_alg».proof.Proof.K.Run1B
import proofs.«427284_j19997367730626_3_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three control cases over the grid -/

theorem condsA (t : Fin cfg1.N) (h0 : t.val % 4 = 0) :
    cond1_0 (grid1.coords t) ∧ ¬cond1_1 (grid1.coords t) ∧ ¬cond1_2 (grid1.coords t) :=
  ⟨(hcond1_0 t).mpr h0, fun h => (hcond1_1 t).mp h h0, fun h => by have := (hcond1_2 t).mp h; omega⟩
theorem condsB (t : Fin cfg1.N) (h0 : ¬t.val % 4 = 0) (h3 : ¬t.val % 4 = 3) :
    ¬cond1_0 (grid1.coords t) ∧ cond1_1 (grid1.coords t) ∧ ¬cond1_2 (grid1.coords t) :=
  ⟨fun h => h0 ((hcond1_0 t).mp h), (hcond1_1 t).mpr h0, fun h => h3 ((hcond1_2 t).mp h)⟩
theorem condsC (t : Fin cfg1.N) (h3 : t.val % 4 = 3) :
    ¬cond1_0 (grid1.coords t) ∧ cond1_1 (grid1.coords t) ∧ cond1_2 (grid1.coords t) :=
  ⟨fun h => by have := (hcond1_0 t).mp h; omega, (hcond1_1 t).mpr (by omega), (hcond1_2 t).mpr h3⟩

/-- The run of each control case at grid point `t`: at the point's staging memrefs and input blocks, the later cases
    over the scratch contents `xs·` the point before left. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsA t h0).1 (condsA t h0).2.1 (condsA t h0).2.2 (iblk1 V c 0 t) (iblk1 V c 1 t) (iblk1 V c 2 t)
def runB (c : Dev nD) (t : Fin cfg1.N) (h0 : ¬t.val % 4 = 0) (h3 : ¬t.val % 4 = 3) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsB t h0 h3).1 (condsB t h0 h3).2.1 (condsB t h0 h3).2.2 (iblk1 V c 0 t) (iblk1 V c 1 t) (iblk1 V c 2 t) xs0 xs1 xs2
def runC (c : Dev nD) (t : Fin cfg1.N) (h3 : t.val % 4 = 3) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsC t h3).1 (condsC t h3).2.1 (condsC t h3).2.2 (iblk1 V c 0 t) (iblk1 V c 1 t) (iblk1 V c 2 t) xs0 xs1 xs2

/-! ## The pieces each case writes cover their buffers -/

theorem scoverA_0 (c : Dev nD) (t : Fin cfg1.N) (h0 : t.val % 4 = 0) (y : S1024x1.Idx) : ∃ pc ∈ (runA V c t h0).2.1, y ∈ pc.1.set :=
  View.cover_of_tiledL (runA V c t h0).2.1 S1024x1.size (by unfold runA; sl_kernel_rfl) y
theorem scoverA_1 (c : Dev nD) (t : Fin cfg1.N) (h0 : t.val % 4 = 0) (y : S1024x1.Idx) : ∃ pc ∈ (runA V c t h0).2.2.1, y ∈ pc.1.set :=
  View.cover_of_tiledL (runA V c t h0).2.2.1 S1024x1.size (by unfold runA; sl_kernel_rfl) y
theorem scoverA_2 (c : Dev nD) (t : Fin cfg1.N) (h0 : t.val % 4 = 0) (y : S1024x1024.Idx) : ∃ pc ∈ (runA V c t h0).2.2.2.1, y ∈ pc.1.set :=
  View.cover_of_tiledL (runA V c t h0).2.2.2.1 S1024x1024.size (by unfold runA; sl_kernel_rfl) y
theorem scoverB_0 (c : Dev nD) (t : Fin cfg1.N) (h0 : ¬t.val % 4 = 0) (h3 : ¬t.val % 4 = 3) (xs0 xs1 xs2) (y : S1024x1.Idx) : ∃ pc ∈ (runB V c t h0 h3 xs0 xs1 xs2).2.1, y ∈ pc.1.set :=
  View.cover_of_tiledL (runB V c t h0 h3 xs0 xs1 xs2).2.1 S1024x1.size (by unfold runB; sl_kernel_rfl) y
theorem scoverB_1 (c : Dev nD) (t : Fin cfg1.N) (h0 : ¬t.val % 4 = 0) (h3 : ¬t.val % 4 = 3) (xs0 xs1 xs2) (y : S1024x1.Idx) : ∃ pc ∈ (runB V c t h0 h3 xs0 xs1 xs2).2.2.1, y ∈ pc.1.set :=
  View.cover_of_tiledL (runB V c t h0 h3 xs0 xs1 xs2).2.2.1 S1024x1.size (by unfold runB; sl_kernel_rfl) y
theorem scoverB_2 (c : Dev nD) (t : Fin cfg1.N) (h0 : ¬t.val % 4 = 0) (h3 : ¬t.val % 4 = 3) (xs0 xs1 xs2) (y : S1024x1024.Idx) : ∃ pc ∈ (runB V c t h0 h3 xs0 xs1 xs2).2.2.2.1, y ∈ pc.1.set :=
  View.cover_of_tiledL (runB V c t h0 h3 xs0 xs1 xs2).2.2.2.1 S1024x1024.size (by unfold runB; sl_kernel_rfl) y
theorem coverC_3 (c : Dev nD) (t : Fin cfg1.N) (h3 : t.val % 4 = 3) (xs0 xs1 xs2) (y : S1x1024x1024.Idx) : ∃ pc ∈ (runC V c t h3 xs0 xs1 xs2).1, y ∈ pc.1.set :=
  View.cover_of_tiledL (runC V c t h3 xs0 xs1 xs2).1 S1x1024x1024.size (by unfold runC; sl_kernel_rfl) y
theorem scoverC_0 (c : Dev nD) (t : Fin cfg1.N) (h3 : t.val % 4 = 3) (xs0 xs1 xs2) (y : S1024x1.Idx) : ∃ pc ∈ (runC V c t h3 xs0 xs1 xs2).2.1, y ∈ pc.1.set :=
  View.cover_of_tiledL (runC V c t h3 xs0 xs1 xs2).2.1 S1024x1.size (by unfold runC; sl_kernel_rfl) y
theorem scoverC_1 (c : Dev nD) (t : Fin cfg1.N) (h3 : t.val % 4 = 3) (xs0 xs1 xs2) (y : S1024x1.Idx) : ∃ pc ∈ (runC V c t h3 xs0 xs1 xs2).2.2.1, y ∈ pc.1.set :=
  View.cover_of_tiledL (runC V c t h3 xs0 xs1 xs2).2.2.1 S1024x1.size (by unfold runC; sl_kernel_rfl) y
theorem scoverC_2 (c : Dev nD) (t : Fin cfg1.N) (h3 : t.val % 4 = 3) (xs0 xs1 xs2) (y : S1024x1024.Idx) : ∃ pc ∈ (runC V c t h3 xs0 xs1 xs2).2.2.2.1, y ∈ pc.1.set :=
  View.cover_of_tiledL (runC V c t h3 xs0 xs1 xs2).2.2.2.1 S1024x1024.size (by unfold runC; sl_kernel_rfl) y

/-! ## What the buffers hold after each point -/

/-- The contents after a point: the result buffer, then the scratch — running maximum, normaliser, weighted sum. -/
abbrev St (F : FTy → Type) [FloatOps F] : Type := Vec F S1x1024x1024 .f32 × Vec F S1024x1 .f32 × Vec F S1024x1 .f32 × Vec F S1024x1024 .f32

/-- A list of pieces read back over a buffer of no particular contents. -/
def rdO (L : List (View.Piece (Elt F) S1x1024x1024 .f32)) : Vec F S1x1024x1024 .f32 := VO1_3.read (Elt F) (VO1_3.writes (Elt F) VO1_3.junk L)
def rd0 (L : List (View.Piece (Elt F) S1024x1 .f32)) : Vec F S1024x1 .f32 := VS1_0.read (Elt F) (VS1_0.writes (Elt F) VS1_0.junk L)
def rd1 (L : List (View.Piece (Elt F) S1024x1 .f32)) : Vec F S1024x1 .f32 := VS1_1.read (Elt F) (VS1_1.writes (Elt F) VS1_1.junk L)
def rd2 (L : List (View.Piece (Elt F) S1024x1024 .f32)) : Vec F S1024x1024 .f32 := VS1_2.read (Elt F) (VS1_2.writes (Elt F) VS1_2.junk L)

def stA (c : Dev nD) (t : Fin cfg1.N) (h0 : t.val % 4 = 0) : St F :=
  (rdO (runA V c t h0).1, rd0 (runA V c t h0).2.1, rd1 (runA V c t h0).2.2.1, rd2 (runA V c t h0).2.2.2.1)
def stB (c : Dev nD) (t : Fin cfg1.N) (h0 : ¬t.val % 4 = 0) (h3 : ¬t.val % 4 = 3) (p : St F) : St F :=
  (rdO (runB V c t h0 h3 p.2.1 p.2.2.1 p.2.2.2).1, rd0 (runB V c t h0 h3 p.2.1 p.2.2.1 p.2.2.2).2.1, rd1 (runB V c t h0 h3 p.2.1 p.2.2.1 p.2.2.2).2.2.1, rd2 (runB V c t h0 h3 p.2.1 p.2.2.1 p.2.2.2).2.2.2.1)
def stC (c : Dev nD) (t : Fin cfg1.N) (h3 : t.val % 4 = 3) (p : St F) : St F :=
  (rdO (runC V c t h3 p.2.1 p.2.2.1 p.2.2.2).1, rd0 (runC V c t h3 p.2.1 p.2.2.1 p.2.2.2).2.1, rd1 (runC V c t h3 p.2.1 p.2.2.1 p.2.2.2).2.2.1, rd2 (runC V c t h3 p.2.1 p.2.2.1 p.2.2.2).2.2.2.1)

/-- THE ACCUMULATION over the grid's points in order: key tile 0 starts afresh, a later tile continues from what
    the point before left in the scratch. -/
def outsAt1 (c : Dev nD) : (n : ℕ) → n < cfg1.N → St F
  | 0, hn => stA V c ⟨0, hn⟩ (Nat.zero_mod _)
  | n + 1, hn =>
    if h0 : (n + 1) % 4 = 0 then stA V c ⟨n + 1, hn⟩ h0
    else if h3 : (n + 1) % 4 = 3 then stC V c ⟨n + 1, hn⟩ h3 (outsAt1 c n (Nat.lt_of_succ_lt hn))
    else stB V c ⟨n + 1, hn⟩ h0 h3 (outsAt1 c n (Nat.lt_of_succ_lt hn))

theorem outsAt1_A (c : Dev nD) (t : Fin cfg1.N) (h0 : t.val % 4 = 0) : outsAt1 V c t.val t.isLt = stA V c t h0 := by
  obtain ⟨n, hn⟩ := t
  cases n with
  | zero => rfl
  | succ n => exact (dif_pos h0).trans rfl
theorem outsAt1_B (c : Dev nD) (t : Fin cfg1.N) (h0 : ¬t.val % 4 = 0) (h3 : ¬t.val % 4 = 3) :
    outsAt1 V c t.val t.isLt = stB V c t h0 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt1_C (c : Dev nD) (t : Fin cfg1.N) (h3 : t.val % 4 = 3) :
    outsAt1 V c t.val t.isLt = stC V c t h3 (outsAt1 V c (t.val - 1) (Nat.lt_of_le_of_lt (Nat.sub_le _ _) t.isLt)) := by
  obtain ⟨n, hn⟩ := t
  cases n with
  | zero => exact absurd h3 (by show ¬(0 % 4 = 3); decide)
  | succ n =>
    have h3' : (n + 1) % 4 = 3 := h3
    exact (dif_neg (by omega)).trans ((dif_pos h3).trans rfl)

/-! ## The region invariant -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant with the scratch at named contents. -/
def PhiAt (c : Dev nD) (s0 : Vec F S1024x1 .f32) (s1 : Vec F S1024x1 .f32) (s2 : Vec F S1024x1024 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare s0 ∗ owns (c : Thread nD τ) scM1_1 fullShare s1 ∗ owns (c : Thread nD τ) scM1_2 fullShare s2) ∗ (∃ r, prngReg c r))

/-- Before the first point the scratch holds anything; before a later point what the point before left. -/
def PhiS (c : Dev nD) : (n : ℕ) → n ≤ cfg1.N → sProp 𝕄
  | 0, _ => Pipeline.ΦA spec1 c
  | n + 1, hn => PhiAt c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAt c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = PhiAt c (outsAt1 V c (n - 1) (by omega)).2.1 (outsAt1 V c (n - 1) (by omega)).2.2.1 (outsAt1 V c (n - 1) (by omega)).2.2.2 := by
  cases n with
  | zero => exact absurd rfl hz
  | succ n => rfl

/-- Named scratch contents may be forgotten. -/
theorem PhiAt_forget (c : Dev nD) (s0 s1 s2) : PhiAt (F := F) c s0 s1 s2 ⊢ Pipeline.ΦA spec1 c := by
  rw [PhiA1_eq]; unfold PhiAt
  iintro ⟨⟨HR0, HR1, HR2, HR3, HR4, HR5, HR6, HR7, HR8, HR9, HS0, HS1, HS2⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexists _; iexact HS1
    iexists _; iexact HS2
  iexact Hg

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the inputs' memrefs hold their blocks; the key-tile coordinate says which control case the
    point is in; the invariant hands the body the scratch at what the point before left (at anything before the first
    point, and at key tile 0 whatever is there is forgotten) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 4 = 0
  · rw [Dat.leavesExact_idle (dat1 V c) 3 t (idleAt1_3 t (condsA t h0).2.2) (noFlush1_3 t (condsA t h0).2.2)]
    rw [outsAt1_A V c t h0]
    unfold stA rd0 rd1 rd2; (try dsimp only)
    have hΦ : (dat1 V c).Φ t.castSucc ⊢ Pipeline.ΦA spec1 c := by
      rw [PhiS_castSucc V c t]
      by_cases hz : t.val = 0
      · exact Entails.of_eq (PhiS_zero V c _ _ hz)
      · rw [PhiS_pos V c _ _ hz]; exact PhiAt_forget c _ _ _
    iintro ⟨HΦ, Ho, ⟨%d0, H0⟩, ⟨%d1, H1⟩, ⟨%d2, H2⟩, ⟨%d3, H3⟩⟩
    ihave HΦ' := hΦ $$ HΦ
    ihave HΦ'' := (Entails.of_eq (PhiA1_eq c)) $$ HΦ'
    icases HΦ'' with ⟨⟨HR0, HR1, HR2, HR3, HR4, HR5, HR6, HR7, HR8, HR9, HS0, HS1, HS2⟩, Hg⟩
    iapply ((runA V c t h0).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR0 HR1 HR2 HR3 HR4 HR5 HR6 HR7 HR8 HR9 HS0 HS1 HS2 Hg]
    · (try unfold PhiAt)
      isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        unfold owns; iexists _; isplitr
        swap; · iexact HS2
        ipureintro; exact View.read_writes_of_cover _ _ _ _ _ (scoverA_2 V c t h0)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [liveAt1_3 t (condsC t h3).2.2], after1_3]
      rw [outsAt1_C V c t h3]
      unfold stC rdO rd0 rd1 rd2; (try dsimp only)
      rw [PhiS_castSucc V c t, PhiS_pos V c _ _ hz]
      unfold PhiAt
      iintro ⟨⟨⟨HR0, HR1, HR2, HR3, HR4, HR5, HR6, HR7, HR8, HR9, HS0, HS1, HS2⟩, Hg⟩, Ho, ⟨%d0, H0⟩, ⟨%d1, H1⟩, ⟨%d2, H2⟩, ⟨%d3, H3⟩⟩
      iapply ((runC V c t h3 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HR7 HR8 HR9 HS0 HS1 HS2 Hg]
      · (try unfold PhiAt)
        isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HS0]
          · unfold owns; iexists _; isplitr
            swap; · iexact HS0
            ipureintro; exact View.read_writes_of_cover _ _ _ _ _ (scoverC_0 V c t h3 _ _ _)
          isplitl [HS1]
          · unfold owns; iexists _; isplitr
            swap; · iexact HS1
            ipureintro; exact View.read_writes_of_cover _ _ _ _ _ (scoverC_1 V c t h3 _ _ _)
          unfold owns; iexists _; isplitr
          swap; · iexact HS2
          ipureintro; exact View.read_writes_of_cover _ _ _ _ _ (scoverC_2 V c t h3 _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h3 _ _ _)
    · rw [Dat.leavesExact_idle (dat1 V c) 3 t (idleAt1_3 t (condsB t h0 h3).2.2) (noFlush1_3 t (condsB t h0 h3).2.2)]
      rw [outsAt1_B V c t h0 h3]
      unfold stB rd0 rd1 rd2; (try dsimp only)
      rw [PhiS_castSucc V c t, PhiS_pos V c _ _ hz]
      unfold PhiAt
      iintro ⟨⟨⟨HR0, HR1, HR2, HR3, HR4, HR5, HR6, HR7, HR8, HR9, HS0, HS1, HS2⟩, Hg⟩, Ho, ⟨%d0, H0⟩, ⟨%d1, H1⟩, ⟨%d2, H2⟩, ⟨%d3, H3⟩⟩
      iapply ((runB V c t h0 h3 _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HS0 HS1 HS2 Hg]
      · (try unfold PhiAt)
        isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HS0]
          · unfold owns; iexists _; isplitr
            swap; · iexact HS0
            ipureintro; exact View.read_writes_of_cover _ _ _ _ _ (scoverB_0 V c t h0 h3 _ _ _)
          isplitl [HS1]
          · unfold owns; iexists _; isplitr
            swap; · iexact HS1
            ipureintro; exact View.read_writes_of_cover _ _ _ _ _ (scoverB_1 V c t h0 h3 _ _ _)
          unfold owns; iexists _; isplitr
          swap; · iexact HS2
          ipureintro; exact View.read_writes_of_cover _ _ _ _ _ (scoverB_2 V c t h0 h3 _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the scratch's named contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  exact PhiAt_forget c _ _ _

end Region1

end Cert.Kernel.Hand

end
-- ==== Proof.K.Run.lean ====
/-
  The word-level kernel program run whole: the host stretch (the transposed input, the fused weight — the three
  transposed weights side by side — and the fused bias), the projection launch, the attention launch. The buffer
  contents at the four boundaries are a fold from the launch memory: after the host stretch its operations'
  values; after each launch its result arrays at what the pipeline's write-backs leave and every other buffer as
  entered. Every weakly fair execution terminates with every unscoped buffer at the last boundary's contents; in
  particular the seven arguments are as launched and the result array is the attention launch's final array.
-/
import proofs.«427284_j19997367730626_3_alg».proof.Proof.K.Frame0
import proofs.«427284_j19997367730626_3_alg».proof.Proof.K.Frame1
import proofs.«427284_j19997367730626_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
abbrev E0 : (c : Dev nD) → (b : Ref sig .tc) → Buf (Elt F) ((c : Thread nD τ).loc b) := fun c b => B0 m c b
/-- After the host stretch. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the projection launch: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the attention launch. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### No item writes an argument: the fold at an argument's buffer walks back to the launch memory -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := V1_of m c main_arg6 (by decide)

/-- The result array at the end is the attention launch's result window's final array. -/
theorem B3_main_v10 (c : Dev nD) : B3 m c (Proc.devRef .tc main_v10) = (dat1 (E2 m) c).arrAt 3 cfg1.N :=
  B3_arr m c 3

/-! ## The proof data family and the thread state -/

abbrev adm' : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-- The host stretch as a segment over the unscoped buffers. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The launches as segments -/

set_option backward.isDefEq.respectTransparency.types false in
/-- The projection launch over the thread state: its arrays split out of the unscoped buffers and put back at the exit
    contents; the generator register into the class invariant and out; nothing owed. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: as the projection's, its invariant the one that carries the scratch. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg0 m), .region (reg0 m), .region (reg1 m) ]

theorem main_run (c : Dev nD) : main (F := F) c = Pipeline.Seg.run (segs m) :=
  main_segs adm' (pdats m) () 𝒱₀ L lv (hseg0 m) (reg0 m) (reg1 m) rfl c

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm' (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

/-- The run with the result named: the result array ends at the attention launch's final array. -/
theorem run_result : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (B3_main_v10 m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

end Cert.Kernel.Hand

end
-- ==== Proof.KI.Frame0.lean ====
/-
  The first launch of the idealized kernel program: the fused projection. At grid point (b, s) the body reads
  the block of rows [512 s, 512 s + 512) of batch b of the transposed input, the whole fused weight [1024, 3072] and
  the whole fused bias [1, 3072], forms  x_blk · W + bias  once, and stores its three column thirds, each
  [512, 1024], into the blocks of the three result arrays at the same block index. Stated here, at any float
  family and at any contents `V` the region is entered from: what each staging buffer holds after the body
  (the stores' canonical read-back over the loaded blocks), the body's triple, the pipeline's proof data, and the
  body obligation at every grid point.
-/
import proofs.«427284_j19997367730626_3_alg».proof.Proof.Gen.KernelIdeal.Launch
import proofs.«427284_j19997367730626_3_alg».proof.Proof.Gen.KernelIdeal.Skeleton
import proofs.«427284_j19997367730626_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved): for any proof data over the arrays `V` whose body leaves inputs in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle each result buffer is stored through: the whole [1, 512, 1024] block. -/
abbrev r0_o : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three result buffers, from the three loaded blocks: the column thirds
    0, 1, 2 of  x · W + bias. -/
def out0_3 (x0 : Vec F S1x512x1024 .bf16) (x1 : Vec F S1024x3072 .bf16) (x2 : Vec F S1x3072 .f32) : Vec F S1x512x1024 .bf16 :=
  View.canon [⟨r0_o, k0_pay2 (View.ld x0 r0_o) (View.ld x1 r0_w) (View.ld x2 r0_b)⟩]
def out0_4 (x0 : Vec F S1x512x1024 .bf16) (x1 : Vec F S1024x3072 .bf16) (x2 : Vec F S1x3072 .f32) : Vec F S1x512x1024 .bf16 :=
  View.canon [⟨r0_o, k0_pay3 (View.ld x0 r0_o) (View.ld x1 r0_w) (View.ld x2 r0_b)⟩]
def out0_5 (x0 : Vec F S1x512x1024 .bf16) (x1 : Vec F S1024x3072 .bf16) (x2 : Vec F S1x3072 .f32) : Vec F S1x512x1024 .bf16 :=
  View.canon [⟨r0_o, k0_pay4 (View.ld x0 r0_o) (View.ld x1 r0_w) (View.ld x2 r0_b)⟩]

/-- One whole-block store covers the block. -/
theorem cover0_o (p0 : Vec F S1x512x1024 .bf16) (y : S1x512x1024.Idx) :
    ∃ pc ∈ ([⟨r0_o, p0⟩] : List (View.Piece (Elt F) S1x512x1024 .bf16)), y ∈ pc.1.set :=
  View.cover_of_tiled [⟨r0_o, p0⟩] S1x512x1024.size (by rfl) y

set_option maxHeartbeats 4000000 in
/-- The projection body on whole staging memrefs — the three inputs' at contents `x0 x1 x2`, the three results' at
    anything — runs to the continuation with the inputs as they were and each result buffer at its third. -/
theorem sound_kernel0 (c : Dev nD) (E : Set ℕ) (i : grid0.Coords)
    (arg2 : Memref sig .tc .vmem S1x512x1024 .bf16) (harg2 : arg2.IsWhole) (arg3 : Memref sig .tc .vmem S1024x3072 .bf16) (harg3 : arg3.IsWhole)
    (arg4 : Memref sig .tc .vmem S1x3072 .f32) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .bf16) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at
    point `t` each input's buffer at its block and each result's at its third of the product over the input
    blocks; the invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Runs1.lean ====
/-
  The second launch of the idealized kernel program: attention by an online softmax. The grid is (batch 4, query
  tile 2, key tile 4); at a point the body reads a [1024, 1024] block of Q and [512, 1024] blocks of K and V, forms
  the scaled scores of the query tile against the key tile, and updates three carried scratch buffers — the running
  row maximum m [1024, 1], the running normaliser l [1024, 1] and the running weighted sum acc [1024, 1024]. Three
  control cases by the key-tile coordinate: at tile 0 the scratch is (re)initialised from this tile alone; at tiles
  1, 2, 3 it is rescaled by exp(m_old − m_new) and added to; at tile 3 the result block acc / l is also stored.
  Here: what the three runs share — the branch conditions in closed form over the grid, where the result window is
  idle, the staging and scratch memrefs, and the region invariant with the scratch buffers as owned memrefs.
-/
import proofs.«427284_j19997367730626_3_alg».proof.Proof.Gen.KernelIdeal.Launch
import proofs.«427284_j19997367730626_3_alg».proof.Proof.Gen.KernelIdeal.Skeleton
import proofs.«427284_j19997367730626_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's branch conditions -/

/-- The key-tile coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key-tile coordinate is positive. -/
abbrev cond1_1 (i : grid1.Coords) : Prop := (Scalar.cmpi .ne (Scalar.extui (Scalar.cmpi .sgt (BitVec.ofNat 32 (i 2).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- The key-tile coordinate is the last, 3. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the result window is idle and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.KernelIdeal.Hand

end
-- ==== Proof.KI.Run1A.lean ====
/-
  The attention body run whole in control case A: key tile 0 — the scratch buffers are initialised from this tile alone, the result window untouched.
  The run is symbolic execution of the body's memory operations over its named pure values; what each written
  buffer ends with is found as the list of stored pieces (last first).
-/
import proofs.«427284_j19997367730626_3_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- Case A (key tile 0): inputs at `x0 x1 x2`, the idle result buffer at `xi3` handed back untouched, the three
    scratch buffers at anything; they end with the pieces `LS0 LS1 LS2` written. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (hc2 : ¬cond1_2 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1B.lean ====
/-
  The attention body run whole in control case B: key tiles 1 and 2 — the scratch buffers are rescaled by the change of the running maximum and added to, the result window untouched.
  The run is symbolic execution of the body's memory operations over its named pure values; what each written
  buffer ends with is found as the list of stored pieces (last first).
-/
import proofs.«427284_j19997367730626_3_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- Case B (key tiles 1, 2): inputs at `x0 x1 x2`, the idle result buffer at `xi3` handed back untouched, the three
    scratch buffers at what the point before left, `xs0 xs1 xs2`; they end with the pieces `LS0 LS1 LS2` written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1C.lean ====
/-
  The attention body run whole in control case C: key tile 3, the last — the scratch buffers are rescaled and added to as at tiles 1 and 2, and the result block acc / l is stored.
  The run is symbolic execution of the body's memory operations over its named pure values; what each written
  buffer ends with is found as the list of stored pieces (last first).
-/
import proofs.«427284_j19997367730626_3_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- Case C (key tile 3): inputs at `x0 x1 x2`, the result buffer at anything, the three scratch buffers at what
    the point before left, `xs0 xs1 xs2`; the result buffer ends with the pieces `L3` written, the scratch
    buffers with `LS0 LS1 LS2`. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Frame1.lean ====
/-
  The attention launch assembled: what the result buffer and the three carried scratch buffers hold after each grid
  point, by recursion on the point — at key tile 0 from this point's blocks alone, at a later tile over what the point
  before left in the scratch —, the region invariant that carries the scratch contents from point to point, the
  pipeline's proof data, and the body obligation at every point (a case split on the key-tile coordinate, each leaf
  the run of that control case).
-/
import proofs.«427284_j19997367730626_3_alg».proof.Proof.KI.Run1A
import proofs.«427284_j19997367730626_3_alg».proof.Proof.KI.Run1B
import proofs.«427284_j19997367730626_3_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three control cases over the grid -/

theorem condsA (t : Fin cfg1.N) (h0 : t.val % 4 = 0) :
    cond1_0 (grid1.coords t) ∧ ¬cond1_1 (grid1.coords t) ∧ ¬cond1_2 (grid1.coords t) :=
  ⟨(hcond1_0 t).mpr h0, fun h => (hcond1_1 t).mp h h0, fun h => by have := (hcond1_2 t).mp h; omega⟩
theorem condsB (t : Fin cfg1.N) (h0 : ¬t.val % 4 = 0) (h3 : ¬t.val % 4 = 3) :
    ¬cond1_0 (grid1.coords t) ∧ cond1_1 (grid1.coords t) ∧ ¬cond1_2 (grid1.coords t) :=
  ⟨fun h => h0 ((hcond1_0 t).mp h), (hcond1_1 t).mpr h0, fun h => h3 ((hcond1_2 t).mp h)⟩
theorem condsC (t : Fin cfg1.N) (h3 : t.val % 4 = 3) :
    ¬cond1_0 (grid1.coords t) ∧ cond1_1 (grid1.coords t) ∧ cond1_2 (grid1.coords t) :=
  ⟨fun h => by have := (hcond1_0 t).mp h; omega, (hcond1_1 t).mpr (by omega), (hcond1_2 t).mpr h3⟩

/-- The run of each control case at grid point `t`: at the point's staging memrefs and input blocks, the later cases
    over the scratch contents `xs·` the point before left. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsA t h0).1 (condsA t h0).2.1 (condsA t h0).2.2 (iblk1 V c 0 t) (iblk1 V c 1 t) (iblk1 V c 2 t)
def runB (c : Dev nD) (t : Fin cfg1.N) (h0 : ¬t.val % 4 = 0) (h3 : ¬t.val % 4 = 3) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsB t h0 h3).1 (condsB t h0 h3).2.1 (condsB t h0 h3).2.2 (iblk1 V c 0 t) (iblk1 V c 1 t) (iblk1 V c 2 t) xs0 xs1 xs2
def runC (c : Dev nD) (t : Fin cfg1.N) (h3 : t.val % 4 = 3) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (condsC t h3).1 (condsC t h3).2.1 (condsC t h3).2.2 (iblk1 V c 0 t) (iblk1 V c 1 t) (iblk1 V c 2 t) xs0 xs1 xs2

/-! ## The pieces each case writes cover their buffers -/

theorem scoverA_0 (c : Dev nD) (t : Fin cfg1.N) (h0 : t.val % 4 = 0) (y : S1024x1.Idx) : ∃ pc ∈ (runA V c t h0).2.1, y ∈ pc.1.set :=
  View.cover_of_tiledL (runA V c t h0).2.1 S1024x1.size (by unfold runA; sl_kernel_rfl) y
theorem scoverA_1 (c : Dev nD) (t : Fin cfg1.N) (h0 : t.val % 4 = 0) (y : S1024x1.Idx) : ∃ pc ∈ (runA V c t h0).2.2.1, y ∈ pc.1.set :=
  View.cover_of_tiledL (runA V c t h0).2.2.1 S1024x1.size (by unfold runA; sl_kernel_rfl) y
theorem scoverA_2 (c : Dev nD) (t : Fin cfg1.N) (h0 : t.val % 4 = 0) (y : S1024x1024.Idx) : ∃ pc ∈ (runA V c t h0).2.2.2.1, y ∈ pc.1.set :=
  View.cover_of_tiledL (runA V c t h0).2.2.2.1 S1024x1024.size (by unfold runA; sl_kernel_rfl) y
theorem scoverB_0 (c : Dev nD) (t : Fin cfg1.N) (h0 : ¬t.val % 4 = 0) (h3 : ¬t.val % 4 = 3) (xs0 xs1 xs2) (y : S1024x1.Idx) : ∃ pc ∈ (runB V c t h0 h3 xs0 xs1 xs2).2.1, y ∈ pc.1.set :=
  View.cover_of_tiledL (runB V c t h0 h3 xs0 xs1 xs2).2.1 S1024x1.size (by unfold runB; sl_kernel_rfl) y
theorem scoverB_1 (c : Dev nD) (t : Fin cfg1.N) (h0 : ¬t.val % 4 = 0) (h3 : ¬t.val % 4 = 3) (xs0 xs1 xs2) (y : S1024x1.Idx) : ∃ pc ∈ (runB V c t h0 h3 xs0 xs1 xs2).2.2.1, y ∈ pc.1.set :=
  View.cover_of_tiledL (runB V c t h0 h3 xs0 xs1 xs2).2.2.1 S1024x1.size (by unfold runB; sl_kernel_rfl) y
theorem scoverB_2 (c : Dev nD) (t : Fin cfg1.N) (h0 : ¬t.val % 4 = 0) (h3 : ¬t.val % 4 = 3) (xs0 xs1 xs2) (y : S1024x1024.Idx) : ∃ pc ∈ (runB V c t h0 h3 xs0 xs1 xs2).2.2.2.1, y ∈ pc.1.set :=
  View.cover_of_tiledL (runB V c t h0 h3 xs0 xs1 xs2).2.2.2.1 S1024x1024.size (by unfold runB; sl_kernel_rfl) y
theorem coverC_3 (c : Dev nD) (t : Fin cfg1.N) (h3 : t.val % 4 = 3) (xs0 xs1 xs2) (y : S1x1024x1024.Idx) : ∃ pc ∈ (runC V c t h3 xs0 xs1 xs2).1, y ∈ pc.1.set :=
  View.cover_of_tiledL (runC V c t h3 xs0 xs1 xs2).1 S1x1024x1024.size (by unfold runC; sl_kernel_rfl) y
theorem scoverC_0 (c : Dev nD) (t : Fin cfg1.N) (h3 : t.val % 4 = 3) (xs0 xs1 xs2) (y : S1024x1.Idx) : ∃ pc ∈ (runC V c t h3 xs0 xs1 xs2).2.1, y ∈ pc.1.set :=
  View.cover_of_tiledL (runC V c t h3 xs0 xs1 xs2).2.1 S1024x1.size (by unfold runC; sl_kernel_rfl) y
theorem scoverC_1 (c : Dev nD) (t : Fin cfg1.N) (h3 : t.val % 4 = 3) (xs0 xs1 xs2) (y : S1024x1.Idx) : ∃ pc ∈ (runC V c t h3 xs0 xs1 xs2).2.2.1, y ∈ pc.1.set :=
  View.cover_of_tiledL (runC V c t h3 xs0 xs1 xs2).2.2.1 S1024x1.size (by unfold runC; sl_kernel_rfl) y
theorem scoverC_2 (c : Dev nD) (t : Fin cfg1.N) (h3 : t.val % 4 = 3) (xs0 xs1 xs2) (y : S1024x1024.Idx) : ∃ pc ∈ (runC V c t h3 xs0 xs1 xs2).2.2.2.1, y ∈ pc.1.set :=
  View.cover_of_tiledL (runC V c t h3 xs0 xs1 xs2).2.2.2.1 S1024x1024.size (by unfold runC; sl_kernel_rfl) y

/-! ## What the buffers hold after each point -/

/-- The contents after a point: the result buffer, then the scratch — running maximum, normaliser, weighted sum. -/
abbrev St (F : FTy → Type) [FloatOps F] : Type := Vec F S1x1024x1024 .f32 × Vec F S1024x1 .f32 × Vec F S1024x1 .f32 × Vec F S1024x1024 .f32

/-- A list of pieces read back over a buffer of no particular contents. -/
def rdO (L : List (View.Piece (Elt F) S1x1024x1024 .f32)) : Vec F S1x1024x1024 .f32 := VO1_3.read (Elt F) (VO1_3.writes (Elt F) VO1_3.junk L)
def rd0 (L : List (View.Piece (Elt F) S1024x1 .f32)) : Vec F S1024x1 .f32 := VS1_0.read (Elt F) (VS1_0.writes (Elt F) VS1_0.junk L)
def rd1 (L : List (View.Piece (Elt F) S1024x1 .f32)) : Vec F S1024x1 .f32 := VS1_1.read (Elt F) (VS1_1.writes (Elt F) VS1_1.junk L)
def rd2 (L : List (View.Piece (Elt F) S1024x1024 .f32)) : Vec F S1024x1024 .f32 := VS1_2.read (Elt F) (VS1_2.writes (Elt F) VS1_2.junk L)

def stA (c : Dev nD) (t : Fin cfg1.N) (h0 : t.val % 4 = 0) : St F :=
  (rdO (runA V c t h0).1, rd0 (runA V c t h0).2.1, rd1 (runA V c t h0).2.2.1, rd2 (runA V c t h0).2.2.2.1)
def stB (c : Dev nD) (t : Fin cfg1.N) (h0 : ¬t.val % 4 = 0) (h3 : ¬t.val % 4 = 3) (p : St F) : St F :=
  (rdO (runB V c t h0 h3 p.2.1 p.2.2.1 p.2.2.2).1, rd0 (runB V c t h0 h3 p.2.1 p.2.2.1 p.2.2.2).2.1, rd1 (runB V c t h0 h3 p.2.1 p.2.2.1 p.2.2.2).2.2.1, rd2 (runB V c t h0 h3 p.2.1 p.2.2.1 p.2.2.2).2.2.2.1)
def stC (c : Dev nD) (t : Fin cfg1.N) (h3 : t.val % 4 = 3) (p : St F) : St F :=
  (rdO (runC V c t h3 p.2.1 p.2.2.1 p.2.2.2).1, rd0 (runC V c t h3 p.2.1 p.2.2.1 p.2.2.2).2.1, rd1 (runC V c t h3 p.2.1 p.2.2.1 p.2.2.2).2.2.1, rd2 (runC V c t h3 p.2.1 p.2.2.1 p.2.2.2).2.2.2.1)

/-- THE ACCUMULATION over the grid's points in order: key tile 0 starts afresh, a later tile continues from what
    the point before left in the scratch. -/
def outsAt1 (c : Dev nD) : (n : ℕ) → n < cfg1.N → St F
  | 0, hn => stA V c ⟨0, hn⟩ (Nat.zero_mod _)
  | n + 1, hn =>
    if h0 : (n + 1) % 4 = 0 then stA V c ⟨n + 1, hn⟩ h0
    else if h3 : (n + 1) % 4 = 3 then stC V c ⟨n + 1, hn⟩ h3 (outsAt1 c n (Nat.lt_of_succ_lt hn))
    else stB V c ⟨n + 1, hn⟩ h0 h3 (outsAt1 c n (Nat.lt_of_succ_lt hn))

theorem outsAt1_A (c : Dev nD) (t : Fin cfg1.N) (h0 : t.val % 4 = 0) : outsAt1 V c t.val t.isLt = stA V c t h0 := by
  obtain ⟨n, hn⟩ := t
  cases n with
  | zero => rfl
  | succ n => exact (dif_pos h0).trans rfl
theorem outsAt1_B (c : Dev nD) (t : Fin cfg1.N) (h0 : ¬t.val % 4 = 0) (h3 : ¬t.val % 4 = 3) :
    outsAt1 V c t.val t.isLt = stB V c t h0 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt1_C (c : Dev nD) (t : Fin cfg1.N) (h3 : t.val % 4 = 3) :
    outsAt1 V c t.val t.isLt = stC V c t h3 (outsAt1 V c (t.val - 1) (Nat.lt_of_le_of_lt (Nat.sub_le _ _) t.isLt)) := by
  obtain ⟨n, hn⟩ := t
  cases n with
  | zero => exact absurd h3 (by show ¬(0 % 4 = 3); decide)
  | succ n =>
    have h3' : (n + 1) % 4 = 3 := h3
    exact (dif_neg (by omega)).trans ((dif_pos h3).trans rfl)

/-! ## The region invariant -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant with the scratch at named contents. -/
def PhiAt (c : Dev nD) (s0 : Vec F S1024x1 .f32) (s1 : Vec F S1024x1 .f32) (s2 : Vec F S1024x1024 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare s0 ∗ owns (c : Thread nD τ) scM1_1 fullShare s1 ∗ owns (c : Thread nD τ) scM1_2 fullShare s2) ∗ (∃ r, prngReg c r))

/-- Before the first point the scratch holds anything; before a later point what the point before left. -/
def PhiS (c : Dev nD) : (n : ℕ) → n ≤ cfg1.N → sProp 𝕄
  | 0, _ => Pipeline.ΦA spec1 c
  | n + 1, hn => PhiAt c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAt c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = PhiAt c (outsAt1 V c (n - 1) (by omega)).2.1 (outsAt1 V c (n - 1) (by omega)).2.2.1 (outsAt1 V c (n - 1) (by omega)).2.2.2 := by
  cases n with
  | zero => exact absurd rfl hz
  | succ n => rfl

/-- Named scratch contents may be forgotten. -/
theorem PhiAt_forget (c : Dev nD) (s0 s1 s2) : PhiAt (F := F) c s0 s1 s2 ⊢ Pipeline.ΦA spec1 c := by
  rw [PhiA1_eq]; unfold PhiAt
  iintro ⟨⟨HR0, HR1, HR2, HR3, HR4, HR5, HR6, HR7, HR8, HR9, HS0, HS1, HS2⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexists _; iexact HS1
    iexists _; iexact HS2
  iexact Hg

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the inputs' memrefs hold their blocks; the key-tile coordinate says which control case the
    point is in; the invariant hands the body the scratch at what the point before left (at anything before the first
    point, and at key tile 0 whatever is there is forgotten) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 4 = 0
  · rw [Dat.leavesExact_idle (dat1 V c) 3 t (idleAt1_3 t (condsA t h0).2.2) (noFlush1_3 t (condsA t h0).2.2)]
    rw [outsAt1_A V c t h0]
    unfold stA rd0 rd1 rd2; (try dsimp only)
    have hΦ : (dat1 V c).Φ t.castSucc ⊢ Pipeline.ΦA spec1 c := by
      rw [PhiS_castSucc V c t]
      by_cases hz : t.val = 0
      · exact Entails.of_eq (PhiS_zero V c _ _ hz)
      · rw [PhiS_pos V c _ _ hz]; exact PhiAt_forget c _ _ _
    iintro ⟨HΦ, Ho, ⟨%d0, H0⟩, ⟨%d1, H1⟩, ⟨%d2, H2⟩, ⟨%d3, H3⟩⟩
    ihave HΦ' := hΦ $$ HΦ
    ihave HΦ'' := (Entails.of_eq (PhiA1_eq c)) $$ HΦ'
    icases HΦ'' with ⟨⟨HR0, HR1, HR2, HR3, HR4, HR5, HR6, HR7, HR8, HR9, HS0, HS1, HS2⟩, Hg⟩
    iapply ((runA V c t h0).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR0 HR1 HR2 HR3 HR4 HR5 HR6 HR7 HR8 HR9 HS0 HS1 HS2 Hg]
    · (try unfold PhiAt)
      isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        unfold owns; iexists _; isplitr
        swap; · iexact HS2
        ipureintro; exact View.read_writes_of_cover _ _ _ _ _ (scoverA_2 V c t h0)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [liveAt1_3 t (condsC t h3).2.2], after1_3]
      rw [outsAt1_C V c t h3]
      unfold stC rdO rd0 rd1 rd2; (try dsimp only)
      rw [PhiS_castSucc V c t, PhiS_pos V c _ _ hz]
      unfold PhiAt
      iintro ⟨⟨⟨HR0, HR1, HR2, HR3, HR4, HR5, HR6, HR7, HR8, HR9, HS0, HS1, HS2⟩, Hg⟩, Ho, ⟨%d0, H0⟩, ⟨%d1, H1⟩, ⟨%d2, H2⟩, ⟨%d3, H3⟩⟩
      iapply ((runC V c t h3 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HR7 HR8 HR9 HS0 HS1 HS2 Hg]
      · (try unfold PhiAt)
        isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HS0]
          · unfold owns; iexists _; isplitr
            swap; · iexact HS0
            ipureintro; exact View.read_writes_of_cover _ _ _ _ _ (scoverC_0 V c t h3 _ _ _)
          isplitl [HS1]
          · unfold owns; iexists _; isplitr
            swap; · iexact HS1
            ipureintro; exact View.read_writes_of_cover _ _ _ _ _ (scoverC_1 V c t h3 _ _ _)
          unfold owns; iexists _; isplitr
          swap; · iexact HS2
          ipureintro; exact View.read_writes_of_cover _ _ _ _ _ (scoverC_2 V c t h3 _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h3 _ _ _)
    · rw [Dat.leavesExact_idle (dat1 V c) 3 t (idleAt1_3 t (condsB t h0 h3).2.2) (noFlush1_3 t (condsB t h0 h3).2.2)]
      rw [outsAt1_B V c t h0 h3]
      unfold stB rd0 rd1 rd2; (try dsimp only)
      rw [PhiS_castSucc V c t, PhiS_pos V c _ _ hz]
      unfold PhiAt
      iintro ⟨⟨⟨HR0, HR1, HR2, HR3, HR4, HR5, HR6, HR7, HR8, HR9, HS0, HS1, HS2⟩, Hg⟩, Ho, ⟨%d0, H0⟩, ⟨%d1, H1⟩, ⟨%d2, H2⟩, ⟨%d3, H3⟩⟩
      iapply ((runB V c t h0 h3 _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HS0 HS1 HS2 Hg]
      · (try unfold PhiAt)
        isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HS0]
          · unfold owns; iexists _; isplitr
            swap; · iexact HS0
            ipureintro; exact View.read_writes_of_cover _ _ _ _ _ (scoverB_0 V c t h0 h3 _ _ _)
          isplitl [HS1]
          · unfold owns; iexists _; isplitr
            swap; · iexact HS1
            ipureintro; exact View.read_writes_of_cover _ _ _ _ _ (scoverB_1 V c t h0 h3 _ _ _)
          unfold owns; iexists _; isplitr
          swap; · iexact HS2
          ipureintro; exact View.read_writes_of_cover _ _ _ _ _ (scoverB_2 V c t h0 h3 _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the scratch's named contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  exact PhiAt_forget c _ _ _

end Region1

end Cert.KernelIdeal.Hand

end
-- ==== Proof.KI.Run.lean ====
/-
  The idealized kernel program run whole: the host stretch (the transposed input, the fused weight — the three
  transposed weights side by side — and the fused bias), the projection launch, the attention launch. The buffer
  contents at the four boundaries are a fold from the launch memory: after the host stretch its operations'
  values; after each launch its result arrays at what the pipeline's write-backs leave and every other buffer as
  entered. Every weakly fair execution terminates with every unscoped buffer at the last boundary's contents; in
  particular the seven arguments are as launched and the result array is the attention launch's final array.
-/
import proofs.«427284_j19997367730626_3_alg».proof.Proof.KI.Frame0
import proofs.«427284_j19997367730626_3_alg».proof.Proof.KI.Frame1
import proofs.«427284_j19997367730626_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
abbrev E0 : (c : Dev nD) → (b : Ref sig .tc) → Buf (Elt F) ((c : Thread nD τ).loc b) := fun c b => B0 m c b
/-- After the host stretch. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the projection launch: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the attention launch. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### No item writes an argument: the fold at an argument's buffer walks back to the launch memory -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := V1_of m c main_arg6 (by decide)

/-- The result array at the end is the attention launch's result window's final array. -/
theorem B3_main_v10 (c : Dev nD) : B3 m c (Proc.devRef .tc main_v10) = (dat1 (E2 m) c).arrAt 3 cfg1.N :=
  B3_arr m c 3

/-! ## The proof data family and the thread state -/

abbrev adm' : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-- The host stretch as a segment over the unscoped buffers. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The launches as segments -/

set_option backward.isDefEq.respectTransparency.types false in
/-- The projection launch over the thread state: its arrays split out of the unscoped buffers and put back at the exit
    contents; the generator register into the class invariant and out; nothing owed. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: as the projection's, its invariant the one that carries the scratch. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg0 m), .region (reg0 m), .region (reg1 m) ]

theorem main_run (c : Dev nD) : main (F := F) c = Pipeline.Seg.run (segs m) :=
  main_segs adm' (pdats m) () 𝒱₀ L lv (hseg0 m) (reg0 m) (reg1 m) rfl c

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm' (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

/-- The run with the result named: the result array ends at the attention launch's final array. -/
theorem run_result : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (B3_main_v10 m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

end Cert.KernelIdeal.Hand

end
-- ==== Proof.Spec.lean ====
/-
  The mathematics of the claim, over the reals. The program computes single-head self-attention over
  x : [4, 1024, 2048] (batch, feature, position): the three projections
      Q(b, s, e) = Σ_d x(b, d, s) · Wq(e, d) + bq(e),   K and V alike,
  the scaled scores  σ(b, s, t) = (Σ_e Q(b, s, e) · K(b, t, e)) / 32,  and the softmax-weighted sum
      out(b, s, e) = (Σ_t exp σ(b, s, t) · V(b, t, e)) / (Σ_t exp σ(b, s, t)).
  Both programs compute this function when every input is finite; the reference through a softmax shifted by the
  row maximum, the kernel through an online softmax over four blocks of 512 key positions with a running shift.
  A softmax is invariant under a shift of its scores by any real, which is what joins the two.
-/
import Idealize.ShloMosaic.PureOps.Ideal

noncomputable section

namespace Cert.Spec

/-- A projection: the input transposed times the weight transposed, plus the bias. -/
def proj (x : Fin 4 → Fin 1024 → Fin 2048 → ℝ) (w : Fin 1024 → Fin 1024 → ℝ) (bias : Fin 1024 → ℝ)
    (b : Fin 4) (s : Fin 2048) (e : Fin 1024) : ℝ :=
  (∑ d : Fin 1024, x b d s * w e d) + bias e

/-- The scaled score of query position `s` against key position `t`. -/
def score (q k : Fin 4 → Fin 2048 → Fin 1024 → ℝ) (b : Fin 4) (s t : Fin 2048) : ℝ :=
  (∑ e : Fin 1024, q b s e * k b t e) / 32

/-- Attention: the values averaged with weights proportional to the exponentials of the scores. -/
def attn (q k v : Fin 4 → Fin 2048 → Fin 1024 → ℝ) (b : Fin 4) (s : Fin 2048) (e : Fin 1024) : ℝ :=
  (∑ t : Fin 2048, Real.exp (score q k b s t) * v b t e) / (∑ t : Fin 2048, Real.exp (score q k b s t))

/-- The whole function of the seven real arguments. -/
def result (x : Fin 4 → Fin 1024 → Fin 2048 → ℝ) (wq : Fin 1024 → Fin 1024 → ℝ) (bq : Fin 1024 → ℝ)
    (wk : Fin 1024 → Fin 1024 → ℝ) (bk : Fin 1024 → ℝ) (wv : Fin 1024 → Fin 1024 → ℝ) (bv : Fin 1024 → ℝ)
    (b : Fin 4) (s : Fin 2048) (e : Fin 1024) : ℝ :=
  attn (proj x wq bq) (proj x wk bk) (proj x wv bv) b s e

end Cert.Spec

end
-- ==== Proof.Softmax.lean ====
/-
  Softmax averages and their blockwise accumulation, over the reals, with the few extended-real facts that carry the
  real computation into the extended reals.

  * A softmax-weighted average does not depend on the shift subtracted from its scores.
  * The online accumulation keeps, for whatever real shift `μ` it currently carries over the key set `T` seen so far,
    `l = Σ_{t∈T} exp(σ t − μ)` and `acc e = Σ_{t∈T} exp(σ t − μ)·v t e`; moving to a new shift `μ'` multiplies both by
    `exp(μ − μ')`, and a new disjoint block of keys adds its own terms.
-/
import Idealize.ShloMosaic.PureOps.Ideal
import Mathlib.Analysis.SpecialFunctions.Exp
import Mathlib.Analysis.SpecialFunctions.Sqrt
import Mathlib.Algebra.BigOperators.Field
import Mathlib.Algebra.Order.BigOperators.Ring.Finset
import Mathlib.Data.Finset.Fold
import Mathlib.Data.Finset.Lattice.Fold
import Mathlib.Data.EReal.Operations

noncomputable section

namespace Cert.Softmax

variable {ι κ : Type*} [DecidableEq ι]

/-! ### Reals: the shift of a softmax -/

private theorem exp_sub_shift (x μ : ℝ) : Real.exp (x - μ) = Real.exp x * Real.exp (-μ) := by
  rw [sub_eq_add_neg, Real.exp_add]

/-- A shifted softmax average is the unshifted one. -/
theorem shifted_eq (T : Finset ι) (σ v : ι → ℝ) (μ : ℝ) (hT : T.Nonempty) :
    (∑ t ∈ T, (Real.exp (σ t - μ) / ∑ u ∈ T, Real.exp (σ u - μ)) * v t)
      = (∑ t ∈ T, Real.exp (σ t) * v t) / (∑ t ∈ T, Real.exp (σ t)) := by
  have hpos : 0 < ∑ t ∈ T, Real.exp (σ t) := Finset.sum_pos (fun t _ => Real.exp_pos _) hT
  have hsum : ∑ u ∈ T, Real.exp (σ u - μ) = (∑ u ∈ T, Real.exp (σ u)) * Real.exp (-μ) := by
    rw [Finset.sum_mul]; exact Finset.sum_congr rfl (fun t _ => exp_sub_shift _ _)
  have h1 : Real.exp (-μ) ≠ 0 := (Real.exp_pos _).ne'
  have h2 : (∑ u ∈ T, Real.exp (σ u)) ≠ 0 := hpos.ne'
  rw [hsum, Finset.sum_div]
  refine Finset.sum_congr rfl (fun t _ => ?_)
  rw [exp_sub_shift]
  field_simp

/-- The online state over the key set T at shift μ. -/
structure Inv (T : Finset ι) (σ : ι → ℝ) (v : ι → κ → ℝ) (μ l : ℝ) (acc : κ → ℝ) : Prop where
  hl : l = ∑ t ∈ T, Real.exp (σ t - μ)
  hacc : ∀ e, acc e = ∑ t ∈ T, Real.exp (σ t - μ) * v t e

theorem Inv.init (S : Finset ι) (σ : ι → ℝ) (v : ι → κ → ℝ) (μ : ℝ) :
    Inv S σ v μ (∑ t ∈ S, Real.exp (σ t - μ)) (fun e => ∑ t ∈ S, Real.exp (σ t - μ) * v t e) :=
  ⟨rfl, fun _ => rfl⟩

/-- Changing the shift from `μ` to `μ'` multiplies every term by `exp (μ − μ')`. -/
private theorem exp_reshift (x μ μ' : ℝ) : Real.exp (μ - μ') * Real.exp (x - μ) = Real.exp (x - μ') := by
  rw [← Real.exp_add]; congr 1; ring

theorem Inv.step {T S : Finset ι} {σ : ι → ℝ} {v : ι → κ → ℝ} {μ l : ℝ} {acc : κ → ℝ}
    (h : Inv T σ v μ l acc) (hd : Disjoint T S) (μ' : ℝ) :
    Inv (T ∪ S) σ v μ' (Real.exp (μ - μ') * l + ∑ t ∈ S, Real.exp (σ t - μ'))
      (fun e => Real.exp (μ - μ') * acc e + ∑ t ∈ S, Real.exp (σ t - μ') * v t e) := by
  constructor
  · rw [Finset.sum_union hd, h.hl, Finset.mul_sum]
    congr 1
    exact Finset.sum_congr rfl (fun t _ => exp_reshift _ _ _)
  · intro e
    show Real.exp (μ - μ') * acc e + ∑ t ∈ S, Real.exp (σ t - μ') * v t e = _
    rw [Finset.sum_union hd, h.hacc e, Finset.mul_sum]
    congr 1
    refine Finset.sum_congr rfl (fun t _ => ?_)
    rw [← mul_assoc, exp_reshift]

theorem Inv.l_pos {T : Finset ι} {σ : ι → ℝ} {v : ι → κ → ℝ} {μ l : ℝ} {acc : κ → ℝ}
    (h : Inv T σ v μ l acc) (hT : T.Nonempty) : 0 < l := by
  rw [h.hl]; exact Finset.sum_pos (fun t _ => Real.exp_pos _) hT

theorem Inv.final {T : Finset ι} {σ : ι → ℝ} {v : ι → κ → ℝ} {μ l : ℝ} {acc : κ → ℝ}
    (h : Inv T σ v μ l acc) (hT : T.Nonempty) (e : κ) :
    acc e / l = (∑ t ∈ T, Real.exp (σ t) * v t e) / (∑ t ∈ T, Real.exp (σ t)) := by
  have hs : (∑ t ∈ T, (Real.exp (σ t - μ) / ∑ u ∈ T, Real.exp (σ u - μ)) * v t e)
      = (∑ t ∈ T, Real.exp (σ t) * v t e) / (∑ t ∈ T, Real.exp (σ t)) :=
    shifted_eq T σ (fun t => v t e) μ hT
  rw [← hs, h.hacc e, h.hl, Finset.sum_div]
  exact Finset.sum_congr rfl (fun t _ => (div_mul_eq_mul_div _ _ _).symm)

/-! ### Extended reals: the coercion commutes with the operations used -/

theorem coe_add (a b : ℝ) : (a : EReal) + (b : EReal) = ((a + b : ℝ) : EReal) := (EReal.coe_add a b).symm
theorem coe_mul (a b : ℝ) : (a : EReal) * (b : EReal) = ((a * b : ℝ) : EReal) := (EReal.coe_mul a b).symm
theorem coe_sub (a b : ℝ) : (a : EReal) - (b : EReal) = ((a - b : ℝ) : EReal) := (EReal.coe_sub a b).symm

theorem coe_sum {α : Type*} (s : Finset α) (f : α → ℝ) :
    (∑ a ∈ s, (f a : EReal)) = ((∑ a ∈ s, f a : ℝ) : EReal) := by
  classical
  refine Finset.induction_on s ?_ ?_
  · simp
  · intro a s ha ih
    rw [Finset.sum_insert ha, Finset.sum_insert ha, ih, EReal.coe_add]

theorem coe_max (a b : ℝ) : max (a : EReal) (b : EReal) = ((max a b : ℝ) : EReal) :=
  (EReal.coe_strictMono.monotone.map_max).symm

theorem sup_coe {α : Type*} (s : Finset α) (hs : s.Nonempty) (f : α → ℝ) :
    s.sup (fun a => (f a : EReal)) = ((s.sup' hs f : ℝ) : EReal) := by
  rw [← Finset.sup'_eq_sup hs]
  exact (Finset.comp_sup'_eq_sup'_comp hs (fun r : ℝ => (r : EReal))
    (fun x y => EReal.coe_strictMono.monotone.map_max)).symm

/-- a fold of max from ⊥ over a NONEMPTY finite family of reals is a real (the family's supremum) -/
theorem fold_max_coe {α : Type*} (s : Finset α) (hs : s.Nonempty) (f : α → ℝ) :
    ∃ r : ℝ, s.fold max (⊥ : EReal) (fun a => (f a : EReal)) = (r : EReal) ∧ r = s.sup' hs f :=
  ⟨s.sup' hs f, sup_coe s hs f, rfl⟩

theorem ideal_div_coe (a b : ℝ) (hb : b ≠ 0) :
    Idealize.ShloMosaic.Ideal.div (a : EReal) (b : EReal) = ((a / b : ℝ) : EReal) := by
  rw [Idealize.ShloMosaic.Ideal.div_coe hb, ← EReal.coe_mul, mul_one_div]

theorem ideal_exp_coe (a : ℝ) :
    Idealize.ShloMosaic.Ideal.exp (a : EReal) = ((Real.exp a : ℝ) : EReal) := rfl

theorem ideal_sqrt_1024 : Idealize.ShloMosaic.Ideal.sqrt ((1024 : ℝ) : EReal) = ((32 : ℝ) : EReal) := by
  rw [Idealize.ShloMosaic.Ideal.sqrt_coe, if_neg (by norm_num)]
  have h : (1024 : ℝ) = 32 * 32 := by norm_num
  rw [h, Real.sqrt_mul_self (by norm_num)]

end Cert.Softmax
-- ==== Proof.RefValue.lean ====
/-
  The reference program computes the specification.

  At every index the reference's value is the coercion of a real. The three projections are sums of products of the
  (real) inputs plus a bias; a score is the sum over the features of query times key, divided by the square root of
  1024, which is 32; the maximum of a row of scores is a real μ, the row being a nonempty finite family of reals; the
  exponentials of the scores less μ are positive reals, so their row sum is a positive real and each quotient by it is
  a real; the result is the sum over the key positions of these weights times the values. A softmax-weighted sum does
  not depend on the real subtracted from its scores, which identifies the result with the specification's.
-/
import proofs.«427284_j19997367730626_3_alg».proof.Proof.Gen.ReferenceIdeal.Read
import proofs.«427284_j19997367730626_3_alg».proof.Proof.Spec
import proofs.«427284_j19997367730626_3_alg».proof.Proof.Softmax
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read

/-! ### Index equations: the index functions of the stages, at literal coordinates -/

theorem idx_v0 (b : Fin 4) (s : Fin 2048) (d : Fin 1024) : idx_main_v0 (ix3 b s d) = ix3 b d s := by
  funext a; fin_cases a <;> rfl

theorem lidx_v1 (b : Fin 4) (s : Fin 2048) (e k : Fin 1024) : lidx_main_v1 (ix3 b s e) k = ix3 b s k := by
  funext a; fin_cases a <;> rfl
theorem ridx_v1 (b : Fin 4) (s : Fin 2048) (e k : Fin 1024) : ridx_main_v1 (ix3 b s e) k = ix2 e k := by
  funext a; fin_cases a <;> rfl
theorem idx_v2_v3 (b : Fin 4) (s : Fin 2048) (e : Fin 1024) : idx_main_v2 (idx_main_v3 (ix3 b s e)) = ix1 e := by
  funext a; fin_cases a <;> rfl

theorem lidx_v5 (b : Fin 4) (s : Fin 2048) (e k : Fin 1024) : lidx_main_v5 (ix3 b s e) k = ix3 b s k := by
  funext a; fin_cases a <;> rfl
theorem ridx_v5 (b : Fin 4) (s : Fin 2048) (e k : Fin 1024) : ridx_main_v5 (ix3 b s e) k = ix2 e k := by
  funext a; fin_cases a <;> rfl
theorem idx_v6_v7 (b : Fin 4) (s : Fin 2048) (e : Fin 1024) : idx_main_v6 (idx_main_v7 (ix3 b s e)) = ix1 e := by
  funext a; fin_cases a <;> rfl

theorem lidx_v9 (b : Fin 4) (s : Fin 2048) (e k : Fin 1024) : lidx_main_v9 (ix3 b s e) k = ix3 b s k := by
  funext a; fin_cases a <;> rfl
theorem ridx_v9 (b : Fin 4) (s : Fin 2048) (e k : Fin 1024) : ridx_main_v9 (ix3 b s e) k = ix2 e k := by
  funext a; fin_cases a <;> rfl
theorem idx_v10_v11 (b : Fin 4) (s : Fin 2048) (e : Fin 1024) : idx_main_v10 (idx_main_v11 (ix3 b s e)) = ix1 e := by
  funext a; fin_cases a <;> rfl

theorem lidx_v13 (b : Fin 4) (s t : Fin 2048) (k : Fin 1024) : lidx_main_v13 (ix3 b s t) k = ix3 b s k := by
  funext a; fin_cases a <;> rfl
theorem ridx_v13 (b : Fin 4) (s t : Fin 2048) (k : Fin 1024) : ridx_main_v13 (ix3 b s t) k = ix3 b t k := by
  funext a; fin_cases a <;> rfl

theorem idx_v20_v21 (b : Fin 4) (s t : Fin 2048) : idx_main_v20 (idx_main_v21 (ix3 b s t)) = ix2 b s := by
  funext a; fin_cases a <;> rfl
theorem idx_v24 (b : Fin 4) (s k : Fin 2048) : idx_main_v24 (ix2 b s) k = ix3 b s k := by
  funext a; fin_cases a <;> rfl
theorem idx_v25_v26 (b : Fin 4) (s t : Fin 2048) : idx_main_v25 (idx_main_v26 (ix3 b s t)) = ix2 b s := by
  funext a; fin_cases a <;> rfl

theorem lidx_v28 (b : Fin 4) (s : Fin 2048) (e : Fin 1024) (k : Fin 2048) : lidx_main_v28 (ix3 b s e) k = ix3 b s k := by
  funext a; fin_cases a <;> rfl
theorem ridx_v28 (b : Fin 4) (s : Fin 2048) (e : Fin 1024) (k : Fin 2048) : ridx_main_v28 (ix3 b s e) k = ix3 b k e := by
  funext a; fin_cases a <;> rfl

/-! ### The two literals -/

/-- The word 0x44800000 denotes 1024 = 2^23 · 2^(137 − 127 − 23). -/
theorem ofBits_1024 : Ideal.ofBits .f32 0x44800000#32 = ((1024 : ℝ) : EReal) := by
  have h : Ideal.ofBits .f32 0x44800000#32 = (((8388608 : ℝ) * ((2 : ℝ) ^ 13)⁻¹ : ℝ) : EReal) := by
    simp [Ideal.ofBits, Ideal.ieee]
  rw [h]; norm_num

/-- The word 0xFF800000 denotes −∞. -/
theorem ofBits_neg_inf : Ideal.ofBits .f32 0xFF800000#32 = (⊥ : EReal) := by
  simp [Ideal.ofBits, Ideal.ieee]

/-! ### The projections -/

/-- A sum of products of coerced reals plus a coerced real is the coercion of the real projection. -/
theorem proj_core (X : (⟨S4x1024x2048, .f32⟩ : BufTy).Contents (Elt Ideal)) (W : (⟨S1024x1024, .f32⟩ : BufTy).Contents (Elt Ideal))
    (B : (⟨S1024, .f32⟩ : BufTy).Contents (Elt Ideal))
    (xr : Fin 4 → Fin 1024 → Fin 2048 → ℝ) (w : Fin 1024 → Fin 1024 → ℝ) (bias : Fin 1024 → ℝ)
    (hX : ∀ b d s, X (ix3 b d s) = ((xr b d s : ℝ) : EReal)) (hW : ∀ e d, W (ix2 e d) = ((w e d : ℝ) : EReal))
    (hB : ∀ e, B (ix1 e) = ((bias e : ℝ) : EReal)) (b : Fin 4) (s : Fin 2048) (e : Fin 1024) :
    (∑ k : Fin 1024, X (ix3 b k s) * W (ix2 e k)) + B (ix1 e) = ((Cert.Spec.proj xr w bias b s e : ℝ) : EReal) := by
  have h : ∀ k : Fin 1024, X (ix3 b k s) * W (ix2 e k) = ((xr b k s * w e k : ℝ) : EReal) := fun k => by
    rw [hX, hW, Cert.Softmax.coe_mul]
  rw [Finset.sum_congr rfl (fun k _ => h k), Cert.Softmax.coe_sum, hB, Cert.Softmax.coe_add]
  rfl

section Stages

variable (X : (⟨S4x1024x2048, .f32⟩ : BufTy).Contents (Elt Ideal)) (Wq : (⟨S1024x1024, .f32⟩ : BufTy).Contents (Elt Ideal)) (Bq : (⟨S1024, .f32⟩ : BufTy).Contents (Elt Ideal))
  (Wk : (⟨S1024x1024, .f32⟩ : BufTy).Contents (Elt Ideal)) (Bk : (⟨S1024, .f32⟩ : BufTy).Contents (Elt Ideal))
  (Wv : (⟨S1024x1024, .f32⟩ : BufTy).Contents (Elt Ideal)) (Bv : (⟨S1024, .f32⟩ : BufTy).Contents (Elt Ideal))
  (xr : Fin 4 → Fin 1024 → Fin 2048 → ℝ) (wq : Fin 1024 → Fin 1024 → ℝ) (bq : Fin 1024 → ℝ) (wk : Fin 1024 → Fin 1024 → ℝ) (bk : Fin 1024 → ℝ) (wv : Fin 1024 → Fin 1024 → ℝ) (bv : Fin 1024 → ℝ)
  (hX : ∀ b d s, X (ix3 b d s) = ((xr b d s : ℝ) : EReal)) (hWq : ∀ e d, Wq (ix2 e d) = ((wq e d : ℝ) : EReal)) (hBq : ∀ e, Bq (ix1 e) = ((bq e : ℝ) : EReal))
  (hWk : ∀ e d, Wk (ix2 e d) = ((wk e d : ℝ) : EReal)) (hBk : ∀ e, Bk (ix1 e) = ((bk e : ℝ) : EReal))
  (hWv : ∀ e d, Wv (ix2 e d) = ((wv e d : ℝ) : EReal)) (hBv : ∀ e, Bv (ix1 e) = ((bv e : ℝ) : EReal))

include hX hWq hBq in
/-- The query projection. -/
theorem q_eq (b : Fin 4) (s : Fin 2048) (e : Fin 1024) :
    val_main_v4 (F := Ideal) X Wq Bq (ix3 b s e) = ((Cert.Spec.proj xr wq bq b s e : ℝ) : EReal) := by
  rw [val_main_v4_apply, val_main_v1_apply, val_main_v3_apply, val_main_v2_apply, idx_v2_v3, Ideal.addf_def]
  refine Eq.trans ?_ (proj_core X Wq Bq xr wq bq hX hWq hBq b s e)
  refine congrArg (· + Bq (ix1 e)) (Finset.sum_congr rfl fun k _ => ?_)
  rw [val_main_v0_apply, lidx_v1, ridx_v1, idx_v0]

include hX hWk hBk in
/-- The key projection. -/
theorem k_eq (b : Fin 4) (s : Fin 2048) (e : Fin 1024) :
    val_main_v8 (F := Ideal) X Wk Bk (ix3 b s e) = ((Cert.Spec.proj xr wk bk b s e : ℝ) : EReal) := by
  rw [val_main_v8_apply, val_main_v5_apply, val_main_v7_apply, val_main_v6_apply, idx_v6_v7, Ideal.addf_def]
  refine Eq.trans ?_ (proj_core X Wk Bk xr wk bk hX hWk hBk b s e)
  refine congrArg (· + Bk (ix1 e)) (Finset.sum_congr rfl fun k _ => ?_)
  rw [val_main_v0_apply, lidx_v5, ridx_v5, idx_v0]

include hX hWv hBv in
/-- The value projection. -/
theorem v_eq (b : Fin 4) (s : Fin 2048) (e : Fin 1024) :
    val_main_v12 (F := Ideal) X Wv Bv (ix3 b s e) = ((Cert.Spec.proj xr wv bv b s e : ℝ) : EReal) := by
  rw [val_main_v12_apply, val_main_v9_apply, val_main_v11_apply, val_main_v10_apply, idx_v10_v11, Ideal.addf_def]
  refine Eq.trans ?_ (proj_core X Wv Bv xr wv bv hX hWv hBv b s e)
  refine congrArg (· + Bv (ix1 e)) (Finset.sum_congr rfl fun k _ => ?_)
  rw [val_main_v0_apply, lidx_v9, ridx_v9, idx_v0]

/-! ### The scaled scores -/

include hX hWq hBq hWk hBk in
/-- The scores: the sum over the features of query times key, divided by the square root of 1024. -/
theorem score_eq (b : Fin 4) (s t : Fin 2048) :
    val_main_v16 (F := Ideal) X Wq Bq Wk Bk (ix3 b s t)
      = ((Cert.Spec.score (Cert.Spec.proj xr wq bq) (Cert.Spec.proj xr wk bk) b s t : ℝ) : EReal) := by
  rw [val_main_v16_apply, val_main_v13_apply, val_main_v15_apply, val_main_v14_apply, val_main_cst_apply,
    Ideal.hostDivf_def, Ideal.hostUnary_sqrt_def, Ideal.ofBits_def, ofBits_1024, Cert.Softmax.ideal_sqrt_1024]
  have h : ∀ k : Fin 1024, val_main_v4 (F := Ideal) X Wq Bq (lidx_main_v13 (ix3 b s t) k) * val_main_v8 (F := Ideal) X Wk Bk (ridx_main_v13 (ix3 b s t) k)
      = ((Cert.Spec.proj xr wq bq b s k * Cert.Spec.proj xr wk bk b t k : ℝ) : EReal) := fun k => by
    rw [lidx_v13, ridx_v13, q_eq X Wq Bq xr wq bq hX hWq hBq, k_eq X Wk Bk xr wk bk hX hWk hBk, Cert.Softmax.coe_mul]
  rw [Finset.sum_congr rfl (fun k _ => h k), Cert.Softmax.coe_sum, Cert.Softmax.ideal_div_coe _ _ (by norm_num)]
  rfl

/-! ### The row maximum -/

/-- The reduced index (b, s) with the coordinate k put back on the last axis is (b, s, k). -/
theorem lift_ix2 (h : S4x2048x2048.Reduces [2] S4x2048) (b : Fin 4) (s : Fin 2048) (k : Fin (S4x2048x2048.size 2)) :
    h.lift (ix2 b s) k = ix3 b s (⟨k.val, k.isLt⟩ : Fin 2048) := by
  funext c; apply Fin.ext
  fin_cases c <;> rfl

include hX hWq hBq hWk hBk in
/-- The maximum of a row of scores, taken from −∞ and then once more against −∞, is a real: the row is a nonempty
    finite family of reals. -/
theorem rowmax_real (b : Fin 4) (s : Fin 2048) :
    ∃ μ : ℝ, val_main_v19 (F := Ideal) X Wq Bq Wk Bk (ix2 b s) = (μ : EReal) := by
  have hne : (Finset.univ : Finset (Fin 2048)).Nonempty := ⟨0, Finset.mem_univ _⟩
  obtain ⟨μ, hμ, -⟩ := Cert.Softmax.fold_max_coe Finset.univ hne
    (fun t => Cert.Spec.score (Cert.Spec.proj xr wq bq) (Cert.Spec.proj xr wk bk) b s t)
  refine ⟨μ, ?_⟩
  have h : S4x2048x2048.Reduces [2] S4x2048 := by decide
  have hf : (val_main_v16 (F := Ideal) X Wq Bq Wk Bk ∘ h.lift (ix2 b s))
      = fun k : Fin 2048 => ((Cert.Spec.score (Cert.Spec.proj xr wq bq) (Cert.Spec.proj xr wk bk) b s k : ℝ) : EReal) :=
    funext fun k => by
      show val_main_v16 (F := Ideal) X Wq Bq Wk Bk (h.lift (ix2 b s) k) = _
      rw [lift_ix2, score_eq X Wq Bq Wk Bk xr wq bq wk bk hX hWq hBq hWk hBk]
      rfl
  rw [val_main_v19_apply, val_main_v18_apply, val_main_cst_1_apply, Ideal.maximumf_def, Ideal.ofBits_def, ofBits_neg_inf,
    max_eq_right bot_le]
  unfold val_main_v17
  rw [Host.reduce_eq_fold_single FloatOps.maximumf _ _ Gen.reducesTo_S4x2048x2048_S4x2048_d2 h Gen.h_S_, hf,
    val_main_cst_0_apply, Ideal.ofBits_def, ofBits_neg_inf]
  exact hμ

/-! ### The shifted exponentials, their row sum, and the weights -/

section Shifted

variable (b : Fin 4) (s : Fin 2048) (μ : ℝ) (hμ : val_main_v19 (F := Ideal) X Wq Bq Wk Bk (ix2 b s) = (μ : EReal))

include hX hWq hBq hWk hBk hμ in
/-- The exponential of a score less the row maximum. -/
theorem exp_eq (t : Fin 2048) :
    val_main_v23 (F := Ideal) X Wq Bq Wk Bk (ix3 b s t)
      = ((Real.exp (Cert.Spec.score (Cert.Spec.proj xr wq bq) (Cert.Spec.proj xr wk bk) b s t - μ) : ℝ) : EReal) := by
  rw [val_main_v23_apply, val_main_v22_apply, val_main_v21_apply, val_main_v20_apply, idx_v20_v21, hμ,
    score_eq X Wq Bq Wk Bk xr wq bq wk bk hX hWq hBq hWk hBk, Ideal.hostUnary_exp_def, Ideal.subf_def,
    Cert.Softmax.coe_sub, Cert.Softmax.ideal_exp_coe]

include hX hWq hBq hWk hBk hμ in
/-- The row sum of the shifted exponentials, from zero. -/
theorem rowsum_eq :
    val_main_v24 (F := Ideal) X Wq Bq Wk Bk (ix2 b s)
      = ((∑ t : Fin 2048, Real.exp (Cert.Spec.score (Cert.Spec.proj xr wq bq) (Cert.Spec.proj xr wk bk) b s t - μ) : ℝ) : EReal) := by
  have h : ∀ k : Fin 2048, val_main_v23 (F := Ideal) X Wq Bq Wk Bk (idx_main_v24 (ix2 b s) k)
      = ((Real.exp (Cert.Spec.score (Cert.Spec.proj xr wq bq) (Cert.Spec.proj xr wk bk) b s k - μ) : ℝ) : EReal) := fun k => by
    rw [idx_v24, exp_eq X Wq Bq Wk Bk xr wq bq wk bk hX hWq hBq hWk hBk b s μ hμ]
  rw [val_main_v24_apply, val_main_cst_2_apply, Ideal.ofBits_def, Ideal.ofBits_zero_f32, zero_add,
    Finset.sum_congr rfl (fun k _ => h k), Cert.Softmax.coe_sum]

include hX hWq hBq hWk hBk hμ in
/-- The weight: a shifted exponential over the (positive) row sum. -/
theorem weight_eq (t : Fin 2048) :
    val_main_v27 (F := Ideal) X Wq Bq Wk Bk (ix3 b s t)
      = ((Real.exp (Cert.Spec.score (Cert.Spec.proj xr wq bq) (Cert.Spec.proj xr wk bk) b s t - μ)
          / ∑ u : Fin 2048, Real.exp (Cert.Spec.score (Cert.Spec.proj xr wq bq) (Cert.Spec.proj xr wk bk) b s u - μ) : ℝ) : EReal) := by
  have hpos : 0 < ∑ u : Fin 2048, Real.exp (Cert.Spec.score (Cert.Spec.proj xr wq bq) (Cert.Spec.proj xr wk bk) b s u - μ) :=
    Finset.sum_pos (fun u _ => Real.exp_pos _) ⟨0, Finset.mem_univ _⟩
  rw [val_main_v27_apply, val_main_v26_apply, val_main_v25_apply, idx_v25_v26,
    exp_eq X Wq Bq Wk Bk xr wq bq wk bk hX hWq hBq hWk hBk b s μ hμ,
    rowsum_eq X Wq Bq Wk Bk xr wq bq wk bk hX hWq hBq hWk hBk b s μ hμ, Ideal.hostDivf_def,
    Cert.Softmax.ideal_div_coe _ _ hpos.ne']

end Shifted

end Stages

/-! ### The reference computes the specification -/

open Idealize.ShloMosaic Cert.ReferenceIdeal in
theorem result_eq
    (X : (⟨S4x1024x2048, .f32⟩ : BufTy).Contents (Elt Ideal)) (Wq : (⟨S1024x1024, .f32⟩ : BufTy).Contents (Elt Ideal)) (Bq : (⟨S1024, .f32⟩ : BufTy).Contents (Elt Ideal))
    (Wk : (⟨S1024x1024, .f32⟩ : BufTy).Contents (Elt Ideal)) (Bk : (⟨S1024, .f32⟩ : BufTy).Contents (Elt Ideal))
    (Wv : (⟨S1024x1024, .f32⟩ : BufTy).Contents (Elt Ideal)) (Bv : (⟨S1024, .f32⟩ : BufTy).Contents (Elt Ideal))
    (xr : Fin 4 → Fin 1024 → Fin 2048 → ℝ) (wq : Fin 1024 → Fin 1024 → ℝ) (bq : Fin 1024 → ℝ) (wk : Fin 1024 → Fin 1024 → ℝ) (bk : Fin 1024 → ℝ) (wv : Fin 1024 → Fin 1024 → ℝ) (bv : Fin 1024 → ℝ)
    (hX : ∀ b d s, X (ValueIdx.ix3 b d s) = ((xr b d s : ℝ) : EReal)) (hWq : ∀ e d, Wq (ValueIdx.ix2 e d) = ((wq e d : ℝ) : EReal)) (hBq : ∀ e, Bq (ValueIdx.ix1 e) = ((bq e : ℝ) : EReal))
    (hWk : ∀ e d, Wk (ValueIdx.ix2 e d) = ((wk e d : ℝ) : EReal)) (hBk : ∀ e, Bk (ValueIdx.ix1 e) = ((bk e : ℝ) : EReal))
    (hWv : ∀ e d, Wv (ValueIdx.ix2 e d) = ((wv e d : ℝ) : EReal)) (hBv : ∀ e, Bv (ValueIdx.ix1 e) = ((bv e : ℝ) : EReal))
    (b : Fin 4) (s : Fin 2048) (e : Fin 1024) :
    Cert.ReferenceIdeal.Read.val_main_v28 (F := Ideal) X Wq Bq Wk Bk Wv Bv (ValueIdx.ix3 b s e)
      = ((Cert.Spec.result xr wq bq wk bk wv bv b s e : ℝ) : EReal) := by
  obtain ⟨μ, hμ⟩ := rowmax_real X Wq Bq Wk Bk xr wq bq wk bk hX hWq hBq hWk hBk b s
  have h : ∀ k : Fin 2048,
      val_main_v27 (F := Ideal) X Wq Bq Wk Bk (lidx_main_v28 (ix3 b s e) k) * val_main_v12 (F := Ideal) X Wv Bv (ridx_main_v28 (ix3 b s e) k)
      = (((Real.exp (Cert.Spec.score (Cert.Spec.proj xr wq bq) (Cert.Spec.proj xr wk bk) b s k - μ)
          / ∑ u : Fin 2048, Real.exp (Cert.Spec.score (Cert.Spec.proj xr wq bq) (Cert.Spec.proj xr wk bk) b s u - μ))
          * Cert.Spec.proj xr wv bv b k e : ℝ) : EReal) := fun k => by
    rw [lidx_v28, ridx_v28, weight_eq X Wq Bq Wk Bk xr wq bq wk bk hX hWq hBq hWk hBk b s μ hμ,
      v_eq X Wv Bv xr wv bv hX hWv hBv, Cert.Softmax.coe_mul]
  rw [val_main_v28_apply, Finset.sum_congr rfl (fun k _ => h k), Cert.Softmax.coe_sum]
  refine congrArg (fun r : ℝ => (r : EReal)) ?_
  exact Cert.Softmax.shifted_eq Finset.univ
    (fun t => Cert.Spec.score (Cert.Spec.proj xr wq bq) (Cert.Spec.proj xr wk bk) b s t)
    (fun t => Cert.Spec.proj xr wv bv b t e) μ ⟨0, Finset.mem_univ _⟩

end Cert.RefValue

end
-- ==== Proof.Finite.lean ====
/-
  From the precondition to real-valued inputs. The precondition states, array by array, that every entry's absolute value
  is below `+∞`, and conjoins the seven statements. On the extended reals `|x| < +∞` says that `x` is neither infinity,
  so every entry of every array is a coerced real; the conjunction's nesting is that of the predicate's chain of `and`s,
  `((((((X ∧ Wq) ∧ bq) ∧ Wk) ∧ bk) ∧ Wv) ∧ bv)`.
-/
import proofs.«427284_j19997367730626_3_alg».proof.Proof.Gen.Pre_finite_inputs
import proofs.«427284_j19997367730626_3_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- An extended real whose absolute value `max x (−x)` is below `+∞` is a real. -/
theorem real_of_abs_lt_top (x : EReal) (h : max x (-x) < ⊤) : x = ((x.toReal : ℝ) : EReal) := by
  induction x using EReal.rec with
  | bot => simp at h
  | coe r => rfl
  | top => simp at h

/-- One entry: the comparison `|x i| < +∞` that came out true makes `x i` a real. -/
theorem entry_of_cmp {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    x i = (((x i).toReal : ℝ) : EReal) := by
  change Ideal.cmp .olt (max (x i) (-(x i))) (Ideal.ofBits .f32 0x7F800000#32) = 1#1 at h
  rw [inf_bits] at h
  refine real_of_abs_lt_top (x i) ?_
  by_contra hlt
  simp [Ideal.cmp, hlt] at h

/-- One array: the reduction by `and` over all axes of the comparisons `|x i| < +∞` that came out true makes every entry
    a real. -/
theorem array_real {s : Shape} (hb : S_.BroadcastsInDim s (![] : Fin 0 → Fin s.rank)) (x : FVec Ideal s .f32)
    {axes : List (Fin s.rank)} (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) :
    x i = (((x i).toReal : ℝ) : EReal) :=
  entry_of_cmp hb x i (Host.reduce_andi_all _ _ hr hu ValueIdx.ix0 e i)

end Cert.Finite

open Idealize.ShloMosaic Cert.Pre_finite_inputs in
theorem Cert.Finite.reals_of_pre (X : FVec Ideal S4x1024x2048 .f32) (Wq : FVec Ideal S1024x1024 .f32) (Bq : FVec Ideal S1024 .f32) (Wk : FVec Ideal S1024x1024 .f32) (Bk : FVec Ideal S1024 .f32) (Wv : FVec Ideal S1024x1024 .f32) (Bv : FVec Ideal S1024 .f32)
    (h : Cert.Pre_finite_inputs.fn (F := Ideal) X Wq Bq Wk Bk Wv Bv = (fun _ => 1#1)) :
    (∃ xr : Fin 4 → Fin 1024 → Fin 2048 → ℝ, ∀ b d s, X (ValueIdx.ix3 b d s) = ((xr b d s : ℝ) : EReal))
    ∧ (∃ wq : Fin 1024 → Fin 1024 → ℝ, ∀ e d, Wq (ValueIdx.ix2 e d) = ((wq e d : ℝ) : EReal)) ∧ (∃ bq : Fin 1024 → ℝ, ∀ e, Bq (ValueIdx.ix1 e) = ((bq e : ℝ) : EReal))
    ∧ (∃ wk : Fin 1024 → Fin 1024 → ℝ, ∀ e d, Wk (ValueIdx.ix2 e d) = ((wk e d : ℝ) : EReal)) ∧ (∃ bk : Fin 1024 → ℝ, ∀ e, Bk (ValueIdx.ix1 e) = ((bk e : ℝ) : EReal))
    ∧ (∃ wv : Fin 1024 → Fin 1024 → ℝ, ∀ e d, Wv (ValueIdx.ix2 e d) = ((wv e d : ℝ) : EReal)) ∧ (∃ bv : Fin 1024 → ℝ, ∀ e, Bv (ValueIdx.ix1 e) = ((bv e : ℝ) : EReal)) := by
  have h0 := congrFun h ValueIdx.ix0
  dsimp only [Cert.Pre_finite_inputs.fn, Cert.Pre_finite_inputs.fn_part1, Idealize.ShloMosaic.andi] at h0
  obtain ⟨h0, hBv⟩ := IntOp.andi_eq_one.1 h0
  obtain ⟨h0, hWv⟩ := IntOp.andi_eq_one.1 h0
  obtain ⟨h0, hBk⟩ := IntOp.andi_eq_one.1 h0
  obtain ⟨h0, hWk⟩ := IntOp.andi_eq_one.1 h0
  obtain ⟨h0, hBq⟩ := IntOp.andi_eq_one.1 h0
  obtain ⟨hX, hWq⟩ := IntOp.andi_eq_one.1 h0
  exact ⟨⟨fun b d s => (X (ValueIdx.ix3 b d s)).toReal, fun b d s => Cert.Finite.array_real _ X _ _ hX _⟩,
    ⟨fun e d => (Wq (ValueIdx.ix2 e d)).toReal, fun e d => Cert.Finite.array_real _ Wq _ _ hWq _⟩,
    ⟨fun e => (Bq (ValueIdx.ix1 e)).toReal, fun e => Cert.Finite.array_real _ Bq _ _ hBq _⟩,
    ⟨fun e d => (Wk (ValueIdx.ix2 e d)).toReal, fun e d => Cert.Finite.array_real _ Wk _ _ hWk _⟩,
    ⟨fun e => (Bk (ValueIdx.ix1 e)).toReal, fun e => Cert.Finite.array_real _ Bk _ _ hBk _⟩,
    ⟨fun e d => (Wv (ValueIdx.ix2 e d)).toReal, fun e d => Cert.Finite.array_real _ Wv _ _ hWv _⟩,
    ⟨fun e => (Bv (ValueIdx.ix1 e)).toReal, fun e => Cert.Finite.array_real _ Bv _ _ hBv _⟩⟩
-- ==== Proof.KI.Val0Pay.lean ====
/-
  The projection body's stored values, index by index. The body forms  x · W + bias : [512, 3072]  from a block x of 512
  rows of 1024 features, the fused weight W : [1024, 3072] and the fused bias row, and stores its three column thirds.
  Read at row r and column n the sum is  Σ_k x(r, k) · W(k, n) + bias(n);  the third stored into result j at (r, e) is
  the sum at column 1024 j + e. When the row of x, the column of W and the bias entry are (coerced) reals, the stored
  value is the coerced real projection of the specification.
-/
import proofs.«427284_j19997367730626_3_alg».proof.Proof.Gen.KernelIdeal.Skeleton
import proofs.«427284_j19997367730626_3_alg».proof.Proof.Spec
import proofs.«427284_j19997367730626_3_alg».proof.Proof.Softmax
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.ValueIdx Cert.KernelIdeal Cert.KernelIdeal.Gen

/-! ### The product's operand indices, axis by axis -/

theorem lhs_mm_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_mm_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_mm_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_mm_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product at (r, n): the sum over the 1024 features of the row's entry times the column's. -/
theorem mm_apply (l : FVec Ideal S512x1024 .bf16) (w : FVec Ideal S1024x3072 .bf16) (r : Fin 512) (n : Fin 3072) :
    matmul dot_S512x1024_S1024x3072_S512x3072_1_0_0_1_n_n none l w (constant (F := Ideal) S512x3072 .f32 0x00000000#32) (ix2 r n)
      = ∑ k : Fin 1024, l (ix2 r k) * w (ix2 k n) := by
  show FloatOps.matmul _ _ _ _ _ _ = _
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r n) ((ValueIdx.contrEquiv1 dot_S512x1024_S1024x3072_S512x3072_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x3072_S512x3072_1_0_0_1_n_n.rhsIdx (ix2 r n) ((ValueIdx.contrEquiv1 dot_S512x1024_S1024x3072_S512x3072_1_0_0_1_n_n 1024 rfl rfl).symm k) = ix2 k n := funext fun a => Fin.ext (by
    match a with
    | ⟨0, _⟩ => exact (rhs_mm_0 _ _).trans hk
    | ⟨1, _⟩ => exact rhs_mm_1 _ _)
  rw [el, er]

/-- The body's sum  x · W + bias  at (r, n). -/
theorem pay1_apply (x0 : Vec Ideal S1x512x1024 .bf16) (x1 : Vec Ideal S1024x3072 .bf16) (x2 : Vec Ideal S1x3072 .f32)
    (r : Fin 512) (n : Fin 3072) :
    k0_pay1 x0 x1 x2 (ix2 r n) = (∑ k : Fin 1024, x0 (ix3 0 r k) * x1 (ix2 k n)) + x2 (ix2 0 n) := by
  unfold k0_pay1
  rw [addf_apply, shapeCast_self, shapeCast_self, mm_apply]
  congr 1
  · refine Finset.sum_congr rfl fun k _ => ?_
    congr 1
    refine (shapeCast_dropUnit_apply _ x0 _ (ix2 r k)).trans (congrArg x0 (funext fun a => ?_))
    match a with
    | ⟨0, _⟩ => rfl
    | ⟨1, _⟩ => rfl
    | ⟨2, _⟩ => rfl
  · refine broadcastTo_apply x2 _ (ix2 r n) (ix2 0 n) fun a => ?_
    match a with
    | ⟨0, _⟩ => rfl
    | ⟨1, _⟩ => rfl

/-! ### Each stored third at an index, over the reals -/

/-- A sum of products of reals plus a real, each coerced, is the coerced projection. -/
theorem proj_coe (xr : Fin 4 → Fin 1024 → Fin 2048 → ℝ) (w : Fin 1024 → Fin 1024 → ℝ) (bias : Fin 1024 → ℝ)
    (bb : Fin 4) (ss : Fin 2048) (e : Fin 1024) :
    (∑ k : Fin 1024, ((xr bb k ss : ℝ) : EReal) * ((w e k : ℝ) : EReal)) + ((bias e : ℝ) : EReal)
      = ((Cert.Spec.proj xr w bias bb ss e : ℝ) : EReal) := by
  rw [Finset.sum_congr rfl (fun k _ => Cert.Softmax.coe_mul (xr bb k ss) (w e k)), Cert.Softmax.coe_sum, Cert.Softmax.coe_add]
  rfl

/-- The sum  x · W + bias  at row r and column n, when the row of x, the column of W and the bias entry are the reals of
    batch bb, position ss and output feature e. -/
theorem pay1_value (x0 : Vec Ideal S1x512x1024 .bf16) (x1 : Vec Ideal S1024x3072 .bf16) (x2 : Vec Ideal S1x3072 .f32)
    (xr : Fin 4 → Fin 1024 → Fin 2048 → ℝ) (w : Fin 1024 → Fin 1024 → ℝ) (bias : Fin 1024 → ℝ)
    (r : Fin 512) (n : Fin 3072) (bb : Fin 4) (ss : Fin 2048) (e : Fin 1024)
    (hx0 : ∀ k : Fin 1024, x0 (ix3 0 r k) = ((xr bb k ss : ℝ) : EReal))
    (hx1 : ∀ k : Fin 1024, x1 (ix2 k n) = ((w e k : ℝ) : EReal))
    (hx2 : x2 (ix2 0 n) = ((bias e : ℝ) : EReal)) :
    k0_pay1 x0 x1 x2 (ix2 r n) = ((Cert.Spec.proj xr w bias bb ss e : ℝ) : EReal) := by
  rw [pay1_apply, hx2, Finset.sum_congr rfl (fun k _ => by rw [hx0 k, hx1 k])]
  exact proj_coe xr w bias bb ss e

/-- The first stored third (columns [0, 1024) of the sum) at (0, r, e). -/
theorem pay2_value (x0 : Vec Ideal S1x512x1024 .bf16) (x1 : Vec Ideal S1024x3072 .bf16) (x2 : Vec Ideal S1x3072 .f32)
    (xr : Fin 4 → Fin 1024 → Fin 2048 → ℝ) (w : Fin 1024 → Fin 1024 → ℝ) (bias : Fin 1024 → ℝ)
    (r : Fin 512) (e : Fin 1024) (n : Fin 3072) (hn : n.val = e.val) (bb : Fin 4) (ss : Fin 2048)
    (hx0 : ∀ k : Fin 1024, x0 (ix3 0 r k) = ((xr bb k ss : ℝ) : EReal))
    (hx1 : ∀ k : Fin 1024, x1 (ix2 k n) = ((w e k : ℝ) : EReal))
    (hx2 : x2 (ix2 0 n) = ((bias e : ℝ) : EReal)) (u : Fin 1) :
    k0_pay2 x0 x1 x2 (ix3 u r e) = ((Cert.Spec.proj xr w bias bb ss e : ℝ) : EReal) := by
  unfold k0_pay2
  refine (shapeCast_apply _ shapeCasts_S512x1024_S1x512x1024 (ix3 u r e) (ix2 r e) ?_).trans ?_
  · rw [Shape.rowMajor_val_two, Shape.rowMajor_val_three]
    show r.val * 1024 + e.val = (u.val * 512 + r.val) * 1024 + e.val
    have := u.isLt; omega
  have h1 : k0_pay1 x0 x1 x2 (ix2 r n) = ((Cert.Spec.proj xr w bias bb ss e : ℝ) : EReal) :=
    pay1_value x0 x1 x2 xr w bias r n bb ss e hx0 hx1 hx2
  generalize k0_pay1 x0 x1 x2 = P at h1 ⊢
  have h2 : extractStridedSlice S512x1024 ![0, 0] P slices_S512x3072_o0_0_S512x1024 (ix2 r e) = P (ix2 r n) :=
    extractStridedSlice_apply ![0, 0] P slices_S512x3072_o0_0_S512x1024 (ix2 r e) (ix2 r n) fun a => by
      match a with
      | ⟨0, _⟩ => show r.val = 0 + r.val; omega
      | ⟨1, _⟩ => show n.val = 0 + e.val; omega
  exact h2.trans h1

/-- The second stored third (columns [1024, 2048)) at (0, r, e). -/
theorem pay3_value (x0 : Vec Ideal S1x512x1024 .bf16) (x1 : Vec Ideal S1024x3072 .bf16) (x2 : Vec Ideal S1x3072 .f32)
    (xr : Fin 4 → Fin 1024 → Fin 2048 → ℝ) (w : Fin 1024 → Fin 1024 → ℝ) (bias : Fin 1024 → ℝ)
    (r : Fin 512) (e : Fin 1024) (n : Fin 3072) (hn : n.val = 1024 + e.val) (bb : Fin 4) (ss : Fin 2048)
    (hx0 : ∀ k : Fin 1024, x0 (ix3 0 r k) = ((xr bb k ss : ℝ) : EReal))
    (hx1 : ∀ k : Fin 1024, x1 (ix2 k n) = ((w e k : ℝ) : EReal))
    (hx2 : x2 (ix2 0 n) = ((bias e : ℝ) : EReal)) (u : Fin 1) :
    k0_pay3 x0 x1 x2 (ix3 u r e) = ((Cert.Spec.proj xr w bias bb ss e : ℝ) : EReal) := by
  unfold k0_pay3
  refine (shapeCast_apply _ shapeCasts_S512x1024_S1x512x1024 (ix3 u r e) (ix2 r e) ?_).trans ?_
  · rw [Shape.rowMajor_val_two, Shape.rowMajor_val_three]
    show r.val * 1024 + e.val = (u.val * 512 + r.val) * 1024 + e.val
    have := u.isLt; omega
  have h1 : k0_pay1 x0 x1 x2 (ix2 r n) = ((Cert.Spec.proj xr w bias bb ss e : ℝ) : EReal) :=
    pay1_value x0 x1 x2 xr w bias r n bb ss e hx0 hx1 hx2
  generalize k0_pay1 x0 x1 x2 = P at h1 ⊢
  have h2 : extractStridedSlice S512x1024 ![0, 1024] P slices_S512x3072_o0_1024_S512x1024 (ix2 r e) = P (ix2 r n) :=
    extractStridedSlice_apply ![0, 1024] P slices_S512x3072_o0_1024_S512x1024 (ix2 r e) (ix2 r n) fun a => by
      match a with
      | ⟨0, _⟩ => show r.val = 0 + r.val; omega
      | ⟨1, _⟩ => show n.val = 1024 + e.val; omega
  exact h2.trans h1

/-- The third stored third (columns [2048, 3072)) at (0, r, e). -/
theorem pay4_value (x0 : Vec Ideal S1x512x1024 .bf16) (x1 : Vec Ideal S1024x3072 .bf16) (x2 : Vec Ideal S1x3072 .f32)
    (xr : Fin 4 → Fin 1024 → Fin 2048 → ℝ) (w : Fin 1024 → Fin 1024 → ℝ) (bias : Fin 1024 → ℝ)
    (r : Fin 512) (e : Fin 1024) (n : Fin 3072) (hn : n.val = 2048 + e.val) (bb : Fin 4) (ss : Fin 2048)
    (hx0 : ∀ k : Fin 1024, x0 (ix3 0 r k) = ((xr bb k ss : ℝ) : EReal))
    (hx1 : ∀ k : Fin 1024, x1 (ix2 k n) = ((w e k : ℝ) : EReal))
    (hx2 : x2 (ix2 0 n) = ((bias e : ℝ) : EReal)) (u : Fin 1) :
    k0_pay4 x0 x1 x2 (ix3 u r e) = ((Cert.Spec.proj xr w bias bb ss e : ℝ) : EReal) := by
  unfold k0_pay4
  refine (shapeCast_apply _ shapeCasts_S512x1024_S1x512x1024 (ix3 u r e) (ix2 r e) ?_).trans ?_
  · rw [Shape.rowMajor_val_two, Shape.rowMajor_val_three]
    show r.val * 1024 + e.val = (u.val * 512 + r.val) * 1024 + e.val
    have := u.isLt; omega
  have h1 : k0_pay1 x0 x1 x2 (ix2 r n) = ((Cert.Spec.proj xr w bias bb ss e : ℝ) : EReal) :=
    pay1_value x0 x1 x2 xr w bias r n bb ss e hx0 hx1 hx2
  generalize k0_pay1 x0 x1 x2 = P at h1 ⊢
  have h2 : extractStridedSlice S512x1024 ![0, 2048] P slices_S512x3072_o0_2048_S512x1024 (ix2 r e) = P (ix2 r n) :=
    extractStridedSlice_apply ![0, 2048] P slices_S512x3072_o0_2048_S512x1024 (ix2 r e) (ix2 r n) fun a => by
      match a with
      | ⟨0, _⟩ => show r.val = 0 + r.val; omega
      | ⟨1, _⟩ => show n.val = 2048 + e.val; omega
  exact h2.trans h1

end Cert.KernelIdeal.Val0

end
-- ==== Proof.LibNary3.lean ====
/-
  A host operation over a literal family of THREE references (a concatenation of three operands), read back: the result
  buffer holds the operation's function applied to the three operands' contents, each named at its own reference, so that
  the contents of the operands can be rewritten further.
-/
import Idealize.ShloMosaic.Lib.StableHlo.Run

noncomputable section

namespace Idealize.ShloMosaic.StableHlo

section ThreeOperands

variable {τ : Topo} {sig : RefSig} {Val : EltTy → Type}
variable {x a b y : Ref sig .tc}

/-- An operation over a literal family of three references: the result buffer holds the function's value at the family
    whose member `k` is operand `k`'s contents read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end ThreeOperands

end Idealize.ShloMosaic.StableHlo

end
-- ==== Proof.KI.Val0Host.lean ====
/-
  The three arrays the host stretch hands the projection launch, index by index: the input transposed, so that entry
  (b, s, d) is the input's (b, d, s); the three weights, each transposed, side by side, so that entry (k, 1024 j + e) is
  weight j at (e, k); and the three biases end to end as one row, entry (0, 1024 j + e) being bias j at e. At the ideal
  values a change of float format is the identity.
-/
import proofs.«427284_j19997367730626_3_alg».proof.Proof.Gen.KernelIdeal.Launch
import proofs.«427284_j19997367730626_3_alg».proof.Proof.LibNary3
import Idealize.ShloMosaic.Lib.Pipeline.Value
import Idealize.ShloMosaic.Lib.ValueIdx
import Idealize.ShloMosaic.Lib.StableHlo.Run

noncomputable section

namespace Cert.KernelIdeal.Val0

open Idealize.ShloMosaic Idealize.ShloMosaic.ValueIdx Cert.KernelIdeal Cert.KernelIdeal.Gen

/-! ### The three arrays the host stretch hands the launch, read at an index -/

/-- The transposed input at (b, s, d) is the input at (b, d, s). -/
theorem xT_at (X : FVec Ideal S4x1024x2048 .f32) (i : S4x2048x1024.Idx) (bb : Fin 4) (ss : Fin 2048) (kk : Fin 1024)
    (h0 : (i 0).val = bb.val) (h1 : (i 1).val = ss.val) (h2 : (i 2).val = kk.val) :
    (truncf .bf16 (transpose S4x2048x1024 [0, 2, 1] X transposes_S4x1024x2048_S4x2048x1024_0_2_1) bitsLt_bf16_f32 : FVec Ideal S4x2048x1024 .bf16) i
      = X (ix3 bb kk ss) := by
  rw [truncf_apply]
  exact transpose_apply [0, 2, 1] X transposes_S4x1024x2048_S4x2048x1024_0_2_1 i (ix3 bb kk ss) (fun b => match b with
    | ⟨0, _⟩ => h0.symm
    | ⟨1, _⟩ => h1.symm
    | ⟨2, _⟩ => h2.symm)

/-- A transposed weight at (k, e) is the weight at (e, k). -/
theorem wT_at (W : FVec Ideal S1024x1024 .f32) (k e : Fin 1024) :
    transpose S1024x1024 [1, 0] W transposes_S1024x1024_S1024x1024_1_0 (ix2 k e) = W (ix2 e k) :=
  transpose_apply [1, 0] W transposes_S1024x1024_S1024x1024_1_0 (ix2 k e) (ix2 e k) (fun b => match b with
    | ⟨0, _⟩ => rfl
    | ⟨1, _⟩ => rfl)

/-- The fused weight: its columns [0, 1024) are the first weight's rows, transposed. -/
theorem wcat_at0 (W0 W1 W2 : FVec Ideal S1024x1024 .f32) (k : Fin 1024) (n : Fin 3072) (e : Fin 1024) (hn : n.val = e.val) :
    (truncf .bf16 (concatenate S1024x3072 1 [⟨S1024x1024, transpose S1024x1024 [1, 0] W0 transposes_S1024x1024_S1024x1024_1_0⟩,
        ⟨S1024x1024, transpose S1024x1024 [1, 0] W1 transposes_S1024x1024_S1024x1024_1_0⟩,
        ⟨S1024x1024, transpose S1024x1024 [1, 0] W2 transposes_S1024x1024_S1024x1024_1_0⟩]
        concatenates_S1024x1024_S1024x1024_S1024x1024_S1024x3072_d1) bitsLt_bf16_f32 : FVec Ideal S1024x3072 .bf16) (ix2 k n) = W0 (ix2 e k) := by
  rw [truncf_apply]
  refine (concatenate_apply_piece (1 : Fin S1024x3072.rank) [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩] concatenates_S1024x1024_S1024x1024_S1024x1024_S1024x3072_d1 (ix2 k n)
    0 (by show (0 : ℕ) < 3; decide) S1024x1024 _ rfl rfl 0 rfl (ix2 k e) (fun b hb => ?_) ?_).trans (wT_at W0 k e)
  · match b with
    | ⟨0, _⟩ => rfl
    | ⟨1, _⟩ => exact absurd rfl hb
  · show 0 + e.val = n.val
    omega

/-- Its columns [1024, 2048) are the second weight's. -/
theorem wcat_at1 (W0 W1 W2 : FVec Ideal S1024x1024 .f32) (k : Fin 1024) (n : Fin 3072) (e : Fin 1024) (hn : n.val = 1024 + e.val) :
    (truncf .bf16 (concatenate S1024x3072 1 [⟨S1024x1024, transpose S1024x1024 [1, 0] W0 transposes_S1024x1024_S1024x1024_1_0⟩,
        ⟨S1024x1024, transpose S1024x1024 [1, 0] W1 transposes_S1024x1024_S1024x1024_1_0⟩,
        ⟨S1024x1024, transpose S1024x1024 [1, 0] W2 transposes_S1024x1024_S1024x1024_1_0⟩]
        concatenates_S1024x1024_S1024x1024_S1024x1024_S1024x3072_d1) bitsLt_bf16_f32 : FVec Ideal S1024x3072 .bf16) (ix2 k n) = W1 (ix2 e k) := by
  rw [truncf_apply]
  refine (concatenate_apply_piece (1 : Fin S1024x3072.rank) [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩] concatenates_S1024x1024_S1024x1024_S1024x1024_S1024x3072_d1 (ix2 k n)
    1 (by show (1 : ℕ) < 3; decide) S1024x1024 _ rfl rfl 1024 rfl (ix2 k e) (fun b hb => ?_) ?_).trans (wT_at W1 k e)
  · match b with
    | ⟨0, _⟩ => rfl
    | ⟨1, _⟩ => exact absurd rfl hb
  · show 1024 + e.val = n.val
    omega

/-- Its columns [2048, 3072) are the third weight's. -/
theorem wcat_at2 (W0 W1 W2 : FVec Ideal S1024x1024 .f32) (k : Fin 1024) (n : Fin 3072) (e : Fin 1024) (hn : n.val = 2048 + e.val) :
    (truncf .bf16 (concatenate S1024x3072 1 [⟨S1024x1024, transpose S1024x1024 [1, 0] W0 transposes_S1024x1024_S1024x1024_1_0⟩,
        ⟨S1024x1024, transpose S1024x1024 [1, 0] W1 transposes_S1024x1024_S1024x1024_1_0⟩,
        ⟨S1024x1024, transpose S1024x1024 [1, 0] W2 transposes_S1024x1024_S1024x1024_1_0⟩]
        concatenates_S1024x1024_S1024x1024_S1024x1024_S1024x3072_d1) bitsLt_bf16_f32 : FVec Ideal S1024x3072 .bf16) (ix2 k n) = W2 (ix2 e k) := by
  rw [truncf_apply]
  refine (concatenate_apply_piece (1 : Fin S1024x3072.rank) [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩] concatenates_S1024x1024_S1024x1024_S1024x1024_S1024x3072_d1 (ix2 k n)
    2 (by show (2 : ℕ) < 3; decide) S1024x1024 _ rfl rfl 2048 rfl (ix2 k e) (fun b hb => ?_) ?_).trans (wT_at W2 k e)
  · match b with
    | ⟨0, _⟩ => rfl
    | ⟨1, _⟩ => exact absurd rfl hb
  · show 2048 + e.val = n.val
    omega

/-- The fused bias as a row: entry (0, n) is entry n of the concatenated biases. -/
theorem brow_at (B : FVec Ideal S3072 .f32) (u : Fin 1) (n : Fin 3072) :
    shapeCast S1x3072 B shapeCasts_S3072_S1x3072 (ix2 u n) = B (ix1 n) := by
  refine (shapeCast_addUnit_apply ![3072] B shapeCasts_S3072_S1x3072 (ix2 u n)).trans (congrArg B (funext fun a => ?_))
  match a with
  | ⟨0, _⟩ => rfl

/-- The concatenated biases: entries [0, 1024) are the first bias's, -/
theorem bcat_at0 (B0 B1 B2 : FVec Ideal S1024 .f32) (n : Fin 3072) (e : Fin 1024) (hn : n.val = e.val) :
    concatenate S3072 0 [⟨S1024, B0⟩, ⟨S1024, B1⟩, ⟨S1024, B2⟩] concatenates_S1024_S1024_S1024_S3072_d0 (ix1 n) = B0 (ix1 e) := by
  refine concatenate_apply_piece (0 : Fin S3072.rank) [⟨S1024, B0⟩, ⟨S1024, B1⟩, ⟨S1024, B2⟩] concatenates_S1024_S1024_S1024_S3072_d0 (ix1 n)
    0 (by show (0 : ℕ) < 3; decide) S1024 _ rfl rfl 0 rfl (ix1 e) (fun b hb => ?_) ?_
  · match b with
    | ⟨0, _⟩ => exact absurd rfl hb
  · show 0 + e.val = n.val
    omega
/-- entries [1024, 2048) the second's, -/
theorem bcat_at1 (B0 B1 B2 : FVec Ideal S1024 .f32) (n : Fin 3072) (e : Fin 1024) (hn : n.val = 1024 + e.val) :
    concatenate S3072 0 [⟨S1024, B0⟩, ⟨S1024, B1⟩, ⟨S1024, B2⟩] concatenates_S1024_S1024_S1024_S3072_d0 (ix1 n) = B1 (ix1 e) := by
  refine concatenate_apply_piece (0 : Fin S3072.rank) [⟨S1024, B0⟩, ⟨S1024, B1⟩, ⟨S1024, B2⟩] concatenates_S1024_S1024_S1024_S3072_d0 (ix1 n)
    1 (by show (1 : ℕ) < 3; decide) S1024 _ rfl rfl 1024 rfl (ix1 e) (fun b hb => ?_) ?_
  · match b with
    | ⟨0, _⟩ => exact absurd rfl hb
  · show 1024 + e.val = n.val
    omega
/-- entries [2048, 3072) the third's. -/
theorem bcat_at2 (B0 B1 B2 : FVec Ideal S1024 .f32) (n : Fin 3072) (e : Fin 1024) (hn : n.val = 2048 + e.val) :
    concatenate S3072 0 [⟨S1024, B0⟩, ⟨S1024, B1⟩, ⟨S1024, B2⟩] concatenates_S1024_S1024_S1024_S3072_d0 (ix1 n) = B2 (ix1 e) := by
  refine concatenate_apply_piece (0 : Fin S3072.rank) [⟨S1024, B0⟩, ⟨S1024, B1⟩, ⟨S1024, B2⟩] concatenates_S1024_S1024_S1024_S3072_d0 (ix1 n)
    2 (by show (2 : ℕ) < 3; decide) S1024 _ rfl rfl 2048 rfl (ix1 e) (fun b hb => ?_) ?_
  · match b with
    | ⟨0, _⟩ => exact absurd rfl hb
  · show 2048 + e.val = n.val
    omega

/-! ### What the host stretch leaves in the launch's three operand arrays -/

section Host

variable (m : (ℓ : Loc nD τ sig) → Buf (Elt Ideal) ℓ) (c : Dev nD)

/-- The launch's first operand is the input transposed. -/
theorem host_v1 : @Eq (FVec Ideal S4x2048x1024 .bf16) (StableHlo.after hostOps0 (fun b => m (c, b)) (Proc.devRef .tc main_v1))
    (truncf (F := Ideal) .bf16 (transpose S4x2048x1024 [0, 2, 1] (m ((c.tc : Thread nD τ).loc main_arg0) : FVec Ideal S4x1024x2048 .f32) transposes_S4x1024x2048_S4x2048x1024_0_2_1) bitsLt_bf16_f32) := by
  simp only [StableHlo.after_cons, StableHlo.after_nil]
  repeat (first
    | rw [StableHlo.unary_result] | rw [StableHlo.reshape_result] | rw [StableHlo.nary3_result]
    | (rw [StableHlo.unary_result_ne]; rotate_left; decide)
    | (rw [StableHlo.reshape_result_ne]; rotate_left; decide)
    | (rw [StableHlo.nary_result_ne]; rotate_left; decide))

/-- Its second operand is the three weights, each transposed, side by side. -/
theorem host_v6 : @Eq (FVec Ideal S1024x3072 .bf16) (StableHlo.after hostOps0 (fun b => m (c, b)) (Proc.devRef .tc main_v6))
    (truncf (F := Ideal) .bf16 (concatenate S1024x3072 1 [⟨S1024x1024, transpose S1024x1024 [1, 0] (m ((c.tc : Thread nD τ).loc main_arg1) : FVec Ideal S1024x1024 .f32) transposes_S1024x1024_S1024x1024_1_0⟩,
        ⟨S1024x1024, transpose S1024x1024 [1, 0] (m ((c.tc : Thread nD τ).loc main_arg3) : FVec Ideal S1024x1024 .f32) transposes_S1024x1024_S1024x1024_1_0⟩,
        ⟨S1024x1024, transpose S1024x1024 [1, 0] (m ((c.tc : Thread nD τ).loc main_arg5) : FVec Ideal S1024x1024 .f32) transposes_S1024x1024_S1024x1024_1_0⟩]
        concatenates_S1024x1024_S1024x1024_S1024x1024_S1024x3072_d1) bitsLt_bf16_f32) := by
  simp only [StableHlo.after_cons, StableHlo.after_nil]
  repeat (first
    | rw [StableHlo.unary_result] | rw [StableHlo.reshape_result] | rw [StableHlo.nary3_result]
    | (rw [StableHlo.unary_result_ne]; rotate_left; decide)
    | (rw [StableHlo.reshape_result_ne]; rotate_left; decide)
    | (rw [StableHlo.nary_result_ne]; rotate_left; decide))
  rfl

/-- Its third operand is the three biases end to end, as one row. -/
theorem host_v8 : @Eq (FVec Ideal S1x3072 .f32) (StableHlo.after hostOps0 (fun b => m (c, b)) (Proc.devRef .tc main_v8))
    (shapeCast S1x3072 (concatenate S3072 0 [⟨S1024, (m ((c.tc : Thread nD τ).loc main_arg2) : FVec Ideal S1024 .f32)⟩,
        ⟨S1024, (m ((c.tc : Thread nD τ).loc main_arg4) : FVec Ideal S1024 .f32)⟩,
        ⟨S1024, (m ((c.tc : Thread nD τ).loc main_arg6) : FVec Ideal S1024 .f32)⟩] concatenates_S1024_S1024_S1024_S3072_d0) shapeCasts_S3072_S1x3072) := by
  simp only [StableHlo.after_cons, StableHlo.after_nil]
  repeat (first
    | rw [StableHlo.unary_result] | rw [StableHlo.reshape_result] | rw [StableHlo.nary3_result]
    | (rw [StableHlo.unary_result_ne]; rotate_left; decide)
    | (rw [StableHlo.reshape_result_ne]; rotate_left; decide)
    | (rw [StableHlo.nary_result_ne]; rotate_left; decide))
  rfl

end Host

section HostAt

variable (m : (ℓ : Loc nD τ sig) → Buf (Elt Ideal) ℓ) (c : Dev nD)

/-- The first operand at (bb, ss, kk) is the input at (bb, kk, ss). -/
theorem v1_at (i : S4x2048x1024.Idx) (bb : Fin 4) (ss : Fin 2048) (kk : Fin 1024)
    (h0 : (i 0).val = bb.val) (h1 : (i 1).val = ss.val) (h2 : (i 2).val = kk.val) :
    (StableHlo.after hostOps0 (fun b => m (c, b)) (Proc.devRef .tc main_v1) : FVec Ideal S4x2048x1024 .bf16) i
      = (m ((c.tc : Thread nD τ).loc main_arg0) : FVec Ideal S4x1024x2048 .f32) (ix3 bb kk ss) :=
  (congrFun (host_v1 m c) i).trans (xT_at _ i bb ss kk h0 h1 h2)

/-- The second operand at row k and a column of its first third is the first weight at (e, k); -/
theorem v6_at0 (k : Fin 1024) (n : Fin 3072) (e : Fin 1024) (hn : n.val = e.val) :
    (StableHlo.after hostOps0 (fun b => m (c, b)) (Proc.devRef .tc main_v6) : FVec Ideal S1024x3072 .bf16) (ix2 k n)
      = (m ((c.tc : Thread nD τ).loc main_arg1) : FVec Ideal S1024x1024 .f32) (ix2 e k) :=
  (congrFun (host_v6 m c) (ix2 k n)).trans (wcat_at0 _ _ _ k n e hn)
/-- of its second third, the second weight; -/
theorem v6_at1 (k : Fin 1024) (n : Fin 3072) (e : Fin 1024) (hn : n.val = 1024 + e.val) :
    (StableHlo.after hostOps0 (fun b => m (c, b)) (Proc.devRef .tc main_v6) : FVec Ideal S1024x3072 .bf16) (ix2 k n)
      = (m ((c.tc : Thread nD τ).loc main_arg3) : FVec Ideal S1024x1024 .f32) (ix2 e k) :=
  (congrFun (host_v6 m c) (ix2 k n)).trans (wcat_at1 _ _ _ k n e hn)
/-- of its last third, the third weight. -/
theorem v6_at2 (k : Fin 1024) (n : Fin 3072) (e : Fin 1024) (hn : n.val = 2048 + e.val) :
    (StableHlo.after hostOps0 (fun b => m (c, b)) (Proc.devRef .tc main_v6) : FVec Ideal S1024x3072 .bf16) (ix2 k n)
      = (m ((c.tc : Thread nD τ).loc main_arg5) : FVec Ideal S1024x1024 .f32) (ix2 e k) :=
  (congrFun (host_v6 m c) (ix2 k n)).trans (wcat_at2 _ _ _ k n e hn)

/-- The third operand's one row, likewise: the first bias, -/
theorem v8_at0 (u : Fin 1) (n : Fin 3072) (e : Fin 1024) (hn : n.val = e.val) :
    (StableHlo.after hostOps0 (fun b => m (c, b)) (Proc.devRef .tc main_v8) : FVec Ideal S1x3072 .f32) (ix2 u n)
      = (m ((c.tc : Thread nD τ).loc main_arg2) : FVec Ideal S1024 .f32) (ix1 e) :=
  (congrFun (host_v8 m c) (ix2 u n)).trans ((brow_at _ u n).trans (bcat_at0 _ _ _ n e hn))
/-- the second, -/
theorem v8_at1 (u : Fin 1) (n : Fin 3072) (e : Fin 1024) (hn : n.val = 1024 + e.val) :
    (StableHlo.after hostOps0 (fun b => m (c, b)) (Proc.devRef .tc main_v8) : FVec Ideal S1x3072 .f32) (ix2 u n)
      = (m ((c.tc : Thread nD τ).loc main_arg4) : FVec Ideal S1024 .f32) (ix1 e) :=
  (congrFun (host_v8 m c) (ix2 u n)).trans ((brow_at _ u n).trans (bcat_at1 _ _ _ n e hn))
/-- the third. -/
theorem v8_at2 (u : Fin 1) (n : Fin 3072) (e : Fin 1024) (hn : n.val = 2048 + e.val) :
    (StableHlo.after hostOps0 (fun b => m (c, b)) (Proc.devRef .tc main_v8) : FVec Ideal S1x3072 .f32) (ix2 u n)
      = (m ((c.tc : Thread nD τ).loc main_arg6) : FVec Ideal S1024 .f32) (ix1 e) :=
  (congrFun (host_v8 m c) (ix2 u n)).trans ((brow_at _ u n).trans (bcat_at2 _ _ _ n e hn))

end HostAt

end Cert.KernelIdeal.Val0

end
-- ==== Proof.KI.Val0.lean ====
/-
  The projection launch's three result arrays are Q, K, V. Grid point t = 4·b + s' reads rows 512 s' … 512 s' + 511 of
  batch b of the transposed input, the whole fused weight and the whole fused bias, and writes the three column thirds of
  x · W + bias  into block (b, s', 0) of the three result arrays. Each written block is the block of the specification's
  projection at the same place; the sixteen blocks tile each array (row s of batch b lies in the block of point
  4·b + s / 512); so after the launch each array is the projection, index by index.
-/
import proofs.«427284_j19997367730626_3_alg».proof.Proof.KI.Frame0
import proofs.«427284_j19997367730626_3_alg».proof.Proof.KI.Val0Pay
import proofs.«427284_j19997367730626_3_alg».proof.Proof.KI.Val0Host
import Idealize.ShloMosaic.Lib.Pipeline.Value
import Idealize.ShloMosaic.Lib.ValueIdx

noncomputable section

namespace Cert.KernelIdeal.Val0

open Idealize.ShloMosaic Idealize.ShloMosaic.ValueIdx Cert.KernelIdeal Cert.KernelIdeal.Gen

/-! ### The launch's blocks, read off the arrays it is entered from -/

open Cert.KernelIdeal.Hand

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices, decided over the sixteen points: point t = 4·b + s' reads and writes block (b, s', 0) of the
    input and of each result, and the whole weight and the whole bias. -/
theorem idx_r0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_r1 : ∀ t : Fin cfg0.N, win0_1.index t (0 : Fin 2) = 0 ∧ win0_1.index t (1 : Fin 2) = 0 :=
  (by decide +kernel : ∀ t : Fin grid0.N, _)
theorem idx_r2 : ∀ t : Fin cfg0.N, win0_2.index t (0 : Fin 2) = 0 ∧ win0_2.index t (1 : Fin 2) = 0 :=
  (by decide +kernel : ∀ t : Fin grid0.N, _)
theorem idx_r3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx_r4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem idx_r5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, _)

section Blocks

variable (V : (c : Dev nD) → (b : Ref sig .tc) → Buf (Elt Ideal) ((c.tc : Thread nD τ).loc b)) (c : Dev nD)

/-- The input window's block at point t = 4·b + s' is rows 512 s' … 512 s' + 511 of batch b of the first operand. -/
theorem iblk_x_apply (t : Fin cfg0.N) (y : S1x512x1024.Idx) (i : S4x2048x1024.Idx)
    (h0 : (i 0).val = t.val / 4) (h1 : (i 1).val = 512 * (t.val % 4) + (y 1).val) (h2 : (i 2).val = (y 2).val) :
    (iblk0 (F := Ideal) V c 0 t : Vec Ideal S1x512x1024 .bf16) y = (V c main_v1 : FVec Ideal S4x2048x1024 .bf16) i := by
  obtain ⟨f0, f1, f2⟩ := idx_r0 t
  have hy0 : (y 0).val = 0 := by have : (y 0).val < 1 := (y 0).isLt; omega
  unfold iblk0
  rw [View.read_apply]
  show V c main_v1 _ = V c main_v1 _
  congr 1
  funext a
  apply Fin.ext
  match a with
  | ⟨0, _⟩ => show win0_0.index t 0 * 1 + 1 * (y 0).val = (i 0).val; rw [f0, h0, hy0]; omega
  | ⟨1, _⟩ => show win0_0.index t 1 * 512 + 1 * (y 1).val = (i 1).val; rw [f1, h1]; omega
  | ⟨2, _⟩ => show win0_0.index t 2 * 1024 + 1 * (y 2).val = (i 2).val; rw [f2, h2]; omega

/-- The weight window's block is the whole second operand, at every point. -/
theorem iblk_w_apply (t : Fin cfg0.N) (y : S1024x3072.Idx) :
    (iblk0 (F := Ideal) V c 1 t : Vec Ideal S1024x3072 .bf16) y = (V c main_v6 : FVec Ideal S1024x3072 .bf16) y := by
  obtain ⟨f0, f1⟩ := idx_r1 t
  unfold iblk0
  rw [View.read_apply]
  show V c main_v6 _ = V c main_v6 _
  congr 1
  funext a
  apply Fin.ext
  match a with
  | ⟨0, _⟩ => show win0_1.index t 0 * 1024 + 1 * (y 0).val = (y 0).val; rw [f0]; omega
  | ⟨1, _⟩ => show win0_1.index t 1 * 3072 + 1 * (y 1).val = (y 1).val; rw [f1]; omega

/-- The bias window's block is the whole third operand, at every point. -/
theorem iblk_b_apply (t : Fin cfg0.N) (y : S1x3072.Idx) :
    (iblk0 (F := Ideal) V c 2 t : Vec Ideal S1x3072 .f32) y = (V c main_v8 : FVec Ideal S1x3072 .f32) y := by
  obtain ⟨f0, f1⟩ := idx_r2 t
  unfold iblk0
  rw [View.read_apply]
  show V c main_v8 _ = V c main_v8 _
  congr 1
  funext a
  apply Fin.ext
  match a with
  | ⟨0, _⟩ => show win0_2.index t 0 * 1 + 1 * (y 0).val = (y 0).val; rw [f0]; omega
  | ⟨1, _⟩ => show win0_2.index t 1 * 3072 + 1 * (y 1).val = (y 1).val; rw [f1]; omega

end Blocks

section Arrays

variable (m : (ℓ : Loc nD τ sig) → Buf (Elt Ideal) ℓ) (c : Dev nD)

/-- The contents the launch is entered from: the arguments after the host stretch. -/
abbrev VH : (c : Dev nD) → (b : Ref sig .tc) → Buf (Elt Ideal) ((c.tc : Thread nD τ).loc b) :=
  fun c b => StableHlo.after hostOps0 (fun b => m (c, b)) (Proc.devRef .tc b)

/-! ### Result array 0: the first third -/

/-- What the array ends holding: the projection, index by index. -/
abbrev GQ (xr : Fin 4 → Fin 1024 → Fin 2048 → ℝ) (w : Fin 1024 → Fin 1024 → ℝ) (bias : Fin 1024 → ℝ) : S4x2048x1024.Idx → EReal :=
  fun i => ((Cert.Spec.proj xr w bias (i 0) (i 1) (i 2) : ℝ) : EReal)

/-- What the body leaves in result buffer 0 at point t is block t of the projection. -/
theorem blockQ (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg1) (ix2 e d) = ((w e d : ℝ) : EReal))
    (hB : ∀ e, m ((c.tc : Thread nD τ).loc main_arg2) (ix1 e) = ((bias e : ℝ) : EReal))
    (t : Fin cfg0.N) (y : S1x512x1024.Idx) :
    k0_pay2 (iblk0 (F := Ideal) (VH m) c 0 t) (iblk0 (F := Ideal) (VH m) c 1 t) (iblk0 (F := Ideal) (VH m) c 2 t) y
      = GQ xr w bias (((cfg0.win 3).blk t).view.emb y) := by
  obtain ⟨u, r, e, rfl⟩ : ∃ (u : Fin 1) (r : Fin 512) (e : Fin 1024), y = ix3 u r e := ⟨y 0, y 1, y 2, eq_ix3 y⟩
  have ht : t.val < 16 := lt_of_lt_of_eq t.isLt N_0
  have hr : r.val < 512 := r.isLt
  have he : e.val < 1024 := e.isLt
  have hu : u.val = 0 := by have := u.isLt; omega
  obtain ⟨f0, f1, f2⟩ := idx_r3 t
  refine (pay2_value _ _ _ xr w bias r e ⟨e.val, by omega⟩ rfl ⟨t.val / 4, by omega⟩ ⟨512 * (t.val % 4) + r.val, by omega⟩
    (fun k => ?_) (fun k => ?_) ?_ u).trans ?_
  · exact (iblk_x_apply (VH m) c t (ix3 0 r k) (ix3 ⟨t.val / 4, by omega⟩ ⟨512 * (t.val % 4) + r.val, by omega⟩ k) rfl rfl rfl).trans
      ((v1_at m c _ ⟨t.val / 4, by omega⟩ ⟨512 * (t.val % 4) + r.val, by omega⟩ k rfl rfl rfl).trans (hX _ _ _))
  · exact (iblk_w_apply (VH m) c t (ix2 k ⟨e.val, by omega⟩)).trans ((v6_at0 m c k ⟨e.val, by omega⟩ e rfl).trans (hW e k))
  · exact (iblk_b_apply (VH m) c t (ix2 0 ⟨e.val, by omega⟩)).trans ((v8_at0 m c 0 ⟨e.val, by omega⟩ e rfl).trans (hB e))
  · show ((Cert.Spec.proj xr w bias _ _ _ : ℝ) : EReal) = ((Cert.Spec.proj xr w bias _ _ _ : ℝ) : EReal)
    have g0 : (⟨t.val / 4, by omega⟩ : Fin 4) = ((cfg0.win 3).blk t).view.emb (ix3 u r e) 0 := Fin.ext (by
      show t.val / 4 = win0_3.index t 0 * 1 + 1 * u.val; rw [f0, hu]; omega)
    have g1 : (⟨512 * (t.val % 4) + r.val, by omega⟩ : Fin 2048) = ((cfg0.win 3).blk t).view.emb (ix3 u r e) 1 := Fin.ext (by
      show 512 * (t.val % 4) + r.val = win0_3.index t 1 * 512 + 1 * r.val; rw [f1]; omega)
    have g2 : e = ((cfg0.win 3).blk t).view.emb (ix3 u r e) 2 := Fin.ext (by
      show e.val = win0_3.index t 2 * 1024 + 1 * e.val; rw [f2]; omega)
    rw [← g0, ← g1, ← g2]

/-- So point t writes back block t of the projection. -/
theorem flushedQ (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg1) (ix2 e d) = ((w e d : ℝ) : EReal))
    (hB : ∀ e, m ((c.tc : Thread nD τ).loc main_arg2) (ix1 e) = ((bias e : ℝ) : EReal))
    (t : Fin cfg0.N) :
    (dat0 (F := Ideal) (VH m) c).flushed 3 t = ((cfg0.win 3).blk t).view.read (Elt Ideal) (GQ xr w bias) := by
  show (cfg0.win 3).cut (grid0.coords t) ((dat0 (F := Ideal) (VH m) c).after 3 t) = _
  rw [after0_3]
  unfold out0_3
  rw [View.canon_unit_zero hz3]
  simp only [View.ld_unit_zero (S := S1x512x1024) hz3, View.ld_unit_zero (S := S1024x3072) hz2, View.ld_unit_zero (S := S1x3072) hz2]
  funext y
  exact blockQ m c xr w bias hX hW hB t y

/-- An index of the array is in point t's block iff each coordinate is in the block's range on its axis. -/
theorem mem_blkQ (t : Fin cfg0.N) (i : S4x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v9_0).slice (win0_3.rect t)).set ↔ _
  rw [View.set_slice_whole, Rect.mem_set_unit]
  exact Iff.rfl

/-- Every index of the array is in the block of the point 4·(batch) + (position / 512). -/
theorem coverQ (i : S4x2048x1024.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  obtain ⟨t, htv⟩ : ∃ t : Fin cfg0.N, t.val = 4 * (i 0).val + (i 1).val / 512 :=
    ⟨⟨4 * (i 0).val + (i 1).val / 512, lt_of_lt_of_eq (b := 16) (by omega) N_0.symm⟩, rfl⟩
  obtain ⟨f0, f1, f2⟩ := idx_r3 t
  refine ⟨t, flush0_3 t, ?_⟩
  rw [mem_blkQ]
  intro a
  match a with
  | ⟨0, _⟩ => show win0_3.index t (0 : Fin 3) * 1 ≤ (i 0).val ∧ (i 0).val < win0_3.index t (0 : Fin 3) * 1 + 1; rw [f0]; omega
  | ⟨1, _⟩ => show win0_3.index t (1 : Fin 3) * 512 ≤ (i 1).val ∧ (i 1).val < win0_3.index t (1 : Fin 3) * 512 + 512; rw [f1]; omega
  | ⟨2, _⟩ => show win0_3.index t (2 : Fin 3) * 1024 ≤ (i 2).val ∧ (i 2).val < win0_3.index t (2 : Fin 3) * 1024 + 1024; rw [f2]; omega

/-- The array after the launch is the projection. -/
theorem finalQ (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg1) (ix2 e d) = ((w e d : ℝ) : EReal))
    (hB : ∀ e, m ((c.tc : Thread nD τ).loc main_arg2) (ix1 e) = ((bias e : ℝ) : EReal)) :
    (dat0 (F := Ideal) (VH m) c).arrAt 3 cfg0.N = GQ xr w bias :=
  (dat0 (F := Ideal) (VH m) c).arrAt_eq_of_cover 3 (GQ xr w bias) (fun t _ => flushedQ m c xr w bias hX hW hB t) coverQ

/-! ### Result array 1: the second third -/

/-- What the array ends holding: the projection, index by index. -/
abbrev GK (xr : Fin 4 → Fin 1024 → Fin 2048 → ℝ) (w : Fin 1024 → Fin 1024 → ℝ) (bias : Fin 1024 → ℝ) : S4x2048x1024.Idx → EReal :=
  fun i => ((Cert.Spec.proj xr w bias (i 0) (i 1) (i 2) : ℝ) : EReal)

/-- What the body leaves in result buffer 1 at point t is block t of the projection. -/
theorem blockK (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg3) (ix2 e d) = ((w e d : ℝ) : EReal))
    (hB : ∀ e, m ((c.tc : Thread nD τ).loc main_arg4) (ix1 e) = ((bias e : ℝ) : EReal))
    (t : Fin cfg0.N) (y : S1x512x1024.Idx) :
    k0_pay3 (iblk0 (F := Ideal) (VH m) c 0 t) (iblk0 (F := Ideal) (VH m) c 1 t) (iblk0 (F := Ideal) (VH m) c 2 t) y
      = GK xr w bias (((cfg0.win 4).blk t).view.emb y) := by
  obtain ⟨u, r, e, rfl⟩ : ∃ (u : Fin 1) (r : Fin 512) (e : Fin 1024), y = ix3 u r e := ⟨y 0, y 1, y 2, eq_ix3 y⟩
  have ht : t.val < 16 := lt_of_lt_of_eq t.isLt N_0
  have hr : r.val < 512 := r.isLt
  have he : e.val < 1024 := e.isLt
  have hu : u.val = 0 := by have := u.isLt; omega
  obtain ⟨f0, f1, f2⟩ := idx_r4 t
  refine (pay3_value _ _ _ xr w bias r e ⟨1024 + e.val, by omega⟩ rfl ⟨t.val / 4, by omega⟩ ⟨512 * (t.val % 4) + r.val, by omega⟩
    (fun k => ?_) (fun k => ?_) ?_ u).trans ?_
  · exact (iblk_x_apply (VH m) c t (ix3 0 r k) (ix3 ⟨t.val / 4, by omega⟩ ⟨512 * (t.val % 4) + r.val, by omega⟩ k) rfl rfl rfl).trans
      ((v1_at m c _ ⟨t.val / 4, by omega⟩ ⟨512 * (t.val % 4) + r.val, by omega⟩ k rfl rfl rfl).trans (hX _ _ _))
  · exact (iblk_w_apply (VH m) c t (ix2 k ⟨1024 + e.val, by omega⟩)).trans ((v6_at1 m c k ⟨1024 + e.val, by omega⟩ e rfl).trans (hW e k))
  · exact (iblk_b_apply (VH m) c t (ix2 0 ⟨1024 + e.val, by omega⟩)).trans ((v8_at1 m c 0 ⟨1024 + e.val, by omega⟩ e rfl).trans (hB e))
  · show ((Cert.Spec.proj xr w bias _ _ _ : ℝ) : EReal) = ((Cert.Spec.proj xr w bias _ _ _ : ℝ) : EReal)
    have g0 : (⟨t.val / 4, by omega⟩ : Fin 4) = ((cfg0.win 4).blk t).view.emb (ix3 u r e) 0 := Fin.ext (by
      show t.val / 4 = win0_4.index t 0 * 1 + 1 * u.val; rw [f0, hu]; omega)
    have g1 : (⟨512 * (t.val % 4) + r.val, by omega⟩ : Fin 2048) = ((cfg0.win 4).blk t).view.emb (ix3 u r e) 1 := Fin.ext (by
      show 512 * (t.val % 4) + r.val = win0_4.index t 1 * 512 + 1 * r.val; rw [f1]; omega)
    have g2 : e = ((cfg0.win 4).blk t).view.emb (ix3 u r e) 2 := Fin.ext (by
      show e.val = win0_4.index t 2 * 1024 + 1 * e.val; rw [f2]; omega)
    rw [← g0, ← g1, ← g2]

/-- So point t writes back block t of the projection. -/
theorem flushedK (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg3) (ix2 e d) = ((w e d : ℝ) : EReal))
    (hB : ∀ e, m ((c.tc : Thread nD τ).loc main_arg4) (ix1 e) = ((bias e : ℝ) : EReal))
    (t : Fin cfg0.N) :
    (dat0 (F := Ideal) (VH m) c).flushed 4 t = ((cfg0.win 4).blk t).view.read (Elt Ideal) (GK xr w bias) := by
  show (cfg0.win 4).cut (grid0.coords t) ((dat0 (F := Ideal) (VH m) c).after 4 t) = _
  rw [after0_4]
  unfold out0_4
  rw [View.canon_unit_zero hz3]
  simp only [View.ld_unit_zero (S := S1x512x1024) hz3, View.ld_unit_zero (S := S1024x3072) hz2, View.ld_unit_zero (S := S1x3072) hz2]
  funext y
  exact blockK m c xr w bias hX hW hB t y

/-- An index of the array is in point t's block iff each coordinate is in the block's range on its axis. -/
theorem mem_blkK (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v9_1).slice (win0_4.rect t)).set ↔ _
  rw [View.set_slice_whole, Rect.mem_set_unit]
  exact Iff.rfl

/-- Every index of the array is in the block of the point 4·(batch) + (position / 512). -/
theorem coverK (i : S4x2048x1024.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 1024 := (i 2).isLt
  obtain ⟨t, htv⟩ : ∃ t : Fin cfg0.N, t.val = 4 * (i 0).val + (i 1).val / 512 :=
    ⟨⟨4 * (i 0).val + (i 1).val / 512, lt_of_lt_of_eq (b := 16) (by omega) N_0.symm⟩, rfl⟩
  obtain ⟨f0, f1, f2⟩ := idx_r4 t
  refine ⟨t, flush0_4 t, ?_⟩
  rw [mem_blkK]
  intro a
  match a with
  | ⟨0, _⟩ => show win0_4.index t (0 : Fin 3) * 1 ≤ (i 0).val ∧ (i 0).val < win0_4.index t (0 : Fin 3) * 1 + 1; rw [f0]; omega
  | ⟨1, _⟩ => show win0_4.index t (1 : Fin 3) * 512 ≤ (i 1).val ∧ (i 1).val < win0_4.index t (1 : Fin 3) * 512 + 512; rw [f1]; omega
  | ⟨2, _⟩ => show win0_4.index t (2 : Fin 3) * 1024 ≤ (i 2).val ∧ (i 2).val < win0_4.index t (2 : Fin 3) * 1024 + 1024; rw [f2]; omega

/-- The array after the launch is the projection. -/
theorem finalK (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg3) (ix2 e d) = ((w e d : ℝ) : EReal))
    (hB : ∀ e, m ((c.tc : Thread nD τ).loc main_arg4) (ix1 e) = ((bias e : ℝ) : EReal)) :
    (dat0 (F := Ideal) (VH m) c).arrAt 4 cfg0.N = GK xr w bias :=
  (dat0 (F := Ideal) (VH m) c).arrAt_eq_of_cover 4 (GK xr w bias) (fun t _ => flushedK m c xr w bias hX hW hB t) coverK

/-! ### Result array 2: the third third -/

/-- What the array ends holding: the projection, index by index. -/
abbrev GV (xr : Fin 4 → Fin 1024 → Fin 2048 → ℝ) (w : Fin 1024 → Fin 1024 → ℝ) (bias : Fin 1024 → ℝ) : S4x2048x1024.Idx → EReal :=
  fun i => ((Cert.Spec.proj xr w bias (i 0) (i 1) (i 2) : ℝ) : EReal)

/-- What the body leaves in result buffer 2 at point t is block t of the projection. -/
theorem blockV (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg5) (ix2 e d) = ((w e d : ℝ) : EReal))
    (hB : ∀ e, m ((c.tc : Thread nD τ).loc main_arg6) (ix1 e) = ((bias e : ℝ) : EReal))
    (t : Fin cfg0.N) (y : S1x512x1024.Idx) :
    k0_pay4 (iblk0 (F := Ideal) (VH m) c 0 t) (iblk0 (F := Ideal) (VH m) c 1 t) (iblk0 (F := Ideal) (VH m) c 2 t) y
      = GV xr w bias (((cfg0.win 5).blk t).view.emb y) := by
  obtain ⟨u, r, e, rfl⟩ : ∃ (u : Fin 1) (r : Fin 512) (e : Fin 1024), y = ix3 u r e := ⟨y 0, y 1, y 2, eq_ix3 y⟩
  have ht : t.val < 16 := lt_of_lt_of_eq t.isLt N_0
  have hr : r.val < 512 := r.isLt
  have he : e.val < 1024 := e.isLt
  have hu : u.val = 0 := by have := u.isLt; omega
  obtain ⟨f0, f1, f2⟩ := idx_r5 t
  refine (pay4_value _ _ _ xr w bias r e ⟨2048 + e.val, by omega⟩ rfl ⟨t.val / 4, by omega⟩ ⟨512 * (t.val % 4) + r.val, by omega⟩
    (fun k => ?_) (fun k => ?_) ?_ u).trans ?_
  · exact (iblk_x_apply (VH m) c t (ix3 0 r k) (ix3 ⟨t.val / 4, by omega⟩ ⟨512 * (t.val % 4) + r.val, by omega⟩ k) rfl rfl rfl).trans
      ((v1_at m c _ ⟨t.val / 4, by omega⟩ ⟨512 * (t.val % 4) + r.val, by omega⟩ k rfl rfl rfl).trans (hX _ _ _))
  · exact (iblk_w_apply (VH m) c t (ix2 k ⟨2048 + e.val, by omega⟩)).trans ((v6_at2 m c k ⟨2048 + e.val, by omega⟩ e rfl).trans (hW e k))
  · exact (iblk_b_apply (VH m) c t (ix2 0 ⟨2048 + e.val, by omega⟩)).trans ((v8_at2 m c 0 ⟨2048 + e.val, by omega⟩ e rfl).trans (hB e))
  · show ((Cert.Spec.proj xr w bias _ _ _ : ℝ) : EReal) = ((Cert.Spec.proj xr w bias _ _ _ : ℝ) : EReal)
    have g0 : (⟨t.val / 4, by omega⟩ : Fin 4) = ((cfg0.win 5).blk t).view.emb (ix3 u r e) 0 := Fin.ext (by
      show t.val / 4 = win0_5.index t 0 * 1 + 1 * u.val; rw [f0, hu]; omega)
    have g1 : (⟨512 * (t.val % 4) + r.val, by omega⟩ : Fin 2048) = ((cfg0.win 5).blk t).view.emb (ix3 u r e) 1 := Fin.ext (by
      show 512 * (t.val % 4) + r.val = win0_5.index t 1 * 512 + 1 * r.val; rw [f1]; omega)
    have g2 : e = ((cfg0.win 5).blk t).view.emb (ix3 u r e) 2 := Fin.ext (by
      show e.val = win0_5.index t 2 * 1024 + 1 * e.val; rw [f2]; omega)
    rw [← g0, ← g1, ← g2]

/-- So point t writes back block t of the projection. -/
theorem flushedV (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg5) (ix2 e d) = ((w e d : ℝ) : EReal))
    (hB : ∀ e, m ((c.tc : Thread nD τ).loc main_arg6) (ix1 e) = ((bias e : ℝ) : EReal))
    (t : Fin cfg0.N) :
    (dat0 (F := Ideal) (VH m) c).flushed 5 t = ((cfg0.win 5).blk t).view.read (Elt Ideal) (GV xr w bias) := by
  show (cfg0.win 5).cut (grid0.coords t) ((dat0 (F := Ideal) (VH m) c).after 5 t) = _
  rw [after0_5]
  unfold out0_5
  rw [View.canon_unit_zero hz3]
  simp only [View.ld_unit_zero (S := S1x512x1024) hz3, View.ld_unit_zero (S := S1024x3072) hz2, View.ld_unit_zero (S := S1x3072) hz2]
  funext y
  exact blockV m c xr w bias hX hW hB t y

/-- An index of the array is in point t's block iff each coordinate is in the block's range on its axis. -/
theorem mem_blkV (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v9_2).slice (win0_5.rect t)).set ↔ _
  rw [View.set_slice_whole, Rect.mem_set_unit]
  exact Iff.rfl

/-- Every index of the array is in the block of the point 4·(batch) + (position / 512). -/
theorem coverV (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  obtain ⟨t, htv⟩ : ∃ t : Fin cfg0.N, t.val = 4 * (i 0).val + (i 1).val / 512 :=
    ⟨⟨4 * (i 0).val + (i 1).val / 512, lt_of_lt_of_eq (b := 16) (by omega) N_0.symm⟩, rfl⟩
  obtain ⟨f0, f1, f2⟩ := idx_r5 t
  refine ⟨t, flush0_5 t, ?_⟩
  rw [mem_blkV]
  intro a
  match a with
  | ⟨0, _⟩ => show win0_5.index t (0 : Fin 3) * 1 ≤ (i 0).val ∧ (i 0).val < win0_5.index t (0 : Fin 3) * 1 + 1; rw [f0]; omega
  | ⟨1, _⟩ => show win0_5.index t (1 : Fin 3) * 512 ≤ (i 1).val ∧ (i 1).val < win0_5.index t (1 : Fin 3) * 512 + 512; rw [f1]; omega
  | ⟨2, _⟩ => show win0_5.index t (2 : Fin 3) * 1024 ≤ (i 2).val ∧ (i 2).val < win0_5.index t (2 : Fin 3) * 1024 + 1024; rw [f2]; omega

/-- The array after the launch is the projection. -/
theorem finalV (xr : Fin 4 → Fin 1024 → Fin 2048 → ℝ) (w : Fin 1024 → Fin 1024 → ℝ) (bias : Fin 1024 → ℝ)
    (hX : ∀ b d s, m ((c.tc : Thread nD τ).loc main_arg0) (ix3 b d s) = ((xr b d s : ℝ) : EReal))
    (hW : ∀ e d, m ((c.tc : Thread nD τ).loc main_arg5) (ix2 e d) = ((w e d : ℝ) : EReal))
    (hB : ∀ e, m ((c.tc : Thread nD τ).loc main_arg6) (ix1 e) = ((bias e : ℝ) : EReal)) :
    (dat0 (F := Ideal) (VH m) c).arrAt 5 cfg0.N = GV xr w bias :=
  (dat0 (F := Ideal) (VH m) c).arrAt_eq_of_cover 5 (GV xr w bias) (fun t _ => flushedV m c xr w bias hX hW hB t) coverV

end Arrays

/-! ### The three result arrays after the launch -/

section Results

open Cert.KernelIdeal.Hand

/-- The first result array is the query projection. -/
theorem arrQ (m : (ℓ : Loc nD τ sig) → Buf (Elt Ideal) ℓ) (c : Dev nD)
    (xr : Fin 4 → Fin 1024 → Fin 2048 → ℝ) (wq : Fin 1024 → Fin 1024 → ℝ) (bq : Fin 1024 → ℝ)
    (hX : ∀ b d s, m ((c.tc : Thread nD τ).loc main_arg0) (ix3 b d s) = ((xr b d s : ℝ) : EReal))
    (hW : ∀ e d, m ((c.tc : Thread nD τ).loc main_arg1) (ix2 e d) = ((wq e d : ℝ) : EReal))
    (hB : ∀ e, m ((c.tc : Thread nD τ).loc main_arg2) (ix1 e) = ((bq e : ℝ) : EReal))
    (b : Fin 4) (s : Fin 2048) (e : Fin 1024) :
    (dat0 (F := Ideal) (fun c b => StableHlo.after hostOps0 (fun b => m (c, b)) (Proc.devRef .tc b)) c).arrAt 3 cfg0.N (ix3 b s e)
      = ((Cert.Spec.proj xr wq bq b s e : ℝ) : EReal) :=
  congrFun (finalQ m c xr wq bq hX hW hB) (ix3 b s e)

/-- The second result array is the key projection. -/
theorem arrK (m : (ℓ : Loc nD τ sig) → Buf (Elt Ideal) ℓ) (c : Dev nD)
    (xr : Fin 4 → Fin 1024 → Fin 2048 → ℝ) (wk : Fin 1024 → Fin 1024 → ℝ) (bk : Fin 1024 → ℝ)
    (hX : ∀ b d s, m ((c.tc : Thread nD τ).loc main_arg0) (ix3 b d s) = ((xr b d s : ℝ) : EReal))
    (hW : ∀ e d, m ((c.tc : Thread nD τ).loc main_arg3) (ix2 e d) = ((wk e d : ℝ) : EReal))
    (hB : ∀ e, m ((c.tc : Thread nD τ).loc main_arg4) (ix1 e) = ((bk e : ℝ) : EReal))
    (b : Fin 4) (s : Fin 2048) (e : Fin 1024) :
    (dat0 (F := Ideal) (fun c b => StableHlo.after hostOps0 (fun b => m (c, b)) (Proc.devRef .tc b)) c).arrAt 4 cfg0.N (ix3 b s e)
      = ((Cert.Spec.proj xr wk bk b s e : ℝ) : EReal) :=
  congrFun (finalK m c xr wk bk hX hW hB) (ix3 b s e)

/-- The third result array is the value projection. -/
theorem arrV (m : (ℓ : Loc nD τ sig) → Buf (Elt Ideal) ℓ) (c : Dev nD)
    (xr : Fin 4 → Fin 1024 → Fin 2048 → ℝ) (wv : Fin 1024 → Fin 1024 → ℝ) (bv : Fin 1024 → ℝ)
    (hX : ∀ b d s, m ((c.tc : Thread nD τ).loc main_arg0) (ix3 b d s) = ((xr b d s : ℝ) : EReal))
    (hW : ∀ e d, m ((c.tc : Thread nD τ).loc main_arg5) (ix2 e d) = ((wv e d : ℝ) : EReal))
    (hB : ∀ e, m ((c.tc : Thread nD τ).loc main_arg6) (ix1 e) = ((bv e : ℝ) : EReal))
    (b : Fin 4) (s : Fin 2048) (e : Fin 1024) :
    (dat0 (F := Ideal) (fun c b => StableHlo.after hostOps0 (fun b => m (c, b)) (Proc.devRef .tc b)) c).arrAt 5 cfg0.N (ix3 b s e)
      = ((Cert.Spec.proj xr wv bv b s e : ℝ) : EReal) :=
  congrFun (finalV m c xr wv bv hX hW hB) (ix3 b s e)

end Results

end Cert.KernelIdeal.Val0

end
-- ==== Proof.KI.Pieces1.lean ====
/-
  What each control case of the attention body leaves in the scratch buffers and in the result buffer, read back
  as the body's named pure values of the point's input blocks and of the scratch contents handed in: the first
  key tile leaves (block maximum, row sums of the shifted exponentials, their product with V); a later tile leaves
  (the larger of old and block maximum, the rescaled old normaliser plus the new row sums, the rescaled old weighted
  sum plus the new product); the last tile also leaves the quotient of the two in the result buffer.
-/
import proofs.«427284_j19997367730626_3_alg».proof.Proof.KI.Frame1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Pieces
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A whole scratch buffer handed in at contents `x` reads `x`. -/
theorem rdS0 (x : Vec F S1024x1 .f32) : View.read (Elt F) (View.whole cc1_scratch0) ((Memref.isWhole_whole cc1_scratch0).unread x) = x :=
  Memref.IsWhole.read_unread _ x
theorem rdS1 (x : Vec F S1024x1 .f32) : View.read (Elt F) (View.whole cc1_scratch1) ((Memref.isWhole_whole cc1_scratch1).unread x) = x :=
  Memref.IsWhole.read_unread _ x
theorem rdS2 (x : Vec F S1024x1024 .f32) : View.read (Elt F) (View.whole cc1_scratch2) ((Memref.isWhole_whole cc1_scratch2).unread x) = x :=
  Memref.IsWhole.read_unread _ x

set_option maxHeartbeats 4000000 in
theorem stA_m (c : Dev nD) (t : Fin cfg1.N) (h0 : t.val % 4 = 0) :
    (stA V c t h0).2.1 = k1_pay7 (iblk1 V c 0 t) (iblk1 V c 1 t) := by
  unfold stA rd0; dsimp only
  rw [View.read_writes_eq_canon _ _ _ (scoverA_0 V c t h0)]
  unfold runA kernelRun1_A; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stA_l (c : Dev nD) (t : Fin cfg1.N) (h0 : t.val % 4 = 0) :
    (stA V c t h0).2.2.1 = k1_pay5 (iblk1 V c 0 t) (iblk1 V c 1 t) := by
  unfold stA rd1; dsimp only
  rw [View.read_writes_eq_canon _ _ _ (scoverA_1 V c t h0)]
  unfold runA kernelRun1_A; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stA_acc (c : Dev nD) (t : Fin cfg1.N) (h0 : t.val % 4 = 0) :
    (stA V c t h0).2.2.2 = k1_pay6 (iblk1 V c 0 t) (iblk1 V c 1 t) (iblk1 V c 2 t) := by
  unfold stA rd2; dsimp only
  rw [View.read_writes_eq_canon _ _ _ (scoverA_2 V c t h0)]
  unfold runA kernelRun1_A; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stB_m (c : Dev nD) (t : Fin cfg1.N) (h0 : ¬t.val % 4 = 0) (h3 : ¬t.val % 4 = 3) (p : St F) :
    (stB V c t h0 h3 p).2.1 = k1_pay13 (iblk1 V c 0 t) (iblk1 V c 1 t) p.2.1 := by
  unfold stB rd0; dsimp only
  rw [View.read_writes_eq_canon _ _ _ (scoverB_0 V c t h0 h3 _ _ _)]
  unfold runB kernelRun1_B; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stB_l (c : Dev nD) (t : Fin cfg1.N) (h0 : ¬t.val % 4 = 0) (h3 : ¬t.val % 4 = 3) (p : St F) :
    (stB V c t h0 h3 p).2.2.1 = k1_pay11 (iblk1 V c 0 t) (iblk1 V c 1 t) p.2.1 p.2.1 p.2.2.1 := by
  unfold stB rd1; dsimp only
  rw [View.read_writes_eq_canon _ _ _ (scoverB_1 V c t h0 h3 _ _ _)]
  unfold runB kernelRun1_B; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stB_acc (c : Dev nD) (t : Fin cfg1.N) (h0 : ¬t.val % 4 = 0) (h3 : ¬t.val % 4 = 3) (p : St F) :
    (stB V c t h0 h3 p).2.2.2 = k1_pay12 (iblk1 V c 0 t) (iblk1 V c 1 t) (iblk1 V c 2 t) p.2.1 p.2.1 p.2.2.2 := by
  unfold stB rd2; dsimp only
  rw [View.read_writes_eq_canon _ _ _ (scoverB_2 V c t h0 h3 _ _ _)]
  unfold runB kernelRun1_B; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stC_m (c : Dev nD) (t : Fin cfg1.N) (h3 : t.val % 4 = 3) (p : St F) :
    (stC V c t h3 p).2.1 = k1_pay13 (iblk1 V c 0 t) (iblk1 V c 1 t) p.2.1 := by
  unfold stC rd0; dsimp only
  rw [View.read_writes_eq_canon _ _ _ (scoverC_0 V c t h3 _ _ _)]
  unfold runC kernelRun1_C; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stC_l (c : Dev nD) (t : Fin cfg1.N) (h3 : t.val % 4 = 3) (p : St F) :
    (stC V c t h3 p).2.2.1 = k1_pay11 (iblk1 V c 0 t) (iblk1 V c 1 t) p.2.1 p.2.1 p.2.2.1 := by
  unfold stC rd1; dsimp only
  rw [View.read_writes_eq_canon _ _ _ (scoverC_1 V c t h3 _ _ _)]
  unfold runC kernelRun1_C; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stC_acc (c : Dev nD) (t : Fin cfg1.N) (h3 : t.val % 4 = 3) (p : St F) :
    (stC V c t h3 p).2.2.2 = k1_pay12 (iblk1 V c 0 t) (iblk1 V c 1 t) (iblk1 V c 2 t) p.2.1 p.2.1 p.2.2.2 := by
  unfold stC rd2; dsimp only
  rw [View.read_writes_eq_canon _ _ _ (scoverC_2 V c t h3 _ _ _)]
  unfold runC kernelRun1_C; dsimp only
  sl_unfold_words
  first
    | rw [View.canon_unit_zero hz2]
    | rw [View.canon_cons_unit_zero hz2]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

set_option maxHeartbeats 4000000 in
theorem stC_out (c : Dev nD) (t : Fin cfg1.N) (h3 : t.val % 4 = 3) (p : St F) :
    (stC V c t h3 p).1 = k1_pay14 (k1_pay12 (iblk1 V c 0 t) (iblk1 V c 1 t) (iblk1 V c 2 t) p.2.1 p.2.1 p.2.2.2) (k1_pay11 (iblk1 V c 0 t) (iblk1 V c 1 t) p.2.1 p.2.1 p.2.2.1) := by
  unfold stC rdO; dsimp only
  rw [View.read_writes_eq_canon _ _ _ (coverC_3 V c t h3 _ _ _)]
  unfold runC kernelRun1_C; dsimp only
  sl_unfold_words
  first
    | rw [View.canon_unit_zero hz3]
    | rw [View.canon_cons_unit_zero hz3]
  simp only [View.readAt_eq_ld, (hs1_0 t).read_unread, (hs1_1 t).read_unread, (hs1_2 t).read_unread, (hs1_3 t).read_unread,
    Memref.IsWhole.read_unread, rdS0, rdS1, rdS2, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2, View.ld_unit_zero (S := S1024x1024) hz2]

end Pieces

end Cert.KernelIdeal.Hand

end
-- ==== Proof.KI.Pay1.lean ====
/-
  The attention body's pure values over the reals. At one grid point the body loads 1024 query rows and 512 key and value
  rows (1024 features each). Its scores are `sc r j = (Σ_e q r e · k j e) / 32`; over real blocks every pure value is a coerced
  real, the normaliser and weighted sum being `Σ_j exp (sc r j − μ r)` and `Σ_j exp (sc r j − μ r) · v j e` at the row shift
  `μ r` (first key tile), or the carried ones rescaled by `exp (μ_old r − μ r)` plus those sums (later tiles); the last tile
  divides the weighted sum by the normaliser.
-/
import proofs.«427284_j19997367730626_3_alg».proof.Proof.Gen.KernelIdeal.Skeleton
import proofs.«427284_j19997367730626_3_alg».proof.Proof.Softmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Idealize.ShloMosaic ValueIdx

/-- The block score of query row `r` against key row `j`: the scaled inner product. -/
def sc (qr : Fin 1024 → Fin 1024 → ℝ) (kr : Fin 512 → Fin 1024 → ℝ) (r : Fin 1024) (j : Fin 512) : ℝ :=
  (∑ e : Fin 1024, qr r e * kr j e) / 32

/-! ### Constants -/

/-- The pattern `0x3D000000` denotes `1/32`. -/
theorem scale_bits : Ideal.ofBits .f32 0x3D000000#32 = ((1 / 32 : ℝ) : EReal) := by
  simp [Ideal.ofBits, Ideal.ieee]
  norm_num
  rw [← EReal.coe_mul]
  exact congrArg _ (by norm_num)

/-- The pattern `0xFF800000` denotes `−∞`. -/
theorem neg_inf_bits : Ideal.ofBits .f32 0xFF800000#32 = (⊥ : EReal) := by
  simp [Ideal.ofBits, Ideal.ieee]

/-! ### Layout operations not in the library: a trailing unit axis -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential at an index is the exponential of the element. -/
theorem exp_apply {s : Shape} (a : FVec Ideal s .f32) (i : s.Idx) : exp a i = Ideal.exp (a i) := rfl

/-! ### The two products read at an index -/

theorem lhsQK_0 (i : S1024x512.Idx) (c : dot_S1024x1024_S1024x512_S1024x512_1_0_0_1_n_n.contr.Idx) :
    (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhsQK_1 (i : S1024x512.Idx) (c : dot_S1024x1024_S1024x512_S1024x512_1_0_0_1_n_n.contr.Idx) :
    (dot_S1024x1024_S1024x512_S1024x512_1_0_0_1_n_n.lhsIdx i c 1).val = (c ⟨0, by decide⟩).val :=
  dot_S1024x1024_S1024x512_S1024x512_1_0_0_1_n_n.lhsIdx_val_of_single rfl i c
theorem rhsQK_0 (i : S1024x512.Idx) (c : dot_S1024x1024_S1024x512_S1024x512_1_0_0_1_n_n.contr.Idx) :
    (dot_S1024x1024_S1024x512_S1024x512_1_0_0_1_n_n.rhsIdx i c 0).val = (c ⟨0, by decide⟩).val :=
  dot_S1024x1024_S1024x512_S1024x512_1_0_0_1_n_n.rhsIdx_val_of_single rfl i c
theorem rhsQK_1 (i : S1024x512.Idx) (c : dot_S1024x1024_S1024x512_S1024x512_1_0_0_1_n_n.contr.Idx) :
    (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a `[1024, 1024]` array with a `[1024, 512]` array into a zero accumulator, at `(r, j)`: the sum over
    the 1024 contracted coordinates. -/
theorem matmulQK_apply (A : FVec Ideal S1024x1024 .bf16) (B : FVec Ideal S1024x512 .bf16) (r : Fin 1024) (j : Fin 512) :
    matmul dot_S1024x1024_S1024x512_S1024x512_1_0_0_1_n_n none A B (constant (F := Ideal) S1024x512 .f32 0x00000000#32) (ix2 r j)
      = ∑ e : Fin 1024, A (ix2 r e) * B (ix2 e j) := by
  simp only [matmul]
  rw [Ideal.matmul_constant_zero_apply, ← Equiv.sum_comp (contrEquiv1 dot_S1024x1024_S1024x512_S1024x512_1_0_0_1_n_n 1024 rfl rfl).symm]
  refine Finset.sum_congr rfl fun e _ => ?_
  have hk := contrEquiv1_symm_val dot_S1024x1024_S1024x512_S1024x512_1_0_0_1_n_n 1024 rfl rfl e
  have el : dot_S1024x1024_S1024x512_S1024x512_1_0_0_1_n_n.lhsIdx (ix2 r j) ((contrEquiv1 dot_S1024x1024_S1024x512_S1024x512_1_0_0_1_n_n 1024 rfl rfl).symm e) = ix2 r e := funext fun a => Fin.ext (by
    match a with
    | ⟨0, _⟩ => exact lhsQK_0 _ _
    | ⟨1, _⟩ => exact (lhsQK_1 _ _).trans hk)
  have er : dot_S1024x1024_S1024x512_S1024x512_1_0_0_1_n_n.rhsIdx (ix2 r j) ((contrEquiv1 dot_S1024x1024_S1024x512_S1024x512_1_0_0_1_n_n 1024 rfl rfl).symm e) = ix2 e j := funext fun a => Fin.ext (by
    match a with
    | ⟨0, _⟩ => exact (rhsQK_0 _ _).trans hk
    | ⟨1, _⟩ => exact rhsQK_1 _ _)
  rw [el, er]

theorem lhsPV_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsPV_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhsPV_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhsPV_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a `[1024, 512]` array with a `[512, 1024]` array into a zero accumulator, at `(r, e)`: the sum over
    the 512 contracted coordinates. -/
theorem matmulPV_apply (A : FVec Ideal S1024x512 .bf16) (B : FVec Ideal S512x1024 .bf16) (r e : Fin 1024) :
    matmul dot_S1024x512_S512x1024_S1024x1024_1_0_0_1_n_n none A B (constant (F := Ideal) S1024x1024 .f32 0x00000000#32) (ix2 r e)
      = ∑ j : Fin 512, A (ix2 r j) * B (ix2 j e) := by
  simp only [matmul]
  rw [Ideal.matmul_constant_zero_apply, ← Equiv.sum_comp (contrEquiv1 dot_S1024x512_S512x1024_S1024x1024_1_0_0_1_n_n 512 rfl rfl).symm]
  refine Finset.sum_congr rfl fun j _ => ?_
  have hk := contrEquiv1_symm_val dot_S1024x512_S512x1024_S1024x1024_1_0_0_1_n_n 512 rfl rfl j
  have el : dot_S1024x512_S512x1024_S1024x1024_1_0_0_1_n_n.lhsIdx (ix2 r e) ((contrEquiv1 dot_S1024x512_S512x1024_S1024x1024_1_0_0_1_n_n 512 rfl rfl).symm j) = ix2 r j := funext fun a => Fin.ext (by
    match a with
    | ⟨0, _⟩ => exact lhsPV_0 _ _
    | ⟨1, _⟩ => exact (lhsPV_1 _ _).trans hk)
  have er : dot_S1024x512_S512x1024_S1024x1024_1_0_0_1_n_n.rhsIdx (ix2 r e) ((contrEquiv1 dot_S1024x512_S512x1024_S1024x1024_1_0_0_1_n_n 512 rfl rfl).symm j) = ix2 j e := funext fun a => Fin.ext (by
    match a with
    | ⟨0, _⟩ => exact (rhsPV_0 _ _).trans hk
    | ⟨1, _⟩ => exact rhsPV_1 _ _)
  rw [el, er]

/-! ### The scores -/

/-- The scaled scores at `(r, j)`: the inner product of query row `r` and key row `j`, times the scale. -/
theorem pay2_apply (q : Vec Ideal S1x1024x1024 .bf16) (k : Vec Ideal S1x512x1024 .bf16) (r : Fin 1024) (j : Fin 512) :
    k1_pay2 (F := Ideal) q k (ix2 r j)
      = (∑ e : Fin 1024, q (ix3 (0 : Fin 1) r e) * k (ix3 (0 : Fin 1) j e)) * Ideal.ofBits .f32 0x3D000000#32 := by
  unfold k1_pay2
  dsimp only
  rw [mulf_apply, broadcast_apply, matmulQK_apply]
  refine congrArg₂ (· * ·) (Finset.sum_congr rfl fun e _ => ?_) rfl
  rw [shapeCast_1ab_ab_apply, transpose_ix2_apply, shapeCast_1ab_ab_apply]

/-- Over real blocks the scaled score at `(r, j)` is the coerced block score. -/
theorem pay2_coe (q : Vec Ideal S1x1024x1024 .bf16) (k : Vec Ideal S1x512x1024 .bf16)
    (qr : Fin 1024 → Fin 1024 → ℝ) (kr : Fin 512 → Fin 1024 → ℝ)
    (hq : ∀ r e, q (ix3 (0 : Fin 1) r e) = ((qr r e : ℝ) : EReal)) (hk : ∀ j e, k (ix3 (0 : Fin 1) j e) = ((kr j e : ℝ) : EReal))
    (r : Fin 1024) (j : Fin 512) :
    k1_pay2 (F := Ideal) q k (ix2 r j) = ((sc qr kr r j : ℝ) : EReal) := by
  rw [pay2_apply, scale_bits]
  have hs : (∑ e : Fin 1024, q (ix3 (0 : Fin 1) r e) * k (ix3 (0 : Fin 1) j e)) = ((∑ e : Fin 1024, qr r e * kr j e : ℝ) : EReal) := by
    rw [← Cert.Softmax.coe_sum]
    exact Finset.sum_congr rfl fun e _ => by rw [hq, hk, Cert.Softmax.coe_mul]
  rw [hs, Cert.Softmax.coe_mul]
  exact congrArg _ (by unfold sc; ring)

/-! ### A row's sum and a row's maximum -/

/-- The index a reduction over the columns inserts at row `r`, column `j`. -/
theorem lift_row (h : S1024x512.Reduces [1] S1024) (r : Fin 1024) (j : Fin 512) : h.lift (ix1 r) j = ix2 r j :=
  funext fun a => Fin.ext (by
    match a with
    | ⟨0, _⟩ => rfl
    | ⟨1, _⟩ => rfl)

/-- The sum over the 512 columns, at row `r`. -/
theorem rowsum_apply (src : FVec Ideal S1024x512 .f32) (h : S1024x512.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ j : Fin 512, src (ix2 r j) := by
  refine (Ideal.multiReduction_add_single src 0x00000000#32 h hφ hacc (ix1 r)).trans ?_
  exact Finset.sum_congr rfl fun j _ => congrArg src (lift_row h r j)

/-- The maximum over the 512 columns, at row `r`: the fold of `max` from `−∞`. -/
theorem rowmax_apply (src : FVec Ideal S1024x512 .f32) (h : S1024x512.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 512)).fold max (⊥ : EReal) (fun j => src (ix2 r j)) := by
  refine (Ideal.multiReduction_maximumf_single src 0xFF800000#32 h hφ hacc (ix1 r)).trans ?_
  show (Finset.univ : Finset (Fin 512)).fold max (Ideal.ofBits .f32 0xFF800000#32) (fun j => src (h.lift (ix1 r) j)) = _
  rw [neg_inf_bits]
  congr 1
  funext j
  exact congrArg src (lift_row h r j)

/-- The block maximum of row `r`: the fold of `max` from `−∞` over the row's scores. -/
theorem pay3_apply (q : Vec Ideal S1x1024x1024 .bf16) (k : Vec Ideal S1x512x1024 .bf16) (r : Fin 1024) (u : Fin 1) :
    k1_pay3 (F := Ideal) q k (ix2 r u)
      = (Finset.univ : Finset (Fin 512)).fold max (⊥ : EReal) (fun j => k1_pay2 (F := Ideal) q k (ix2 r j)) := by
  unfold k1_pay3
  dsimp only
  refine (shapeCast_a_a1_apply _ _ r u).trans ?_
  exact rowmax_apply _ _ _ _ r

section Real
variable (q : Vec Ideal S1x1024x1024 .bf16) (k v : Vec Ideal S1x512x1024 .bf16)
  (qr : Fin 1024 → Fin 1024 → ℝ) (kr vr : Fin 512 → Fin 1024 → ℝ)
  (hq : ∀ r e, q (ix3 (0 : Fin 1) r e) = ((qr r e : ℝ) : EReal))
  (hk : ∀ j e, k (ix3 (0 : Fin 1) j e) = ((kr j e : ℝ) : EReal))
  (hv : ∀ j e, v (ix3 (0 : Fin 1) j e) = ((vr j e : ℝ) : EReal))
include hq hk

/-- Over real blocks the block maximum of a row is a coerced real. -/
theorem pay3_coe (r : Fin 1024) : ∃ m : ℝ, k1_pay3 (F := Ideal) q k (ix2 r (0 : Fin 1)) = ((m : ℝ) : EReal) := by
  obtain ⟨m, hm, -⟩ := Cert.Softmax.fold_max_coe (Finset.univ : Finset (Fin 512)) Finset.univ_nonempty (fun j => sc qr kr r j)
  refine ⟨m, ?_⟩
  rw [pay3_apply, ← hm]
  congr 1
  funext j
  exact pay2_coe q k qr kr hq hk r j

end Real

/-! ### The first key tile -/

/-- The value block reshaped to `[512, 1024]` reads the loaded block at `(0, j, e)`. -/
theorem pay1_apply (v : Vec Ideal S1x512x1024 .bf16) (j : Fin 512) (e : Fin 1024) :
    k1_pay1 (F := Ideal) v (ix2 j e) = v (ix3 (0 : Fin 1) j e) := by
  unfold k1_pay1
  exact shapeCast_1ab_ab_apply _ _ j e

/-- The new shift of the first key tile is the block maximum. -/
theorem pay7_eq (q : Vec Ideal S1x1024x1024 .bf16) (k : Vec Ideal S1x512x1024 .bf16) :
    k1_pay7 (F := Ideal) q k = k1_pay3 (F := Ideal) q k := by
  unfold k1_pay7
  exact shapeCast_self _ _

/-- A row's sum reshaped to a column. -/
theorem rowsum_col_apply (src : FVec Ideal S1024x512 .f32) (h : S1024x512.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction (F := Ideal) .add [1] S1024 src 0x00000000#32 h hφ hacc) hc (ix2 r u)
      = ∑ j : Fin 512, src (ix2 r j) :=
  (shapeCast_a_a1_apply _ _ r u).trans (rowsum_apply src h hφ hacc r)

section RealA
variable (q : Vec Ideal S1x1024x1024 .bf16) (k v : Vec Ideal S1x512x1024 .bf16)
  (qr : Fin 1024 → Fin 1024 → ℝ) (kr vr : Fin 512 → Fin 1024 → ℝ)
  (hq : ∀ r e, q (ix3 (0 : Fin 1) r e) = ((qr r e : ℝ) : EReal))
  (hk : ∀ j e, k (ix3 (0 : Fin 1) j e) = ((kr j e : ℝ) : EReal))
  (hv : ∀ j e, v (ix3 (0 : Fin 1) j e) = ((vr j e : ℝ) : EReal))
  (r : Fin 1024) (m : ℝ) (hm : k1_pay3 (F := Ideal) q k (ix2 r (0 : Fin 1)) = ((m : ℝ) : EReal))
include hq hk hm

/-- The first tile's weights: the exponentials of the scores less the block maximum. -/
theorem pay4_coe (j : Fin 512) :
    k1_pay4 (F := Ideal) q k (ix2 r j) = ((Real.exp (sc qr kr r j - m) : ℝ) : EReal) := by
  unfold k1_pay4
  rw [exp_apply, subf_apply, broadcastTo_a1_ab_apply, pay2_coe q k qr kr hq hk, hm, Cert.Softmax.coe_sub,
    Cert.Softmax.ideal_exp_coe]

/-- The first tile's normaliser. -/
theorem pay5_coe :
    k1_pay5 (F := Ideal) q k (ix2 r (0 : Fin 1)) = ((∑ j : Fin 512, Real.exp (sc qr kr r j - m) : ℝ) : EReal) := by
  unfold k1_pay5
  dsimp only
  rw [shapeCast_self]
  refine (rowsum_col_apply _ _ _ _ _ r 0).trans ?_
  rw [← Cert.Softmax.coe_sum]
  exact Finset.sum_congr rfl fun j _ => pay4_coe q k qr kr hq hk r m hm j

include hv in
/-- The first tile's weighted sum. -/
theorem pay6_coe (e : Fin 1024) :
    k1_pay6 (F := Ideal) q k v (ix2 r e) = ((∑ j : Fin 512, Real.exp (sc qr kr r j - m) * vr j e : ℝ) : EReal) := by
  unfold k1_pay6
  rw [shapeCast_self, matmulPV_apply, ← Cert.Softmax.coe_sum]
  refine Finset.sum_congr rfl fun j _ => ?_
  rw [truncf_apply, pay4_coe q k qr kr hq hk r m hm j, pay1_apply, hv, Cert.Softmax.coe_mul]

end RealA

theorem caseA (q : Vec Ideal S1x1024x1024 .bf16) (k v : Vec Ideal S1x512x1024 .bf16)
    (qr : Fin 1024 → Fin 1024 → ℝ) (kr vr : Fin 512 → Fin 1024 → ℝ)
    (hq : ∀ r e, q (ix3 (0 : Fin 1) r e) = ((qr r e : ℝ) : EReal))
    (hk : ∀ j e, k (ix3 (0 : Fin 1) j e) = ((kr j e : ℝ) : EReal))
    (hv : ∀ j e, v (ix3 (0 : Fin 1) j e) = ((vr j e : ℝ) : EReal)) :
    ∃ μ : Fin 1024 → ℝ,
      (∀ r, k1_pay7 (F := Ideal) q k (ix2 r (0 : Fin 1)) = ((μ r : ℝ) : EReal))
      ∧ (∀ r, k1_pay5 (F := Ideal) q k (ix2 r (0 : Fin 1)) = ((∑ j : Fin 512, Real.exp (sc qr kr r j - μ r) : ℝ) : EReal))
      ∧ (∀ r e, k1_pay6 (F := Ideal) q k v (ix2 r e) = ((∑ j : Fin 512, Real.exp (sc qr kr r j - μ r) * vr j e : ℝ) : EReal)) := by
  choose μ hμ using pay3_coe q k qr kr hq hk
  exact ⟨μ, fun r => by rw [pay7_eq]; exact hμ r, fun r => pay5_coe q k qr kr hq hk r (μ r) (hμ r),
    fun r e => pay6_coe q k v qr kr vr hq hk hv r (μ r) (hμ r) e⟩

/-! ### A later key tile -/

/-- The new shift of a later key tile, stored: the maximum of the carried shift and the block maximum. -/
theorem pay13_eq (q : Vec Ideal S1x1024x1024 .bf16) (k : Vec Ideal S1x512x1024 .bf16) (mo : Vec Ideal S1024x1 .f32) :
    k1_pay13 (F := Ideal) q k mo = k1_pay8 (F := Ideal) q k mo := by
  unfold k1_pay13
  exact shapeCast_self _ _

section RealB
variable (q : Vec Ideal S1x1024x1024 .bf16) (k v : Vec Ideal S1x512x1024 .bf16)
  (qr : Fin 1024 → Fin 1024 → ℝ) (kr vr : Fin 512 → Fin 1024 → ℝ)
  (hq : ∀ r e, q (ix3 (0 : Fin 1) r e) = ((qr r e : ℝ) : EReal))
  (hk : ∀ j e, k (ix3 (0 : Fin 1) j e) = ((kr j e : ℝ) : EReal))
  (hv : ∀ j e, v (ix3 (0 : Fin 1) j e) = ((vr j e : ℝ) : EReal))
  (mo lo : Vec Ideal S1024x1 .f32) (ao : Vec Ideal S1024x1024 .f32) (μo lr : Fin 1024 → ℝ) (ar : Fin 1024 → Fin 1024 → ℝ)
  (hmo : ∀ r, mo (ix2 r (0 : Fin 1)) = ((μo r : ℝ) : EReal)) (hl : ∀ r, lo (ix2 r (0 : Fin 1)) = ((lr r : ℝ) : EReal))
  (ha : ∀ r e, ao (ix2 r e) = ((ar r e : ℝ) : EReal))
  (r : Fin 1024)

include hmo in
/-- The new shift is a coerced real when the block maximum is. -/
theorem pay8_coe (m : ℝ) (hm : k1_pay3 (F := Ideal) q k (ix2 r (0 : Fin 1)) = ((m : ℝ) : EReal)) :
    k1_pay8 (F := Ideal) q k mo (ix2 r (0 : Fin 1)) = ((max (μo r) m : ℝ) : EReal) := by
  unfold k1_pay8
  rw [maximumf_apply, hmo, hm, Cert.Softmax.coe_max]

variable (mn : ℝ) (h8 : k1_pay8 (F := Ideal) q k mo (ix2 r (0 : Fin 1)) = ((mn : ℝ) : EReal))
include h8

include hmo in
/-- The rescaling factor: the exponential of the carried shift less the new one. -/
theorem pay9_coe : k1_pay9 (F := Ideal) q k mo mo (ix2 r (0 : Fin 1)) = ((Real.exp (μo r - mn) : ℝ) : EReal) := by
  unfold k1_pay9
  rw [exp_apply, subf_apply, hmo, h8, Cert.Softmax.coe_sub, Cert.Softmax.ideal_exp_coe]

include hq hk in
/-- A later tile's weights: the exponentials of the scores less the new shift. -/
theorem pay10_coe (j : Fin 512) :
    k1_pay10 (F := Ideal) q k mo (ix2 r j) = ((Real.exp (sc qr kr r j - mn) : ℝ) : EReal) := by
  unfold k1_pay10
  rw [exp_apply, subf_apply, broadcastTo_a1_ab_apply, pay2_coe q k qr kr hq hk, h8, Cert.Softmax.coe_sub,
    Cert.Softmax.ideal_exp_coe]

include hq hk hmo hl in
/-- A later tile's normaliser: the carried one rescaled, plus the tile's. -/
theorem pay11_coe :
    k1_pay11 (F := Ideal) q k mo mo lo (ix2 r (0 : Fin 1))
      = ((Real.exp (μo r - mn) * lr r + ∑ j : Fin 512, Real.exp (sc qr kr r j - mn) : ℝ) : EReal) := by
  unfold k1_pay11
  try dsimp only
  rw [shapeCast_self, addf_apply]
  refine (congrArg₂ (· + ·) ?_ ?_).trans (Cert.Softmax.coe_add _ _)
  · rw [mulf_apply, pay9_coe q k mo μo hmo r mn h8, hl, Cert.Softmax.coe_mul]
  · refine (rowsum_col_apply _ _ _ _ _ r 0).trans ?_
    rw [← Cert.Softmax.coe_sum]
    exact Finset.sum_congr rfl fun j _ => pay10_coe q k qr kr hq hk mo r mn h8 j

include hq hk hv hmo ha in
/-- A later tile's weighted sum: the carried one rescaled, plus the tile's. -/
theorem pay12_coe (e : Fin 1024) :
    k1_pay12 (F := Ideal) q k v mo mo ao (ix2 r e)
      = ((Real.exp (μo r - mn) * ar r e + ∑ j : Fin 512, Real.exp (sc qr kr r j - mn) * vr j e : ℝ) : EReal) := by
  unfold k1_pay12
  try dsimp only
  rw [shapeCast_self, addf_apply]
  refine (congrArg₂ (· + ·) ?_ ?_).trans (Cert.Softmax.coe_add _ _)
  · rw [mulf_apply, broadcastTo_a1_ab_apply, pay9_coe q k mo μo hmo r mn h8, ha, Cert.Softmax.coe_mul]
  · rw [matmulPV_apply, ← Cert.Softmax.coe_sum]
    refine Finset.sum_congr rfl fun j _ => ?_
    rw [truncf_apply, pay10_coe q k qr kr hq hk mo r mn h8 j, pay1_apply, hv, Cert.Softmax.coe_mul]

end RealB

theorem caseB (q : Vec Ideal S1x1024x1024 .bf16) (k v : Vec Ideal S1x512x1024 .bf16)
    (qr : Fin 1024 → Fin 1024 → ℝ) (kr vr : Fin 512 → Fin 1024 → ℝ)
    (hq : ∀ r e, q (ix3 (0 : Fin 1) r e) = ((qr r e : ℝ) : EReal))
    (hk : ∀ j e, k (ix3 (0 : Fin 1) j e) = ((kr j e : ℝ) : EReal))
    (hv : ∀ j e, v (ix3 (0 : Fin 1) j e) = ((vr j e : ℝ) : EReal))
    (mo lo : Vec Ideal S1024x1 .f32) (ao : Vec Ideal S1024x1024 .f32) (μo lr : Fin 1024 → ℝ) (ar : Fin 1024 → Fin 1024 → ℝ)
    (hm : ∀ r, mo (ix2 r (0 : Fin 1)) = ((μo r : ℝ) : EReal)) (hl : ∀ r, lo (ix2 r (0 : Fin 1)) = ((lr r : ℝ) : EReal))
    (ha : ∀ r e, ao (ix2 r e) = ((ar r e : ℝ) : EReal)) :
    ∃ μ : Fin 1024 → ℝ,
      (∀ r, k1_pay13 (F := Ideal) q k mo (ix2 r (0 : Fin 1)) = ((μ r : ℝ) : EReal))
      ∧ (∀ r, k1_pay11 (F := Ideal) q k mo mo lo (ix2 r (0 : Fin 1)) = ((Real.exp (μo r - μ r) * lr r + ∑ j : Fin 512, Real.exp (sc qr kr r j - μ r) : ℝ) : EReal))
      ∧ (∀ r e, k1_pay12 (F := Ideal) q k v mo mo ao (ix2 r e) = ((Real.exp (μo r - μ r) * ar r e + ∑ j : Fin 512, Real.exp (sc qr kr r j - μ r) * vr j e : ℝ) : EReal)) := by
  choose m3 hm3 using pay3_coe q k qr kr hq hk
  have h8 : ∀ r, k1_pay8 (F := Ideal) q k mo (ix2 r (0 : Fin 1)) = ((max (μo r) (m3 r) : ℝ) : EReal) :=
    fun r => pay8_coe q k mo μo hm r (m3 r) (hm3 r)
  exact ⟨fun r => max (μo r) (m3 r), fun r => by rw [pay13_eq]; exact h8 r,
    fun r => pay11_coe q k qr kr hq hk mo lo μo lr hm hl r _ (h8 r),
    fun r e => pay12_coe q k v qr kr vr hq hk hv mo ao μo ar hm ha r _ (h8 r) e⟩

/-! ### The last key tile -/

theorem caseOut (acc : Vec Ideal S1024x1024 .f32) (l : Vec Ideal S1024x1 .f32) (ar : Fin 1024 → Fin 1024 → ℝ) (lr : Fin 1024 → ℝ)
    (ha : ∀ r e, acc (ix2 r e) = ((ar r e : ℝ) : EReal)) (hl : ∀ r, l (ix2 r (0 : Fin 1)) = ((lr r : ℝ) : EReal)) (hpos : ∀ r, lr r ≠ 0) (r e : Fin 1024) :
    k1_pay14 (F := Ideal) acc l (ix3 (0 : Fin 1) r e) = ((ar r e / lr r : ℝ) : EReal) := by
  unfold k1_pay14
  try dsimp only
  rw [shapeCast_ab_1ab_apply, divf_apply, broadcastTo_a1_ab_apply, ha, hl]
  exact Cert.Softmax.ideal_div_coe _ _ (hpos r)

end Cert.KernelIdeal.Pay1
-- ==== Proof.KI.Val1Blk.lean ====
/-
  The attention launch's blocks against its arrays: pure pipeline geometry. The grid is (4, 2, 4) = (batch, query tile,
  key tile), point `t = 8·b + 4·qi + ki`. The query window's block at `t` is rows `1024·qi … 1024·qi + 1023` of batch `b`
  of its array; the key and value windows' blocks are rows `512·ki … 512·ki + 511`; the result window's block is rows
  `1024·qi … 1024·qi + 1023`, written back at `ki = 3` only, and those write-backs cover the result array: row `s` of batch
  `b` by the point `8·b + 4·(s / 1024) + 3`.
-/
import proofs.«427284_j19997367730626_3_alg».proof.Proof.KI.Frame1
import proofs.«427284_j19997367730626_3_alg».proof.Proof.Gen.KernelIdeal.Points
import proofs.«427284_j19997367730626_3_alg».proof.Proof.Gen.KernelIdeal.Launch
import Idealize.ShloMosaic.Lib.Pipeline.Value
import Idealize.ShloMosaic.Lib.ValueIdx

noncomputable section

namespace Cert.KernelIdeal.Val1Blk

open Idealize.ShloMosaic Idealize.ShloMosaic.TcCoe Cert.KernelIdeal Cert.KernelIdeal.Gen Cert.KernelIdeal.Hand ValueIdx

/-- The printed index maps, decided over the grid: the block index of each window at point `t`, axis by axis. -/
theorem idx_facts : ∀ t : Fin cfg1.N,
    win1_0.index t (0 : Fin 3) = t.val / 8 ∧ win1_0.index t (1 : Fin 3) = (t.val / 4) % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = (t.val / 4) % 2 ∧ win1_3.index t (2 : Fin 3) = 0 :=
  (by decide +kernel : ∀ t : Fin grid1.N, _)

variable (V : (c : Dev nD) → (b : Ref sig .tc) → Buf (Elt Ideal) ((c : Thread nD τ).loc b)) (c : Dev nD)

/-- The query block at point `t`, row `r`: row `1024·qi + r` of batch `b` of the query array. -/
theorem blkQ (t : Fin cfg1.N) (r e : Fin 1024) (b : Fin 4) (s : Fin 2048) (hb : b.val = t.val / 8)
    (hs : s.val = 1024 * ((t.val / 4) % 2) + r.val) :
    (iblk1 (F := Ideal) V c 0 t : S1x1024x1024.Idx → EReal) (ix3 (0 : Fin 1) r e)
      = (V c main_v9_0 : S4x2048x1024.Idx → EReal) (ix3 b s e) := by
  obtain ⟨e0, e1, e2, -⟩ := idx_facts t
  show V c main_v9_0 (((cfg1.win 0).blk t).view.emb (ix3 (0 : Fin 1) r e)) = V c main_v9_0 (ix3 b s e)
  congr 1
  funext a
  apply Fin.ext
  match a with
  | ⟨0, _⟩ => show win1_0.index t (0 : Fin 3) * 1 + 1 * (0 : ℕ) = b.val; omega
  | ⟨1, _⟩ => show win1_0.index t (1 : Fin 3) * 1024 + 1 * r.val = s.val; omega
  | ⟨2, _⟩ => show win1_0.index t (2 : Fin 3) * 1024 + 1 * e.val = e.val; omega

/-- The key block at point `t`, row `j`: row `512·ki + j` of batch `b` of the key array. -/
theorem blkK (t : Fin cfg1.N) (j : Fin 512) (e : Fin 1024) (b : Fin 4) (s : Fin 2048) (hb : b.val = t.val / 8)
    (hs : s.val = 512 * (t.val % 4) + j.val) :
    (iblk1 (F := Ideal) V c 1 t : S1x512x1024.Idx → EReal) (ix3 (0 : Fin 1) j e)
      = (V c main_v9_1 : S4x2048x1024.Idx → EReal) (ix3 b s e) := by
  obtain ⟨-, -, -, e0, e1, e2, -⟩ := idx_facts t
  show V c main_v9_1 (((cfg1.win 1).blk t).view.emb (ix3 (0 : Fin 1) j e)) = V c main_v9_1 (ix3 b s e)
  congr 1
  funext a
  apply Fin.ext
  match a with
  | ⟨0, _⟩ => show win1_1.index t (0 : Fin 3) * 1 + 1 * (0 : ℕ) = b.val; omega
  | ⟨1, _⟩ => show win1_1.index t (1 : Fin 3) * 512 + 1 * j.val = s.val; omega
  | ⟨2, _⟩ => show win1_1.index t (2 : Fin 3) * 1024 + 1 * e.val = e.val; omega

/-- The value block at point `t`, row `j`: row `512·ki + j` of batch `b` of the value array. -/
theorem blkV (t : Fin cfg1.N) (j : Fin 512) (e : Fin 1024) (b : Fin 4) (s : Fin 2048) (hb : b.val = t.val / 8)
    (hs : s.val = 512 * (t.val % 4) + j.val) :
    (iblk1 (F := Ideal) V c 2 t : S1x512x1024.Idx → EReal) (ix3 (0 : Fin 1) j e)
      = (V c main_v9_2 : S4x2048x1024.Idx → EReal) (ix3 b s e) := by
  obtain ⟨-, -, -, -, -, -, e0, e1, e2, -⟩ := idx_facts t
  show V c main_v9_2 (((cfg1.win 2).blk t).view.emb (ix3 (0 : Fin 1) j e)) = V c main_v9_2 (ix3 b s e)
  congr 1
  funext a
  apply Fin.ext
  match a with
  | ⟨0, _⟩ => show win1_2.index t (0 : Fin 3) * 1 + 1 * (0 : ℕ) = b.val; omega
  | ⟨1, _⟩ => show win1_2.index t (1 : Fin 3) * 512 + 1 * j.val = s.val; omega
  | ⟨2, _⟩ => show win1_2.index t (2 : Fin 3) * 1024 + 1 * e.val = e.val; omega

/-! ### The result array from its blocks -/

/-- A function of the three coordinates as contents of the result array. -/
def Garr (G : Fin 4 → Fin 2048 → Fin 1024 → EReal) : S4x2048x1024.Idx → EReal :=
  fun i => G ⟨(i 0).val, (i 0).isLt⟩ ⟨(i 1).val, (i 1).isLt⟩ ⟨(i 2).val, (i 2).isLt⟩

/-- An index of the result array is in point `t`'s block iff each coordinate is in the block's range on its axis. -/
theorem mem_blk3 (t : Fin cfg1.N) (i : S4x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v10).slice (win1_3.rect t)).set ↔ _
  rw [View.set_slice_whole, Rect.mem_set_unit]
  exact Iff.rfl

/-- Every index of the result array is in the block of a point that writes back: row `s` of batch `b` in that of
    `8·b + 4·(s / 1024) + 3`. -/
theorem cover3 (i : S4x2048x1024.Idx) :
    ∃ t : Fin cfg1.N, (cfg1.win 3).flush t = true ∧ i ∈ ((cfg1.win 3).blk t).view.set := by
  have hN : cfg1.N = 32 := N_1
  have h0 : (i 0).val < 4 := (i 0).isLt
  have h1 : (i 1).val < 2048 := (i 1).isLt
  have h2 : (i 2).val < 1024 := (i 2).isLt
  obtain ⟨t, ht⟩ : ∃ t : Fin cfg1.N, t.val = 8 * (i 0).val + 4 * ((i 1).val / 1024) + 3 :=
    ⟨⟨8 * (i 0).val + 4 * ((i 1).val / 1024) + 3, by rw [hN]; omega⟩, rfl⟩
  obtain ⟨-, -, -, -, -, -, -, -, -, e0, e1, e2⟩ := idx_facts t
  refine ⟨t, (flush1_3 t).mpr (by omega), ?_⟩
  rw [mem_blk3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

section Arr
variable (G : Fin 4 → Fin 2048 → Fin 1024 → EReal)
  (hblk : ∀ (t : Fin cfg1.N), t.val % 4 = 3 → ∀ (r e : Fin 1024) (b : Fin 4) (s : Fin 2048), b.val = t.val / 8 →
    s.val = 1024 * ((t.val / 4) % 2) + r.val →
      ((outsAt1 (F := Ideal) V c t.val t.isLt).1 : S1x1024x1024.Idx → EReal) (ix3 (0 : Fin 1) r e) = G b s e)
include hblk

/-- What a point that writes back writes is its block of `G`. -/
theorem flushed3_eq (t : Fin cfg1.N) (hf : (cfg1.win 3).flush t = true) :
    (dat1 (F := Ideal) V c).flushed 3 t = ((cfg1.win 3).blk t).view.read (Elt Ideal) (Garr G) := by
  have h3 : t.val % 4 = 3 := (flush1_3 t).mp hf
  have hN : cfg1.N = 32 := N_1
  have ht := t.isLt
  obtain ⟨-, -, -, -, -, -, -, -, -, e0, e1, e2⟩ := idx_facts t
  show (cfg1.win 3).cut (grid1.coords t) ((dat1 V c).after 3 t) = _
  rw [after1_3]
  funext y
  have hy0 : (y 0).val < 1 := (y 0).isLt
  have hy1 : (y 1).val < 1024 := (y 1).isLt
  have hy2 : (y 2).val < 1024 := (y 2).isLt
  have key := hblk t h3 ⟨(y 1).val, hy1⟩ ⟨(y 2).val, hy2⟩ ⟨t.val / 8, by omega⟩ ⟨1024 * ((t.val / 4) % 2) + (y 1).val, by omega⟩ rfl rfl
  have hx : (cfg1.win 3).xinj (grid1.coords t) y = ix3 (0 : Fin 1) ⟨(y 1).val, hy1⟩ ⟨(y 2).val, hy2⟩ :=
    funext fun a => Fin.ext (by
      match a with
      | ⟨0, _⟩ => show (y 0).val = 0; omega
      | ⟨1, _⟩ => rfl
      | ⟨2, _⟩ => rfl)
  show ((outsAt1 (F := Ideal) V c t.val t.isLt).1 : S1x1024x1024.Idx → EReal) ((cfg1.win 3).xinj (grid1.coords t) y)
    = Garr G (((cfg1.win 3).blk t).view.emb y)
  rw [hx, key]
  unfold Garr
  congr 1 <;> apply Fin.ext
  · show t.val / 8 = win1_3.index t (0 : Fin 3) * 1 + 1 * (y 0).val; omega
  · show 1024 * ((t.val / 4) % 2) + (y 1).val = win1_3.index t (1 : Fin 3) * 1024 + 1 * (y 1).val; omega
  · show (y 2).val = win1_3.index t (2 : Fin 3) * 1024 + 1 * (y 2).val; omega

/-- The result array after the launch, entry by entry. -/
theorem arr_of_blocks (b : Fin 4) (s : Fin 2048) (e : Fin 1024) :
    ((dat1 (F := Ideal) V c).arrAt 3 cfg1.N : S4x2048x1024.Idx → EReal) (ix3 b s e) = G b s e := by
  have h := (dat1 (F := Ideal) V c).arrAt_eq_of_cover 3 (Garr G) (flushed3_eq V c G hblk) cover3
  exact (congrFun h (ix3 b s e)).trans rfl

end Arr

end Cert.KernelIdeal.Val1Blk
-- ==== Proof.KI.Val1.lean ====
/-
  The attention launch's result array is the attention of its three input arrays.

  Grid point n = 8·b + 4·qi + ki works on batch b, the query rows 1024·qi … 1024·qi + 1023 and the key positions
  512·ki … 512·ki + 511. After point n the three carried scratch buffers hold, for every query row r of the tile, reals
  μ r, l r, a r with  l r = Σ_t exp(σ r t − μ r)  and  a r e = Σ_t exp(σ r t − μ r) · v t e,  the sums over the key positions
  t of the tiles 0, …, ki, where σ r t is the scaled score of the row against key position t: at key tile 0 the body
  starts from its tile alone, at a later tile it rescales what the point before left by exp(μ_old − μ) and adds its
  tile's terms, the tile being disjoint from the key positions so far. At key tile 3 the sums are over all 2048 key
  positions, the normaliser is positive, and the stored block a r e / l r is the softmax-weighted sum of the values
  whatever the shift: the attention of the row. The blocks stored at the points with key tile 3 tile the result array.
-/
import proofs.«427284_j19997367730626_3_alg».proof.Proof.KI.Pieces1
import proofs.«427284_j19997367730626_3_alg».proof.Proof.KI.Pay1
import proofs.«427284_j19997367730626_3_alg».proof.Proof.KI.Val1Blk
import proofs.«427284_j19997367730626_3_alg».proof.Proof.Softmax
import proofs.«427284_j19997367730626_3_alg».proof.Proof.Spec
import Idealize.ShloMosaic.Lib.Pipeline.Value
import Idealize.ShloMosaic.Lib.ValueIdx

noncomputable section

namespace Cert.KernelIdeal.Val1

open Idealize.ShloMosaic Idealize.ShloMosaic.TcCoe Idealize.SL.Sem
open Idealize.ShloMosaic.Pipeline (Dat)
open Cert.KernelIdeal Cert.KernelIdeal.Gen Cert.KernelIdeal.Hand ValueIdx

/-! ### Key positions: the tiles and their unions -/

section Keys
open Finset

/-- Key position j of key tile ki. -/
def kpos (ki : Fin 4) (j : Fin 512) : Fin 2048 :=
  ⟨512 * ki.val + j.val, by have h1 := ki.isLt; have h2 := j.isLt; omega⟩

theorem kpos_val (ki : Fin 4) (j : Fin 512) : (kpos ki j).val = 512 * ki.val + j.val := rfl

theorem kpos_injective (ki : Fin 4) : Function.Injective (kpos ki) := fun j j' h => by
  have h' := congrArg Fin.val h
  rw [kpos_val, kpos_val] at h'
  exact Fin.ext (by omega)

/-- The key positions of the tiles 0, …, ki. -/
def keys (ki : ℕ) : Finset (Fin 2048) := univ.filter fun t => t.val < 512 * (ki + 1)

/-- The key positions of tile ki. -/
def tile (ki : Fin 4) : Finset (Fin 2048) := univ.image (kpos ki)

theorem mem_keys (ki : ℕ) (t : Fin 2048) : t ∈ keys ki ↔ t.val < 512 * (ki + 1) := by
  unfold keys; rw [mem_filter]; exact ⟨fun h => h.2, fun h => ⟨mem_univ _, h⟩⟩

theorem mem_tile (ki : Fin 4) (t : Fin 2048) : t ∈ tile ki ↔ 512 * ki.val ≤ t.val ∧ t.val < 512 * (ki.val + 1) := by
  unfold tile; rw [mem_image]
  constructor
  · rintro ⟨j, -, rfl⟩; have hj := j.isLt; rw [kpos_val]; omega
  · intro h; exact ⟨⟨t.val - 512 * ki.val, by omega⟩, mem_univ _, Fin.ext (by rw [kpos_val]; show 512 * ki.val + (t.val - 512 * ki.val) = t.val; omega)⟩

/-- A sum over a tile is the sum over the positions inside it. -/
theorem sum_tile (ki : Fin 4) (f : Fin 2048 → ℝ) : ∑ t ∈ tile ki, f t = ∑ j : Fin 512, f (kpos ki j) :=
  Finset.sum_image fun j _ j' _ h => kpos_injective ki h

theorem keys_zero : keys 0 = tile 0 := by
  ext t; rw [mem_keys, mem_tile]; show t.val < 512 * (0 + 1) ↔ 512 * 0 ≤ t.val ∧ t.val < 512 * (0 + 1); omega

theorem keys_succ (ki : Fin 4) (h : 0 < ki.val) : keys (ki.val - 1) ∪ tile ki = keys ki.val := by
  ext t; rw [mem_union, mem_keys, mem_keys, mem_tile]; omega

theorem disjoint_keys_tile (ki : Fin 4) (h : 0 < ki.val) : Disjoint (keys (ki.val - 1)) (tile ki) := by
  rw [Finset.disjoint_left]; intro t ht ht'; rw [mem_tile] at ht'; rw [mem_keys] at ht; omega

theorem keys_three : keys 3 = univ := by
  ext t; rw [mem_keys]; have := t.isLt; exact ⟨fun _ => mem_univ _, fun _ => by omega⟩

/-- The online state after the first key tile. -/
theorem inv_first (ki : Fin 4) (hki : ki.val = 0) (σ : Fin 2048 → ℝ) (vv : Fin 2048 → Fin 1024 → ℝ) (μ : ℝ) :
    Cert.Softmax.Inv (keys ki.val) σ vv μ (∑ j : Fin 512, Real.exp (σ (kpos ki j) - μ))
      (fun e => ∑ j : Fin 512, Real.exp (σ (kpos ki j) - μ) * vv (kpos ki j) e) := by
  obtain rfl : ki = 0 := Fin.ext hki
  show Cert.Softmax.Inv (keys 0) σ vv μ _ _
  rw [keys_zero]
  exact ⟨(sum_tile 0 fun t => Real.exp (σ t - μ)).symm, fun e => (sum_tile 0 fun t => Real.exp (σ t - μ) * vv t e).symm⟩

/-- The online state after a later key tile, from the state after the tile before. -/
theorem inv_next (ki : Fin 4) (h0 : 0 < ki.val) {σ : Fin 2048 → ℝ} {vv : Fin 2048 → Fin 1024 → ℝ} {μo lo : ℝ} {ao : Fin 1024 → ℝ}
    (h : Cert.Softmax.Inv (keys (ki.val - 1)) σ vv μo lo ao) (μ : ℝ) :
    Cert.Softmax.Inv (keys ki.val) σ vv μ (Real.exp (μo - μ) * lo + ∑ j : Fin 512, Real.exp (σ (kpos ki j) - μ))
      (fun e => Real.exp (μo - μ) * ao e + ∑ j : Fin 512, Real.exp (σ (kpos ki j) - μ) * vv (kpos ki j) e) := by
  have hs := h.step (disjoint_keys_tile ki h0) μ
  rw [keys_succ ki h0] at hs
  exact ⟨(congrArg (fun x => Real.exp (μo - μ) * lo + x) (sum_tile ki fun t => Real.exp (σ t - μ)).symm).trans hs.hl,
    fun e => (congrArg (fun x => Real.exp (μo - μ) * ao e + x) (sum_tile ki fun t => Real.exp (σ t - μ) * vv t e).symm).trans (hs.hacc e)⟩

end Keys

/-! ### The coordinates of a grid point: point n = 8·(batch) + 4·(query tile) + (key tile) -/

/-- The batch of point n. -/
def pb (n : ℕ) : Fin 4 := ⟨n / 8 % 4, Nat.mod_lt _ (by decide)⟩
/-- Row r of point n's query tile, as a query position. -/
def prow (n : ℕ) (r : Fin 1024) : Fin 2048 := ⟨1024 * (n / 4 % 2) + r.val, by have := r.isLt; omega⟩
/-- The key tile of point n. -/
def pk (n : ℕ) : Fin 4 := ⟨n % 4, Nat.mod_lt _ (by decide)⟩

theorem lt32 (t : Fin cfg1.N) : t.val < 32 := lt_of_lt_of_eq t.isLt (show cfg1.N = 32 from N_1)

section Launch

variable (V : (c : Dev nD) → (b : Ref sig .tc) → Buf (Elt Ideal) ((c : Thread nD τ).loc b)) (c : Dev nD)
  (q k v : Fin 4 → Fin 2048 → Fin 1024 → ℝ)
  (hQ : ∀ b s e, (V c main_v9_0 : S4x2048x1024.Idx → EReal) (ix3 b s e) = ((q b s e : ℝ) : EReal))
  (hK : ∀ b s e, (V c main_v9_1 : S4x2048x1024.Idx → EReal) (ix3 b s e) = ((k b s e : ℝ) : EReal))
  (hV : ∀ b s e, (V c main_v9_2 : S4x2048x1024.Idx → EReal) (ix3 b s e) = ((v b s e : ℝ) : EReal))

/-! ### The point's blocks hold reals -/

include hQ in
theorem hq_at (t : Fin cfg1.N) (r e : Fin 1024) :
    (iblk1 (F := Ideal) V c 0 t : S1x1024x1024.Idx → EReal) (ix3 (0 : Fin 1) r e) = ((q (pb t.val) (prow t.val r) e : ℝ) : EReal) :=
  (Cert.KernelIdeal.Val1Blk.blkQ V c t r e (pb t.val) (prow t.val r)
    (by have := lt32 t; show t.val / 8 % 4 = t.val / 8; omega) rfl).trans (hQ _ _ _)

include hK in
theorem hk_at (t : Fin cfg1.N) (j : Fin 512) (e : Fin 1024) :
    (iblk1 (F := Ideal) V c 1 t : S1x512x1024.Idx → EReal) (ix3 (0 : Fin 1) j e) = ((k (pb t.val) (kpos (pk t.val) j) e : ℝ) : EReal) :=
  (Cert.KernelIdeal.Val1Blk.blkK V c t j e (pb t.val) (kpos (pk t.val) j)
    (by have := lt32 t; show t.val / 8 % 4 = t.val / 8; omega) rfl).trans (hK _ _ _)

include hV in
theorem hv_at (t : Fin cfg1.N) (j : Fin 512) (e : Fin 1024) :
    (iblk1 (F := Ideal) V c 2 t : S1x512x1024.Idx → EReal) (ix3 (0 : Fin 1) j e) = ((v (pb t.val) (kpos (pk t.val) j) e : ℝ) : EReal) :=
  (Cert.KernelIdeal.Val1Blk.blkV V c t j e (pb t.val) (kpos (pk t.val) j)
    (by have := lt32 t; show t.val / 8 % 4 = t.val / 8; omega) rfl).trans (hV _ _ _)

/-! ### The invariant of the carried scratch -/

/-- The scratch holds reals, and for every row they are the online state over the key positions of the tiles
    0, …, ki: the shift μ r, the normaliser and the weighted sum of the values at that shift. -/
def InvArr (b : Fin 4) (row : Fin 1024 → Fin 2048) (ki : ℕ)
    (m l : Vec Ideal S1024x1 .f32) (a : Vec Ideal S1024x1024 .f32) : Prop :=
  ∃ (μ lr : Fin 1024 → ℝ) (ar : Fin 1024 → Fin 1024 → ℝ),
    (∀ r, m (ix2 r (0 : Fin 1)) = ((μ r : ℝ) : EReal)) ∧ (∀ r, l (ix2 r (0 : Fin 1)) = ((lr r : ℝ) : EReal))
    ∧ (∀ r e, a (ix2 r e) = ((ar r e : ℝ) : EReal))
    ∧ ∀ r, Cert.Softmax.Inv (keys ki) (fun t' => Cert.Spec.score q k b (row r) t') (fun t' e => v b t' e) (μ r) (lr r) (ar r)

include hQ hK hV in
/-- At key tile 0 the body leaves the state over the first tile alone. -/
theorem stepA (t : Fin cfg1.N) (h0 : t.val % 4 = 0) :
    InvArr q k v (pb t.val) (prow t.val) (pk t.val).val
      (k1_pay7 (F := Ideal) (iblk1 (F := Ideal) V c 0 t) (iblk1 (F := Ideal) V c 1 t))
      (k1_pay5 (F := Ideal) (iblk1 (F := Ideal) V c 0 t) (iblk1 (F := Ideal) V c 1 t))
      (k1_pay6 (F := Ideal) (iblk1 (F := Ideal) V c 0 t) (iblk1 (F := Ideal) V c 1 t) (iblk1 (F := Ideal) V c 2 t)) := by
  obtain ⟨μ, hm, hl, ha⟩ := Cert.KernelIdeal.Pay1.caseA (iblk1 (F := Ideal) V c 0 t) (iblk1 (F := Ideal) V c 1 t) (iblk1 (F := Ideal) V c 2 t)
    (fun r e => q (pb t.val) (prow t.val r) e) (fun j e => k (pb t.val) (kpos (pk t.val) j) e) (fun j e => v (pb t.val) (kpos (pk t.val) j) e)
    (hq_at V c q hQ t) (hk_at V c k hK t) (hv_at V c v hV t)
  exact ⟨μ, _, _, hm, hl, ha, fun r => inv_first (pk t.val) h0 _ _ (μ r)⟩

include hQ hK hV in
/-- At a later key tile the body leaves the state over one more tile, from the state the point before left. -/
theorem stepB (t : Fin cfg1.N) (h0 : ¬t.val % 4 = 0) (mo lo : Vec Ideal S1024x1 .f32) (ao : Vec Ideal S1024x1024 .f32)
    (h : InvArr q k v (pb t.val) (prow t.val) ((pk t.val).val - 1) mo lo ao) :
    InvArr q k v (pb t.val) (prow t.val) (pk t.val).val
      (k1_pay13 (F := Ideal) (iblk1 (F := Ideal) V c 0 t) (iblk1 (F := Ideal) V c 1 t) mo)
      (k1_pay11 (F := Ideal) (iblk1 (F := Ideal) V c 0 t) (iblk1 (F := Ideal) V c 1 t) mo mo lo)
      (k1_pay12 (F := Ideal) (iblk1 (F := Ideal) V c 0 t) (iblk1 (F := Ideal) V c 1 t) (iblk1 (F := Ideal) V c 2 t) mo mo ao) := by
  obtain ⟨μo, lr, ar, hmo, hlo, hao, hinv⟩ := h
  obtain ⟨μ, hm, hl, ha⟩ := Cert.KernelIdeal.Pay1.caseB (iblk1 (F := Ideal) V c 0 t) (iblk1 (F := Ideal) V c 1 t) (iblk1 (F := Ideal) V c 2 t)
    (fun r e => q (pb t.val) (prow t.val r) e) (fun j e => k (pb t.val) (kpos (pk t.val) j) e) (fun j e => v (pb t.val) (kpos (pk t.val) j) e)
    (hq_at V c q hQ t) (hk_at V c k hK t) (hv_at V c v hV t) mo lo ao μo lr ar hmo hlo hao
  exact ⟨μ, _, _, hm, hl, ha, fun r => inv_next (pk t.val) (Nat.pos_of_ne_zero h0) (hinv r) (μ r)⟩

/-! ### The invariant after every point -/

theorem pb_pred (n : ℕ) (h : ¬(n + 1) % 4 = 0) : pb n = pb (n + 1) :=
  Fin.ext (by show n / 8 % 4 = (n + 1) / 8 % 4; omega)
theorem prow_pred (n : ℕ) (h : ¬(n + 1) % 4 = 0) : prow n = prow (n + 1) :=
  funext fun r => Fin.ext (by show 1024 * (n / 4 % 2) + r.val = 1024 * ((n + 1) / 4 % 2) + r.val; omega)
theorem pk_pred (n : ℕ) (h : ¬(n + 1) % 4 = 0) : (pk n).val = (pk (n + 1)).val - 1 := by
  show n % 4 = (n + 1) % 4 - 1; omega

include hQ hK hV in
/-- After point n the scratch holds the online state of point n's query rows over the key tiles 0, …, n mod 4:
    by induction on the point; key tile 0 starts afresh, a later tile continues the point before (same batch, same
    query tile, the key tile before). -/
theorem inv_outs : ∀ (n : ℕ) (hn : n < cfg1.N),
    InvArr q k v (pb n) (prow n) (pk n).val (outsAt1 (F := Ideal) V c n hn).2.1 (outsAt1 (F := Ideal) V c n hn).2.2.1
      (outsAt1 (F := Ideal) V c n hn).2.2.2
  | 0, hn => by
    rw [outsAt1_A V c ⟨0, hn⟩ rfl, stA_m V c ⟨0, hn⟩ rfl, stA_l V c ⟨0, hn⟩ rfl, stA_acc V c ⟨0, hn⟩ rfl]
    exact stepA V c q k v hQ hK hV ⟨0, hn⟩ rfl
  | n + 1, hn => by
    by_cases h0 : (n + 1) % 4 = 0
    · rw [outsAt1_A V c ⟨n + 1, hn⟩ h0, stA_m V c ⟨n + 1, hn⟩ h0, stA_l V c ⟨n + 1, hn⟩ h0, stA_acc V c ⟨n + 1, hn⟩ h0]
      exact stepA V c q k v hQ hK hV ⟨n + 1, hn⟩ h0
    · have ih := inv_outs n (Nat.lt_of_succ_lt hn)
      rw [pb_pred n h0, prow_pred n h0, pk_pred n h0] at ih
      by_cases h3 : (n + 1) % 4 = 3
      · rw [outsAt1_C V c ⟨n + 1, hn⟩ h3, stC_m V c ⟨n + 1, hn⟩ h3, stC_l V c ⟨n + 1, hn⟩ h3, stC_acc V c ⟨n + 1, hn⟩ h3]
        exact stepB V c q k v hQ hK hV ⟨n + 1, hn⟩ h0 _ _ _ ih
      · rw [outsAt1_B V c ⟨n + 1, hn⟩ h0 h3, stB_m V c ⟨n + 1, hn⟩ h0 h3, stB_l V c ⟨n + 1, hn⟩ h0 h3,
          stB_acc V c ⟨n + 1, hn⟩ h0 h3]
        exact stepB V c q k v hQ hK hV ⟨n + 1, hn⟩ h0 _ _ _ ih

/-! ### The result block at the last key tile -/

include hQ hK hV in
/-- At key tile 3 the stored block is the weighted sum over the normaliser, the state being over all key positions:
    the attention of the point's query rows. -/
theorem out_eq (t : Fin cfg1.N) (h3 : t.val % 4 = 3) (r e : Fin 1024) :
    ((outsAt1 (F := Ideal) V c t.val t.isLt).1 : S1x1024x1024.Idx → EReal) (ix3 (0 : Fin 1) r e)
      = ((Cert.Spec.attn q k v (pb t.val) (prow t.val r) e : ℝ) : EReal) := by
  obtain ⟨n, hn⟩ := t
  cases n with
  | zero => exact absurd (show 0 % 4 = 3 from h3) (by decide)
  | succ n =>
    have h3' : (n + 1) % 4 = 3 := h3
    have h0 : ¬(n + 1) % 4 = 0 := by omega
    have ih := inv_outs V c q k v hQ hK hV n (Nat.lt_of_succ_lt hn)
    rw [pb_pred n h0, prow_pred n h0, pk_pred n h0] at ih
    obtain ⟨μ, lr, ar, -, hl, ha, hinv⟩ := stepB V c q k v hQ hK hV ⟨n + 1, hn⟩ h0 _ _ _ ih
    have hne : (keys (pk (n + 1)).val).Nonempty :=
      ⟨0, (mem_keys _ _).mpr (by show 0 < 512 * ((n + 1) % 4 + 1); omega)⟩
    rw [outsAt1_C V c ⟨n + 1, hn⟩ h3', stC_out V c ⟨n + 1, hn⟩ h3']
    refine (Cert.KernelIdeal.Pay1.caseOut _ _ ar lr ha hl (fun r' => ((hinv r').l_pos hne).ne') r e).trans ?_
    refine congrArg (fun x : ℝ => (x : EReal)) ?_
    have hf := (hinv r).final hne e
    have h3k : (pk (n + 1)).val = 3 := h3'
    rw [h3k, keys_three] at hf
    exact hf

end Launch

/-! ### The result array -/

open Idealize.ShloMosaic Cert.KernelIdeal Cert.KernelIdeal.Gen Cert.KernelIdeal.Hand ValueIdx in
theorem arrOut (V : (c : Dev nD) → (b : Ref sig .tc) → Buf (Elt Ideal) ((c : Thread nD τ).loc b)) (c : Dev nD)
    (q k v : Fin 4 → Fin 2048 → Fin 1024 → ℝ)
    (hQ : ∀ b s e, (V c main_v9_0 : S4x2048x1024.Idx → EReal) (ix3 b s e) = ((q b s e : ℝ) : EReal))
    (hK : ∀ b s e, (V c main_v9_1 : S4x2048x1024.Idx → EReal) (ix3 b s e) = ((k b s e : ℝ) : EReal))
    (hV : ∀ b s e, (V c main_v9_2 : S4x2048x1024.Idx → EReal) (ix3 b s e) = ((v b s e : ℝ) : EReal))
    (b : Fin 4) (s : Fin 2048) (e : Fin 1024) :
    ((dat1 (F := Ideal) V c).arrAt 3 cfg1.N : S4x2048x1024.Idx → EReal) (ix3 b s e) = ((Cert.Spec.attn q k v b s e : ℝ) : EReal) :=
  Cert.KernelIdeal.Val1Blk.arr_of_blocks V c (fun b s e => ((Cert.Spec.attn q k v b s e : ℝ) : EReal))
    (fun t h3 r e b' s' hb hs => by
      have hb' : b' = pb t.val := Fin.ext (by have := lt32 t; show b'.val = t.val / 8 % 4; omega)
      have hs' : s' = prow t.val r := Fin.ext hs
      subst hb' hs'
      exact out_eq V c q k v hQ hK hV t h3 r e) b s e

end Cert.KernelIdeal.Val1

end
-- ==== Proof.Bridge.lean ====
/-
  The two idealized programs compute one function of real-valued inputs. Under the precondition every input entry is a
  real. The kernel side: the host stretch's three arrays, the projection launch's arrays (the real projections Q, K,
  V) and the attention launch's final array (the softmax average of V under the scaled scores) compose to the
  specification; the reference side: its run's term, stage by stage, is the same real function. The programs' memories
  agree on the arguments, so the two results are equal entry by entry.
-/
import proofs.«427284_j19997367730626_3_alg».proof.Defs
import proofs.«427284_j19997367730626_3_alg».proof.Proof.Gen.Kernel
import proofs.«427284_j19997367730626_3_alg».proof.Proof.Gen.KernelIdeal
import proofs.«427284_j19997367730626_3_alg».proof.Proof.Gen.ReferenceIdeal
import proofs.«427284_j19997367730626_3_alg».proof.Proof.Gen.Pre_finite_inputs
import proofs.«427284_j19997367730626_3_alg».proof.Proof.Gen.ReferenceIdeal.Run
import proofs.«427284_j19997367730626_3_alg».proof.Proof.Gen.ReferenceIdeal.Read
import proofs.«427284_j19997367730626_3_alg».proof.Proof.KI.Run
import proofs.«427284_j19997367730626_3_alg».proof.Proof.RefValue
import proofs.«427284_j19997367730626_3_alg».proof.Proof.Finite
import proofs.«427284_j19997367730626_3_alg».proof.Proof.Spec
import proofs.«427284_j19997367730626_3_alg».proof.Proof.KI.Val0
import proofs.«427284_j19997367730626_3_alg».proof.Proof.KI.Val1

noncomputable section

namespace Cert.Bridge

open Idealize.ShloMosaic Idealize.ShloMosaic.TcCoe Idealize.SL.Sem ValueIdx

/-- The kernel program's result array, entry by entry, under real-valued arguments. -/
theorem kernel_value (m : (ℓ : Loc Cert.KernelIdeal.nD Cert.KernelIdeal.τ Cert.KernelIdeal.sig) → Buf (Elt Ideal) ℓ) (c : Dev Cert.KernelIdeal.nD)
    (xr : Fin 4 → Fin 1024 → Fin 2048 → ℝ) (wq : Fin 1024 → Fin 1024 → ℝ) (bq : Fin 1024 → ℝ) (wk : Fin 1024 → Fin 1024 → ℝ) (bk : Fin 1024 → ℝ) (wv : Fin 1024 → Fin 1024 → ℝ) (bv : Fin 1024 → ℝ)
    (hX : ∀ b d s, m ((c.tc : Thread Cert.KernelIdeal.nD Cert.KernelIdeal.τ).loc Cert.KernelIdeal.main_arg0) (ix3 b d s) = ((xr b d s : ℝ) : EReal))
    (hWq : ∀ e d, m ((c.tc : Thread Cert.KernelIdeal.nD Cert.KernelIdeal.τ).loc Cert.KernelIdeal.main_arg1) (ix2 e d) = ((wq e d : ℝ) : EReal))
    (hBq : ∀ e, m ((c.tc : Thread Cert.KernelIdeal.nD Cert.KernelIdeal.τ).loc Cert.KernelIdeal.main_arg2) (ix1 e) = ((bq e : ℝ) : EReal))
    (hWk : ∀ e d, m ((c.tc : Thread Cert.KernelIdeal.nD Cert.KernelIdeal.τ).loc Cert.KernelIdeal.main_arg3) (ix2 e d) = ((wk e d : ℝ) : EReal))
    (hBk : ∀ e, m ((c.tc : Thread Cert.KernelIdeal.nD Cert.KernelIdeal.τ).loc Cert.KernelIdeal.main_arg4) (ix1 e) = ((bk e : ℝ) : EReal))
    (hWv : ∀ e d, m ((c.tc : Thread Cert.KernelIdeal.nD Cert.KernelIdeal.τ).loc Cert.KernelIdeal.main_arg5) (ix2 e d) = ((wv e d : ℝ) : EReal))
    (hBv : ∀ e, m ((c.tc : Thread Cert.KernelIdeal.nD Cert.KernelIdeal.τ).loc Cert.KernelIdeal.main_arg6) (ix1 e) = ((bv e : ℝ) : EReal))
    (b : Fin 4) (s : Fin 2048) (e : Fin 1024) :
    ((Cert.KernelIdeal.Hand.dat1 (F := Ideal) (Cert.KernelIdeal.Hand.E2 m) c).arrAt 3 Cert.KernelIdeal.cfg1.N : Cert.KernelIdeal.S4x2048x1024.Idx → EReal) (ix3 b s e)
      = ((Cert.Spec.result xr wq bq wk bk wv bv b s e : ℝ) : EReal) := by
  have hQ : ∀ b s e, (Cert.KernelIdeal.Hand.E2 m c Cert.KernelIdeal.main_v9_0 : Cert.KernelIdeal.S4x2048x1024.Idx → EReal) (ix3 b s e)
      = ((Cert.Spec.proj xr wq bq b s e : ℝ) : EReal) := fun b s e =>
    (congrFun (Cert.KernelIdeal.Hand.B2_arr m c 3) (ix3 b s e)).trans (Cert.KernelIdeal.Val0.arrQ m c xr wq bq hX hWq hBq b s e)
  have hK : ∀ b s e, (Cert.KernelIdeal.Hand.E2 m c Cert.KernelIdeal.main_v9_1 : Cert.KernelIdeal.S4x2048x1024.Idx → EReal) (ix3 b s e)
      = ((Cert.Spec.proj xr wk bk b s e : ℝ) : EReal) := fun b s e =>
    (congrFun (Cert.KernelIdeal.Hand.B2_arr m c 4) (ix3 b s e)).trans (Cert.KernelIdeal.Val0.arrK m c xr wk bk hX hWk hBk b s e)
  have hV : ∀ b s e, (Cert.KernelIdeal.Hand.E2 m c Cert.KernelIdeal.main_v9_2 : Cert.KernelIdeal.S4x2048x1024.Idx → EReal) (ix3 b s e)
      = ((Cert.Spec.proj xr wv bv b s e : ℝ) : EReal) := fun b s e =>
    (congrFun (Cert.KernelIdeal.Hand.B2_arr m c 5) (ix3 b s e)).trans (Cert.KernelIdeal.Val0.arrV m c xr wv bv hX hWv hBv b s e)
  exact Cert.KernelIdeal.Val1.arrOut (Cert.KernelIdeal.Hand.E2 m) c _ _ _ hQ hK hV b s e

/-- From memories agreeing on the arguments, both idealized programs run to equal results and unchanged arguments. -/
theorem algebraic : Cert.algebraic_KernelIdeal_ReferenceIdeal := by
  intro m g m' g' hpre hagree
  refine ⟨fun c => (Cert.KernelIdeal.Hand.dat1 (F := Ideal) (Cert.KernelIdeal.Hand.E2 m) c).arrAt 3 Cert.KernelIdeal.cfg1.N,
    Cert.KernelIdeal.Hand.run_result (F := Ideal) m g, ?_⟩
  refine (θ_run Cert.ReferenceIdeal.defs _ _).mono (fun _ h c => ⟨(h c).1.trans ?_, (h c).2⟩)
    (Cert.ReferenceIdeal.Value.run (F := Ideal) m' g')
  obtain ⟨⟨xr, hX⟩, ⟨wq, hWq⟩, ⟨bq, hBq⟩, ⟨wk, hWk⟩, ⟨bk, hBk⟩, ⟨wv, hWv⟩, ⟨bv, hBv⟩⟩ :=
    Cert.Finite.reals_of_pre _ _ _ _ _ _ _ (hpre c)
  obtain ⟨h0, h1, h2, h3, h4, h5, h6⟩ := hagree c
  rw [Cert.ReferenceIdeal.Read.val_main_v28_eq, h0, h1, h2, h3, h4, h5, h6]
  funext i
  obtain ⟨b, s, e, rfl⟩ : ∃ (b : Fin 4) (s : Fin 2048) (e : Fin 1024), i = ix3 b s e := ⟨i 0, i 1, i 2, eq_ix3 i⟩
  exact (Cert.RefValue.result_eq _ _ _ _ _ _ _ xr wq bq wk bk wv bv hX hWq hBq hWk hBk hWv hBv b s e).trans
    (kernel_value m c xr wq bq wk bk wv bv hX hWq hBq hWk hBk hWv hBv b s e).symm

end Cert.Bridge

end
-- ==== Proof.lean ====
/-
  Single-head self-attention over x : [4, 1024, 2048]: the kernel program — a host stretch that transposes the input
  and fuses the three projection weights and biases, a fused projection launch producing Q, K, V, and an attention
  launch by an online softmax over four key tiles — against the plain reference (three projections, scores divided
  by √1024, a softmax shifted by the row maximum, the weighted sum of V).
  The frames of the two kernel programs: the host stretch, then each launch entered from the buffer contents the item
  before left and leaving its result arrays at what its write-backs fold to (the attention launch's invariant carries
  the three scratch buffers from grid point to grid point). The reference's frame is its run with the result
  dropped. The ideal pass rewrote nothing, so the kernel's idealization is its own text. The algebraic claim: under
  finite inputs every entry is a real; the projection launch's arrays are the real projections; the attention
  launch's final array is the softmax average  Σ_t exp σ_t · V_t / Σ_t exp σ_t  (the online accumulation keeps
  "normaliser and weighted sum at the current shift" as its invariant, and the average does not depend on the
  shift); the reference's stages are the same reals (its shift is the row maximum; 1/32 against √1024 = 32).
-/
import proofs.«427284_j19997367730626_3_alg».proof.Defs
import proofs.«427284_j19997367730626_3_alg».proof.Proof.Gen.Kernel
import proofs.«427284_j19997367730626_3_alg».proof.Proof.Gen.KernelIdeal
import proofs.«427284_j19997367730626_3_alg».proof.Proof.Gen.ReferenceIdeal
import proofs.«427284_j19997367730626_3_alg».proof.Proof.Gen.Pre_finite_inputs
import proofs.«427284_j19997367730626_3_alg».proof.Proof.Gen.ReferenceIdeal.Run
import proofs.«427284_j19997367730626_3_alg».proof.Proof.K.Run
import proofs.«427284_j19997367730626_3_alg».proof.Proof.KI.Run
import proofs.«427284_j19997367730626_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
